-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_v28 : IVec S_ 1) (main_v33 : IVec S_ 1) : IVec S_ 1 :=
  let main_v34 : IVec S_ 1 := andi main_v28 main_v33
  let main_v35 : IVec S1x800000 32 := (extractStridedSlice S1x800000 ![0, 0] · slices_S2x800000_S1x800000_0_0) main_arg1
  let main_v36 : IVec S800000 32 := shapeCast S800000 main_v35 shapeCasts_S1x800000_S800000
  let main_c_12 : IVec S_ 32 := constantI S_ 32 50000#32
  let main_v37 : IVec S800000 32 := broadcastInDim S800000 ![] bcast_S_S800000 main_c_12
  let main_v38 : IVec S800000 1 := cmpi .slt main_v36 main_v37
  let main_c_13 : IVec S_ 1 := constantI S_ 1 1#1
  let main_v39 : IVec S_ 1 := (fun x v => Host.reduce IntOp.andi x v reducesTo_S800000_S_d0 h_S_) main_v38 main_c_13
  let main_v40 : IVec S_ 1 := andi main_v34 main_v39
  main_v40

def fn_part1 {F : FTy → Type} [FloatOps F] (main_arg1 : IVec S2x800000 32) (main_arg5 : FVec F S3x128 .f32) (main_arg6 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : IVec S1x800000 32 := (extractStridedSlice S1x800000 ![0, 0] · slices_S2x800000_S1x800000_0_0) main_arg1
  let main_v30 : IVec S800000 32 := shapeCast S800000 main_v29 shapeCasts_S1x800000_S800000
  let main_c_10 : IVec S_ 32 := constantI S_ 32 4294917296#32
  let main_v31 : IVec S800000 32 := broadcastInDim S800000 ![] bcast_S_S800000 main_c_10
  let main_v32 : IVec S800000 1 := cmpi .sge main_v30 main_v31
  let main_c_11 : IVec S_ 1 := constantI S_ 1 1#1
  let main_v33 : IVec S_ 1 := (fun x v => Host.reduce IntOp.andi x v reducesTo_S800000_S_d0 h_S_) main_v32 main_c_11
  fn_part2 (F := F) main_arg1 main_v28 main_v33

def fn {F : FTy → Type} [FloatOps F] (main_arg0 : FVec F S50000x128 .f32) (main_arg1 : IVec S2x800000 32) (main_arg2 : FVec F S3x128x128 .f32) (main_arg3 : FVec F S3x128 .f32) (main_arg4 : FVec F S3x128x128 .f32) (main_arg5 : FVec F S3x128 .f32) (main_arg6 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg1 main_arg5 main_arg6 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000 : Shape := ⟨1, ![50000]⟩
abbrev S50000x1 : Shape := ⟨2, ![50000, 1]⟩
abbrev S1 : Shape := ⟨1, ![1]⟩
abbrev S1x1 : Shape := ⟨2, ![1, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S5000x1 : Shape := ⟨2, ![5000, 1]⟩
abbrev S5000 : Shape := ⟨1, ![5000]⟩

abbrev nBuf : Space → Nat
  | .hbm => 166
  | .vmem => 39
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S1x800000, .i32⟩
  | 8 => ⟨S800000, .i32⟩
  | 9 => ⟨S1x800000, .i32⟩
  | 10 => ⟨S800000, .i32⟩
  | 11 => ⟨S800000, .i32⟩
  | 12 => ⟨S800000, .i32⟩
  | 13 => ⟨S800000, .i32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .i32⟩
  | 32 => ⟨S_, .f32⟩
  | 33 => ⟨S800000, .f32⟩
  | 34 => ⟨S_, .f32⟩
  | 35 => ⟨S50000, .f32⟩
  | 36 => ⟨S800000x1, .i32⟩
  | 37 => ⟨S50000, .f32⟩
  | 38 => ⟨S50000x1, .f32⟩
  | 39 => ⟨S3x128x128, .f32⟩
  | 40 => ⟨S3x128x128, .bf16⟩
  | 41 => ⟨S3x128x128, .f32⟩
  | 42 => ⟨S3x128x128, .bf16⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S1, .i32⟩
  | 52 => ⟨S_, .i32⟩
  | 53 => ⟨S800000x1, .i32⟩
  | 54 => ⟨S800000x1, .i1⟩
  | 55 => ⟨S1x1, .i32⟩
  | 56 => ⟨S800000x1, .i32⟩
  | 57 => ⟨S800000x1, .i1⟩
  | 58 => ⟨S800000x1, .i1⟩
  | 59 => ⟨S_, .i1⟩
  | 60 => ⟨S800000, .i1⟩
  | 61 => ⟨S800000x128, .f32⟩
  | 62 => ⟨S800000x128, .i1⟩
  | 63 => ⟨S_, .f32⟩
  | 64 => ⟨S800000x128, .f32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S1x128x128, .bf16⟩
  | 71 => ⟨S128x128, .bf16⟩
  | 72 => ⟨S1x128, .f32⟩
  | 73 => ⟨S128, .f32⟩
  | 74 => ⟨S1x128x128, .bf16⟩
  | 75 => ⟨S128x128, .bf16⟩
  | 76 => ⟨S1x128, .f32⟩
  | 77 => ⟨S128, .f32⟩
  | 78 => ⟨S1x128, .f32⟩
  | 79 => ⟨S128, .f32⟩
  | 80 => ⟨S1x128, .f32⟩
  | 81 => ⟨S1x128, .f32⟩
  | 82 => ⟨S1x128, .f32⟩
  | 83 => ⟨S50000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S1, .i32⟩
  | 93 => ⟨S_, .i32⟩
  | 94 => ⟨S800000x1, .i32⟩
  | 95 => ⟨S800000x1, .i1⟩
  | 96 => ⟨S1x1, .i32⟩
  | 97 => ⟨S800000x1, .i32⟩
  | 98 => ⟨S800000x1, .i1⟩
  | 99 => ⟨S800000x1, .i1⟩
  | 100 => ⟨S_, .i1⟩
  | 101 => ⟨S800000, .i1⟩
  | 102 => ⟨S800000x128, .f32⟩
  | 103 => ⟨S800000x128, .i1⟩
  | 104 => ⟨S_, .f32⟩
  | 105 => ⟨S800000x128, .f32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S1x128x128, .bf16⟩
  | 112 => ⟨S128x128, .bf16⟩
  | 113 => ⟨S1x128, .f32⟩
  | 114 => ⟨S128, .f32⟩
  | 115 => ⟨S1x128x128, .bf16⟩
  | 116 => ⟨S128x128, .bf16⟩
  | 117 => ⟨S1x128, .f32⟩
  | 118 => ⟨S128, .f32⟩
  | 119 => ⟨S1x128, .f32⟩
  | 120 => ⟨S128, .f32⟩
  | 121 => ⟨S1x128, .f32⟩
  | 122 => ⟨S1x128, .f32⟩
  | 123 => ⟨S1x128, .f32⟩
  | 124 => ⟨S50000x128, .f32⟩
  | 125 => ⟨S_, .i32⟩
  | 126 => ⟨S800000, .i32⟩
  | 127 => ⟨S800000, .i1⟩
  | _ => ⟨S50000x128, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S1, .i32⟩
  | 6 => ⟨S_, .i32⟩
  | 7 => ⟨S800000x1, .i32⟩
  | 8 => ⟨S800000x1, .i1⟩
  | 9 => ⟨S1x1, .i32⟩
  | 10 => ⟨S800000x1, .i32⟩
  | 11 => ⟨S800000x1, .i1⟩
  | 12 => ⟨S800000x1, .i1⟩
  | 13 => ⟨S_, .i1⟩
  | 14 => ⟨S800000, .i1⟩
  | 15 => ⟨S800000x128, .f32⟩
  | 16 => ⟨S800000x128, .i1⟩
  | 17 => ⟨S_, .f32⟩
  | 18 => ⟨S800000x128, .f32⟩
  | 19 => ⟨S800000x128, .f32⟩
  | 20 => ⟨S_, .f32⟩
  | 21 => ⟨S50000x128, .f32⟩
  | 22 => ⟨S800000x1, .i32⟩
  | 23 => ⟨S50000x128, .f32⟩
  | 24 => ⟨S1x128x128, .bf16⟩
  | 25 => ⟨S128x128, .bf16⟩
  | 26 => ⟨S1x128, .f32⟩
  | 27 => ⟨S128, .f32⟩
  | 28 => ⟨S1x128x128, .bf16⟩
  | 29 => ⟨S128x128, .bf16⟩
  | 30 => ⟨S1x128, .f32⟩
  | 31 => ⟨S128, .f32⟩
  | 32 => ⟨S1x128, .f32⟩
  | 33 => ⟨S128, .f32⟩
  | 34 => ⟨S1x128, .f32⟩
  | 35 => ⟨S1x128, .f32⟩
  | 36 => ⟨S1x128, .f32⟩
  | 37 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S5000x128, .f32⟩
  | .local _ .vmem, ⟨18, _⟩ => ⟨S5000x128, .f32⟩
  | .local _ .vmem, ⟨19, _⟩ => ⟨S128x128, .bf16⟩
  | .local _ .vmem, ⟨20, _⟩ => ⟨S1x128, .f32⟩
  | .local _ .vmem, ⟨21, _⟩ => ⟨S128x128, .bf16⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x1, .f32⟩
  | .local _ .vmem, ⟨29, _⟩ => ⟨S5000x1, .f32⟩
  | .local _ .vmem, ⟨30, _⟩ => ⟨S5000x128, .f32⟩
  | .local _ .vmem, ⟨31, _⟩ => ⟨S5000x128, .f32⟩
  | .local _ .vmem, ⟨32, _⟩ => ⟨S128x128, .bf16⟩
  | .local _ .vmem, ⟨33, _⟩ => ⟨S1x128, .f32⟩
  | .local _ .vmem, ⟨34, _⟩ => ⟨S128x128, .bf16⟩
  | .local _ .vmem, ⟨35, _⟩ => ⟨S1x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1_0 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v28 : Ref sig .tc := ⟨.hbm, 65, rfl⟩
abbrev main_cst_4 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_c_1 : Ref sig .tc := ⟨.hbm, 92, rfl⟩
abbrev main_call2_c_2 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_3 : Ref sig .tc := ⟨.hbm, 100, rfl⟩
abbrev main_call2_v12 : Ref sig .tc := ⟨.hbm, 101, rfl⟩
abbrev main_call2_v13 : Ref sig .tc := ⟨.hbm, 102, rfl⟩
abbrev main_call2_v14 : Ref sig .tc := ⟨.hbm, 103, rfl⟩
abbrev main_call2_cst : Ref sig .tc := ⟨.hbm, 104, rfl⟩
abbrev main_call2_v15 : Ref sig .tc := ⟨.hbm, 105, rfl⟩
abbrev main_v46 : Ref sig .tc := ⟨.hbm, 106, rfl⟩
abbrev main_cst_5 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_call3_c : Ref sig .tc := ⟨.hbm, 125, rfl⟩
abbrev main_call3_v0 : Ref sig .tc := ⟨.hbm, 126, rfl⟩
abbrev main_call3_v1 : Ref sig .tc := ⟨.hbm, 127, rfl⟩
abbrev main_call3_c_0 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_c_1 : Ref sig .tc := ⟨.hbm, 133, rfl⟩
abbrev main_call3_c_2 : Ref sig .tc := ⟨.hbm, 134, rfl⟩
abbrev main_call3_v6 : Ref sig .tc := ⟨.hbm, 135, rfl⟩
abbrev main_call3_v7 : Ref sig .tc := ⟨.hbm, 136, rfl⟩
abbrev main_call3_v8 : Ref sig .tc := ⟨.hbm, 137, rfl⟩
abbrev main_call3_v9 : Ref sig .tc := ⟨.hbm, 138, rfl⟩
abbrev main_call3_v10 : Ref sig .tc := ⟨.hbm, 139, rfl⟩
abbrev main_call3_v11 : Ref sig .tc := ⟨.hbm, 140, rfl⟩
abbrev main_call3_c_3 : Ref sig .tc := ⟨.hbm, 141, rfl⟩
abbrev main_call3_v12 : Ref sig .tc := ⟨.hbm, 142, rfl⟩
abbrev main_call3_v13 : Ref sig .tc := ⟨.hbm, 143, rfl⟩
abbrev main_call3_v14 : Ref sig .tc := ⟨.hbm, 144, rfl⟩
abbrev main_call3_cst : Ref sig .tc := ⟨.hbm, 145, rfl⟩
abbrev main_call3_v15 : Ref sig .tc := ⟨.hbm, 146, rfl⟩
abbrev main_v64 : Ref sig .tc := ⟨.hbm, 147, rfl⟩
abbrev main_cst_6 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg8_0 : Ref sig .tc := ⟨.vmem, 37, rfl⟩
abbrev cc2_stg8_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem8_0 : DmaSem sig := 37
abbrev cc2_sem8_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  shapeCasts_S50000_S50000x1 : S50000.ShapeCasts S50000x1
  transposes_S3x128x128_S3x128x128_0_2_1 : S3x128x128.Transposes [0, 2, 1] S3x128x128
  bitsLt_bf16_f32 : FTy.bits .bf16 < FTy.bits .f32
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S800000_S800000x1_S800000_n_0_n_n_0_1_1_wf : GatherDims.WF S800000 S800000x1 S800000 [] [0] [] [0] [] 1 ![1]
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S50000x128.size a
  hwx2_8 : ∀ i : grid2.Coords, EltTy.bits .f32 = 32 ∨ (Rect.block (s := S50000x128) S5000x128.size (cc2_transform_8 i) (hinb2_8 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S800000_S800000x1_S800000_n_0_n_n_0_1_1 : GatherDims S800000 S800000x1 S800000 where
  offsetDims := []
  collapsedSliceDims := [0]
  operandBatchingDims := []
  startIndicesBatchingDims := []
  startIndexMap := [0]
  indexVectorDim := 1
  sliceSizes := ![1]
  wf := gather_S800000_S800000x1_S800000_n_0_n_n_0_1_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v31) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v44) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v45) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v60) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v61) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v62) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v63) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v67) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v69) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v78) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v73) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v79) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v80) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v81) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩

abbrev nBuf : Space → Nat
  | .hbm => 239
  | .vmem => 0
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S1x800000, .i32⟩
  | 8 => ⟨S800000, .i32⟩
  | 9 => ⟨S1x800000, .i32⟩
  | 10 => ⟨S800000, .i32⟩
  | 11 => ⟨S1x128x128, .f32⟩
  | 12 => ⟨S128x128, .f32⟩
  | 13 => ⟨S1x128, .f32⟩
  | 14 => ⟨S128, .f32⟩
  | 15 => ⟨S1x128x128, .f32⟩
  | 16 => ⟨S128x128, .f32⟩
  | 17 => ⟨S1x128, .f32⟩
  | 18 => ⟨S128, .f32⟩
  | 19 => ⟨S1x128, .f32⟩
  | 20 => ⟨S128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S_, .f32⟩
  | 35 => ⟨S800000, .f32⟩
  | 36 => ⟨S_, .f32⟩
  | 37 => ⟨S50000, .f32⟩
  | 38 => ⟨S800000x1, .i32⟩
  | 39 => ⟨S50000, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S128x128, .f32⟩
  | 47 => ⟨S50000x128, .f32⟩
  | 48 => ⟨S1x128, .f32⟩
  | 49 => ⟨S50000x128, .f32⟩
  | 50 => ⟨S50000x128, .f32⟩
  | 51 => ⟨S128x128, .f32⟩
  | 52 => ⟨S50000x128, .f32⟩
  | 53 => ⟨S50000x128, .f32⟩
  | 54 => ⟨S_, .f32⟩
  | 55 => ⟨S50000, .f32⟩
  | 56 => ⟨S50000x1, .f32⟩
  | 57 => ⟨S_, .f32⟩
  | 58 => ⟨S50000x1, .f32⟩
  | 59 => ⟨S50000x1, .f32⟩
  | 60 => ⟨S50000x128, .f32⟩
  | 61 => ⟨S50000x128, .f32⟩
  | 62 => ⟨S50000x128, .f32⟩
  | 63 => ⟨S_, .f32⟩
  | 64 => ⟨S50000, .f32⟩
  | 65 => ⟨S50000x1, .f32⟩
  | 66 => ⟨S_, .f32⟩
  | 67 => ⟨S50000x1, .f32⟩
  | 68 => ⟨S50000x1, .f32⟩
  | 69 => ⟨S50000x128, .f32⟩
  | 70 => ⟨S50000x128, .f32⟩
  | 71 => ⟨S_, .f32⟩
  | 72 => ⟨S50000x1, .f32⟩
  | 73 => ⟨S50000x1, .f32⟩
  | 74 => ⟨S50000x1, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S50000x128, .f32⟩
  | 87 => ⟨S1x128x128, .f32⟩
  | 88 => ⟨S128x128, .f32⟩
  | 89 => ⟨S1x128, .f32⟩
  | 90 => ⟨S128, .f32⟩
  | 91 => ⟨S1x128x128, .f32⟩
  | 92 => ⟨S128x128, .f32⟩
  | 93 => ⟨S1x128, .f32⟩
  | 94 => ⟨S128, .f32⟩
  | 95 => ⟨S1x128, .f32⟩
  | 96 => ⟨S128, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S_, .f32⟩
  | 111 => ⟨S800000, .f32⟩
  | 112 => ⟨S_, .f32⟩
  | 113 => ⟨S50000, .f32⟩
  | 114 => ⟨S800000x1, .i32⟩
  | 115 => ⟨S50000, .f32⟩
  | 116 => ⟨S_, .f32⟩
  | 117 => ⟨S50000, .f32⟩
  | 118 => ⟨S50000, .f32⟩
  | 119 => ⟨S50000x1, .f32⟩
  | 120 => ⟨S50000x128, .f32⟩
  | 121 => ⟨S50000x128, .f32⟩
  | 122 => ⟨S128x128, .f32⟩
  | 123 => ⟨S50000x128, .f32⟩
  | 124 => ⟨S1x128, .f32⟩
  | 125 => ⟨S50000x128, .f32⟩
  | 126 => ⟨S50000x128, .f32⟩
  | 127 => ⟨S128x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000, .f32⟩
  | 4 => ⟨S50000x1, .f32⟩
  | 5 => ⟨S_, .f32⟩
  | 6 => ⟨S50000x1, .f32⟩
  | 7 => ⟨S50000x1, .f32⟩
  | 8 => ⟨S50000x128, .f32⟩
  | 9 => ⟨S50000x128, .f32⟩
  | 10 => ⟨S50000x128, .f32⟩
  | 11 => ⟨S_, .f32⟩
  | 12 => ⟨S50000, .f32⟩
  | 13 => ⟨S50000x1, .f32⟩
  | 14 => ⟨S_, .f32⟩
  | 15 => ⟨S50000x1, .f32⟩
  | 16 => ⟨S50000x1, .f32⟩
  | 17 => ⟨S50000x128, .f32⟩
  | 18 => ⟨S50000x128, .f32⟩
  | 19 => ⟨S_, .f32⟩
  | 20 => ⟨S50000x1, .f32⟩
  | 21 => ⟨S50000x1, .f32⟩
  | 22 => ⟨S50000x1, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S50000x128, .f32⟩
  | 35 => ⟨S1x128x128, .f32⟩
  | 36 => ⟨S128x128, .f32⟩
  | 37 => ⟨S1x128, .f32⟩
  | 38 => ⟨S128, .f32⟩
  | 39 => ⟨S1x128x128, .f32⟩
  | 40 => ⟨S128x128, .f32⟩
  | 41 => ⟨S1x128, .f32⟩
  | 42 => ⟨S128, .f32⟩
  | 43 => ⟨S1x128, .f32⟩
  | 44 => ⟨S128, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S_, .f32⟩
  | 59 => ⟨S800000, .f32⟩
  | 60 => ⟨S_, .f32⟩
  | 61 => ⟨S50000, .f32⟩
  | 62 => ⟨S800000x1, .i32⟩
  | 63 => ⟨S50000, .f32⟩
  | 64 => ⟨S_, .f32⟩
  | 65 => ⟨S50000, .f32⟩
  | 66 => ⟨S50000, .f32⟩
  | 67 => ⟨S50000x1, .f32⟩
  | 68 => ⟨S50000x128, .f32⟩
  | 69 => ⟨S50000x128, .f32⟩
  | 70 => ⟨S128x128, .f32⟩
  | 71 => ⟨S50000x128, .f32⟩
  | 72 => ⟨S1x128, .f32⟩
  | 73 => ⟨S50000x128, .f32⟩
  | 74 => ⟨S50000x128, .f32⟩
  | 75 => ⟨S128x128, .f32⟩
  | 76 => ⟨S50000x128, .f32⟩
  | 77 => ⟨S50000x128, .f32⟩
  | 78 => ⟨S_, .f32⟩
  | 79 => ⟨S50000, .f32⟩
  | 80 => ⟨S50000x1, .f32⟩
  | 81 => ⟨S_, .f32⟩
  | 82 => ⟨S50000x1, .f32⟩
  | 83 => ⟨S50000x1, .f32⟩
  | 84 => ⟨S50000x128, .f32⟩
  | 85 => ⟨S50000x128, .f32⟩
  | 86 => ⟨S50000x128, .f32⟩
  | 87 => ⟨S_, .f32⟩
  | 88 => ⟨S50000, .f32⟩
  | 89 => ⟨S50000x1, .f32⟩
  | 90 => ⟨S_, .f32⟩
  | 91 => ⟨S50000x1, .f32⟩
  | 92 => ⟨S50000x1, .f32⟩
  | 93 => ⟨S50000x128, .f32⟩
  | 94 => ⟨S50000x128, .f32⟩
  | 95 => ⟨S_, .f32⟩
  | 96 => ⟨S50000x1, .f32⟩
  | 97 => ⟨S50000x1, .f32⟩
  | 98 => ⟨S50000x1, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_call0_cst : Ref sig .tc := ⟨.hbm, 83, rfl⟩
abbrev main_call0_v0 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_c_9 : Ref sig .tc := ⟨.hbm, 97, rfl⟩
abbrev main_v77 : Ref sig .tc := ⟨.hbm, 98, rfl⟩
abbrev main_v78 : Ref sig .tc := ⟨.hbm, 99, rfl⟩
abbrev main_c_10 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_11 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_12 : Ref sig .tc := ⟨.hbm, 110, rfl⟩
abbrev main_v87 : Ref sig .tc := ⟨.hbm, 111, rfl⟩
abbrev main_cst_13 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_14 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_15 : Ref sig .tc := ⟨.hbm, 130, rfl⟩
abbrev main_v104 : Ref sig .tc := ⟨.hbm, 131, rfl⟩
abbrev main_v105 : Ref sig .tc := ⟨.hbm, 132, rfl⟩
abbrev main_cst_16 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_17 : Ref sig .tc := ⟨.hbm, 139, rfl⟩
abbrev main_v111 : Ref sig .tc := ⟨.hbm, 140, rfl⟩
abbrev main_v112 : Ref sig .tc := ⟨.hbm, 141, rfl⟩
abbrev main_cst_18 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_19 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_call1_cst : Ref sig .tc := ⟨.hbm, 159, rfl⟩
abbrev main_call1_v0 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_c_20 : Ref sig .tc := ⟨.hbm, 173, rfl⟩
abbrev main_v140 : Ref sig .tc := ⟨.hbm, 174, rfl⟩
abbrev main_v141 : Ref sig .tc := ⟨.hbm, 175, rfl⟩
abbrev main_c_21 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_cst_22 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_cst_23 : Ref sig .tc := ⟨.hbm, 186, rfl⟩
abbrev main_v150 : Ref sig .tc := ⟨.hbm, 187, rfl⟩
abbrev main_cst_24 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_cst_25 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_cst_26 : Ref sig .tc := ⟨.hbm, 206, rfl⟩
abbrev main_v167 : Ref sig .tc := ⟨.hbm, 207, rfl⟩
abbrev main_v168 : Ref sig .tc := ⟨.hbm, 208, rfl⟩
abbrev main_cst_27 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_cst_28 : Ref sig .tc := ⟨.hbm, 215, rfl⟩
abbrev main_v174 : Ref sig .tc := ⟨.hbm, 216, rfl⟩
abbrev main_v175 : Ref sig .tc := ⟨.hbm, 217, rfl⟩
abbrev main_cst_29 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_cst_30 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_call2_cst : Ref sig .tc := ⟨.hbm, 235, rfl⟩
abbrev main_call2_v0 : Ref sig .tc := ⟨.hbm, 236, rfl⟩
abbrev main_v191 : Ref sig .tc := ⟨.hbm, 237, rfl⟩
abbrev main_v192 : Ref sig .tc := ⟨.hbm, 238, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KerHost.lean ====
/-
  The host side of the kernel's program as functions of the edge list and the node features, each the
  composition of the operations the program applies, in its order.

  The program sorts the edges by destination once: `order dst` is the stable argsort of the destination row, and
  `srcK`, `dstK` are the source and destination rows re-read in that order (an index below zero is taken from
  the end, as everywhere below). The in-degree `degOf` adds a one at every edge's destination; `takeK h idx`
  gathers the rows of `h` that `idx` names, and writes the not-a-number word in every row whose index, once
  wrapped, is outside the table; `aggOf` adds each gathered row at its edge's destination.
-/
import proofs.«417933_j80195629351383_2_alg».proof.KernelIdeal

noncomputable section

namespace Cert.KernelIdeal.Edge

open Cert.KernelIdeal Idealize.ShloMosaic

variable {F : FTy → Type} [FloatOps F] [Facts]
open Facts₀ Facts

/-- The edges' source row. -/
def srcRow (e : IVec S2x800000 32) : IVec S800000 32 :=
  shapeCast S800000 (extractStridedSlice S1x800000 ![0, 0] e slices_S2x800000_S1x800000_0_0) shapeCasts_S1x800000_S800000

/-- The edges' destination row. -/
def dstRow (e : IVec S2x800000 32) : IVec S800000 32 :=
  shapeCast S800000 (extractStridedSlice S1x800000 ![1, 0] e slices_S2x800000_S1x800000_1_0) shapeCasts_S1x800000_S800000

/-- The stable argsort of the destinations: position `e` holds the index of the edge that comes `e`-th. -/
def order (dst : IVec S800000 32) : IVec S800000 32 :=
  (Host.sort2 S800000 0 comparator_i32_i32_d0 dst (iotaInDim S800000 32 0)).2

/-- An index below zero counts from the end of an axis of extent `n`. -/
def wrap (n : BitVec 32) (x : IVec S800000 32) : IVec S800000 32 :=
  select (cmpi .slt x (broadcastInDim S800000 ![] bcast_S_S800000 (constantI S_ 32 0#32)))
    (addi x (broadcastInDim S800000 ![] bcast_S_S800000 (constantI S_ 32 n))) x

/-- A list of indices as a column of one-component index vectors. -/
def col (x : IVec S800000 32) : IVec S800000x1 32 :=
  broadcastInDim S800000x1 ![0] bcast_S800000_S800000x1_0 x

/-- A row of the edge list re-read in sorted order. -/
def reorder (row dst : IVec S800000 32) : IVec S800000 32 :=
  Host.gather gather_S800000_S800000x1_S800000_n_0_n_n_0_1_1 row (col (wrap 800000#32 (order dst)))

/-- The sources in sorted order. -/
def srcK (src dst : IVec S800000 32) : IVec S800000 32 := reorder src dst
/-- The destinations in sorted order. -/
def dstK (dst : IVec S800000 32) : IVec S800000 32 := reorder dst dst

/-- The in-degree of every node: a one added at each edge's destination. -/
def degOf (dst' : IVec S800000 32) : FVec F S50000 .f32 :=
  Host.scatterAdd scatter_S50000_S800000x1_S800000_n_0_0_1
    (broadcastInDim S50000 ![] bcast_S_S50000 (constant S_ .f32 0x00000000#32)) (col dst')
    (broadcastInDim S800000 ![] bcast_S_S800000 (constant S_ .f32 0x3F800000#32))

/-- The in-degrees as a column. -/
def degCol (dst' : IVec S800000 32) : FVec F S50000x1 .f32 :=
  shapeCast S50000x1 (degOf (F := F) dst') shapeCasts_S50000_S50000x1

/-- The wrapped indices, as a column. -/
def takeIdx (idx : IVec S800000 32) : IVec S800000x1 32 := col (wrap 50000#32 idx)

/-- Per edge, whether its wrapped index lies inside the table. -/
def takeMask (idx : IVec S800000 32) : IVec S800000 1 :=
  Host.reduce IntOp.andi
    (andi (cmpi .sge (takeIdx idx) (broadcastInDim S800000x1 ![] bcast_S_S800000x1 (constantI S_ 32 0#32)))
      (cmpi .sle (takeIdx idx)
        (broadcastInDim S800000x1 ![0, 1] bcast_S1x1_S800000x1_0_1
          (broadcastInDim S1x1 ![1] bcast_S1_S1x1_1 (constantI S1 32 49999#32)))))
    (constantI S_ 1 1#1) reducesTo_S800000x1_S800000_d1 h_S_

/-- The rows of `h` the indices name; the not-a-number word where an index is outside the table. -/
def takeK (h : FVec F S50000x128 .f32) (idx : IVec S800000 32) : FVec F S800000x128 .f32 :=
  select (broadcastInDim S800000x128 ![0] bcast_S800000_S800000x128_0 (takeMask idx))
    (Host.gather gather_S50000x128_S800000x1_S800000x128_1_0_n_n_0_1_1128 h (takeIdx idx))
    (broadcastInDim S800000x128 ![] bcast_S_S800000x128 (constant S_ .f32 0x7FC00000#32))

/-- Each message added at its edge's destination, from zero. -/
def aggOf (dst' : IVec S800000 32) (msg : FVec F S800000x128 .f32) : FVec F S50000x128 .f32 :=
  Host.scatterAdd scatter_S50000x128_S800000x1_S800000x128_1_0_0_1
    (broadcastInDim S50000x128 ![] bcast_S_S50000x128 (constant S_ .f32 0x00000000#32)) (col dst') msg

/-- The aggregated messages of one layer, from the features and the edge list's two rows. -/
def aggK (h : FVec F S50000x128 .f32) (src dst : IVec S800000 32) : FVec F S50000x128 .f32 :=
  aggOf (dstK dst) (takeK h (srcK src dst))

end Cert.KernelIdeal.Edge

end
-- ==== Proof.PreRange.lean ====
/-
  The added precondition, read back as arithmetic. The printed predicate ends in two tests of the edge list's source row:
  every entry at least -50000 and every entry below 50000, each an all-reduction by "and" of an elementwise signed
  comparison against a constant laid along the row, the whole predicate a chain of "and"s. That the predicate is one
  therefore says, entry by entry, that the source index read as a signed integer lies in [-50000, 50000).
-/
import proofs.«417933_j80195629351383_2_alg».proof.Defs
import proofs.«417933_j80195629351383_2_alg».proof.Proof.Gen.Pre_finite_inputs
import proofs.«417933_j80195629351383_2_alg».proof.Proof.Gen.KernelIdeal
import proofs.«417933_j80195629351383_2_alg».proof.Proof.KerHost
import Idealize.ShloMosaic.Lib.ReduceAll
import Idealize.ShloMosaic.Lib.ValueIdx

noncomputable section

namespace Cert.Proof.PreRange

open Idealize.ShloMosaic Idealize.SL.Sem
open Cert.Pre_finite_inputs (fn fn_part1 fn_part2)

/-- A shape without axes has one index. -/
instance : Subsingleton Cert.Pre_finite_inputs.S_.Idx := ⟨fun a b => funext fun d => d.elim0⟩

/-- The two bounds as signed integers. -/
theorem lo_toInt : (4294917296#32 : BitVec 32).toInt = -50000 := by decide
theorem hi_toInt : (50000#32 : BitVec 32).toInt = 50000 := by decide

/-- The tail of the chain: when it is one, so is the lower-bound test it is handed, and every source entry is below 50000. -/
theorem part2 (a1 : IVec Cert.Pre_finite_inputs.S2x800000 32) (v28 v33 : IVec Cert.Pre_finite_inputs.S_ 1)
    (h : fn_part2 (F := Ideal) a1 v28 v33 ValueIdx.ix0 = 1#1) :
    v33 ValueIdx.ix0 = 1#1 ∧ ∀ e : Cert.Pre_finite_inputs.S800000.Idx, (Cert.KernelIdeal.Edge.srcRow a1 e).toInt < 50000 := by
  unfold fn_part2 at h
  dsimp only at h
  change IntOp.andi _ _ = 1#1 at h
  obtain ⟨h34, h39⟩ := IntOp.andi_eq_one.1 h
  change IntOp.andi _ _ = 1#1 at h34
  obtain ⟨-, h33⟩ := IntOp.andi_eq_one.1 h34
  refine ⟨h33, fun e => ?_⟩
  have hc := Host.reduce_andi_all _ _ _ _ _ h39 e
  have h1 : (Cert.KernelIdeal.Edge.srcRow a1 e).toInt < (50000#32 : BitVec 32).toInt := IntOp.cmpi_slt.1 hc
  rw [hi_toInt] at h1
  exact h1

/-- The middle of the chain: when it is one, every source entry is at least -50000 and below 50000. -/
theorem part1 (a1 : IVec Cert.Pre_finite_inputs.S2x800000 32) (a5 a6 : FVec Ideal Cert.Pre_finite_inputs.S3x128 .f32)
    (v13 : IVec Cert.Pre_finite_inputs.S_ 1) (v16 : IVec Cert.Pre_finite_inputs.S3x128x128 1)
    (h : fn_part1 (F := Ideal) a1 a5 a6 v13 v16 ValueIdx.ix0 = 1#1) :
    (∀ e : Cert.Pre_finite_inputs.S800000.Idx, -50000 ≤ (Cert.KernelIdeal.Edge.srcRow a1 e).toInt)
      ∧ ∀ e : Cert.Pre_finite_inputs.S800000.Idx, (Cert.KernelIdeal.Edge.srcRow a1 e).toInt < 50000 := by
  unfold fn_part1 at h
  dsimp only at h
  obtain ⟨h33, hlt⟩ := part2 _ _ _ h
  refine ⟨fun e => ?_, hlt⟩
  have hc := Host.reduce_andi_all _ _ _ _ _ h33 e
  have h1 : (4294917296#32 : BitVec 32).toInt ≤ (Cert.KernelIdeal.Edge.srcRow a1 e).toInt := IntOp.cmpi_sge.1 hc
  rw [lo_toInt] at h1
  exact h1

/-- Every source index of the edge list, read signed, lies in [-50000, 50000). -/
theorem src_range (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m)
    (c : Dev Cert.KernelIdeal.nD) (e : Cert.KernelIdeal.S800000.Idx) :
    -50000 ≤ (Cert.KernelIdeal.Edge.srcRow (m ((c.tc : Thread Cert.KernelIdeal.nD Cert.KernelIdeal.τ).loc Cert.KernelIdeal.main_arg1)) e).toInt
    ∧ (Cert.KernelIdeal.Edge.srcRow (m ((c.tc : Thread Cert.KernelIdeal.nD Cert.KernelIdeal.τ).loc Cert.KernelIdeal.main_arg1)) e).toInt < 50000 := by
  have h : fn (F := Ideal) _ _ _ _ _ _ _ ValueIdx.ix0 = 1#1 := congrFun (hpre c) ValueIdx.ix0
  unfold Cert.Pre_finite_inputs.fn at h
  have h' := part1 _ _ _ _ _ h
  exact ⟨h'.1 e, h'.2 e⟩

end Cert.Proof.PreRange

end
-- ==== Proof.Spec.lean ====
/-
  One layer of the network as ONE function, index by index on the extended reals.

  Given the aggregated messages `agg` (row `n` is the sum of the source rows of the edges that end at node `n`),
  the in-degrees `deg` (a column), the node features `h` and the layer's parameters — the two weight matrices
  already transposed (`wlT k j`, `wrT k j`: input channel `k`, output channel `j`), the bias `bl`, and the
  normalisation's scale `g` and shift `b`, each a single row —

    mean n k = agg n k / max (deg n) 1
    lin  n j = ((Σ_k mean n k · wlT k j) + bl j) + Σ_k h n k · wrT k j
    mu   n   = (Σ_j lin n j) / 128
    var  n   = (Σ_j (lin n j − mu n)²) / 128
    out  n j = h n j + max ((((lin n j − mu n) · rsqrt (var n + ε)) · g j) + b j) 0

  with the grouping written exactly so: both programs compute these operations in this order, so no law of
  arithmetic beyond the definitions is needed to meet either of them. The float literals 1, 128, ε and 0 stay as
  their f32 words; the same word stands on both sides and is never evaluated.
-/
import Idealize.ShloMosaic.PureOps.Ideal
import Idealize.ShloMosaic.Lib.ValueIdx

noncomputable section

namespace Cert.Sage

open Idealize.ShloMosaic Idealize.ShloMosaic.ValueIdx
open scoped BigOperators

/-- `R` rows (all the nodes, or one block of them) by channels. -/
abbrev ND (R : Nat) : Shape := ⟨2, ![R, 128]⟩
/-- One column per row. -/
abbrev N1 (R : Nat) : Shape := ⟨2, ![R, 1]⟩
/-- Channels by channels. -/
abbrev DD : Shape := ⟨2, ![128, 128]⟩
/-- One row of channels. -/
abbrev OD : Shape := ⟨2, ![1, 128]⟩

/-- The f32 word of 1. -/
abbrev wOne : EReal := Ideal.ofBits .f32 0x3F800000#32
/-- The f32 word of 128. -/
abbrev wD : EReal := Ideal.ofBits .f32 0x43000000#32
/-- The f32 word of the normalisation's ε. -/
abbrev wEps : EReal := Ideal.ofBits .f32 0x3727C5AC#32
/-- The f32 word of 0. -/
abbrev wZero : EReal := Ideal.ofBits .f32 0x00000000#32

/-- Per-row values as a column. -/
def colOf {R : Nat} (d : (⟨1, ![R]⟩ : Shape).Idx → EReal) : (N1 R).Idx → EReal := fun i => d (ix1 (i 0))
/-- Per-channel values as a row. -/
def rowOf (v : (⟨1, ![128]⟩ : Shape).Idx → EReal) : OD.Idx → EReal := fun i => v (ix1 (i 1))
/-- A square matrix transposed. -/
def trOf (w : DD.Idx → EReal) : DD.Idx → EReal := fun i => w (ix2 (i 1) (i 0))
/-- Layer `l`'s matrix out of the three stacked ones. -/
def matOf (W : (⟨3, ![3, 128, 128]⟩ : Shape).Idx → EReal) (l : Fin 3) : DD.Idx → EReal := fun i => W (ix3 l (i 0) (i 1))
/-- Layer `l`'s vector out of the three stacked ones. -/
def vecOf (B : (⟨2, ![3, 128]⟩ : Shape).Idx → EReal) (l : Fin 3) : (⟨1, ![128]⟩ : Shape).Idx → EReal := fun i => B (ix2 l (i 0))

variable {R : Nat} (agg : (ND R).Idx → EReal) (deg : (N1 R).Idx → EReal) (h : (ND R).Idx → EReal)
  (wlT : DD.Idx → EReal) (bl : OD.Idx → EReal) (wrT : DD.Idx → EReal) (g b : OD.Idx → EReal)

/-- The neighbourhood mean: the aggregated message over the in-degree floored at one. -/
def meanAt (n : Fin R) (k : Fin 128) : EReal :=
  Ideal.div (agg (ix2 n k)) (max (deg (ix2 n (0 : Fin 1))) wOne)

/-- The layer's linear part: the mean through the left weights, plus the bias, plus the node's own features
    through the right weights. -/
def linAt (n : Fin R) (j : Fin 128) : EReal :=
  ((∑ k : Fin 128, meanAt agg deg n k * wlT (ix2 k j)) + bl (ix2 (0 : Fin 1) j))
    + ∑ k : Fin 128, h (ix2 n k) * wrT (ix2 k j)

/-- A row's mean over the channels. -/
def muAt (n : Fin R) : EReal :=
  Ideal.div (∑ j : Fin 128, linAt agg deg h wlT bl wrT n j) wD

/-- A row's variance over the channels. -/
def varAt (n : Fin R) : EReal :=
  Ideal.div (∑ j : Fin 128, (linAt agg deg h wlT bl wrT n j - muAt agg deg h wlT bl wrT n)
      * (linAt agg deg h wlT bl wrT n j - muAt agg deg h wlT bl wrT n)) wD

/-- The layer: the residual of the features and the rectified, normalised linear part. -/
def layerOut : (ND R).Idx → EReal := fun i =>
  h (ix2 (i 0) (i 1))
    + max ((((linAt agg deg h wlT bl wrT (i 0) (i 1) - muAt agg deg h wlT bl wrT (i 0))
              * Ideal.rsqrt (varAt agg deg h wlT bl wrT (i 0) + wEps)) * g (ix2 (0 : Fin 1) (i 1)))
            + b (ix2 (0 : Fin 1) (i 1))) wZero

/-- The layer at a row and a channel. -/
theorem layerOut_apply (n : Fin R) (j : Fin 128) :
    layerOut agg deg h wlT bl wrT g b (ix2 n j)
      = h (ix2 n j) + max ((((linAt agg deg h wlT bl wrT n j - muAt agg deg h wlT bl wrT n)
              * Ideal.rsqrt (varAt agg deg h wlT bl wrT n + wEps)) * g (ix2 (0 : Fin 1) j))
            + b (ix2 (0 : Fin 1) j)) wZero := rfl

/-- A row of the layer depends only on that row of the aggregated messages, of the degrees and of the features:
    if row `r` of one triple of arrays is row `n` of another (of any heights), the two layers agree there. This is
    what lets a block of rows be computed by itself. -/
theorem layerOut_row {R' : Nat} (agg' : (ND R').Idx → EReal) (deg' : (N1 R').Idx → EReal) (h' : (ND R').Idx → EReal)
    (r : Fin R') (n : Fin R)
    (hagg : ∀ k : Fin 128, agg' (ix2 r k) = agg (ix2 n k))
    (hdeg : deg' (ix2 r (0 : Fin 1)) = deg (ix2 n (0 : Fin 1)))
    (hh : ∀ k : Fin 128, h' (ix2 r k) = h (ix2 n k)) (j : Fin 128) :
    layerOut agg' deg' h' wlT bl wrT g b (ix2 r j) = layerOut agg deg h wlT bl wrT g b (ix2 n j) := by
  have hmean : ∀ k, meanAt agg' deg' r k = meanAt agg deg n k := fun k => by
    unfold meanAt; rw [hagg k, hdeg]
  have hlin : ∀ j', linAt agg' deg' h' wlT bl wrT r j' = linAt agg deg h wlT bl wrT n j' := fun j' => by
    unfold linAt; simp only [hmean, hh]
  have hmu : muAt agg' deg' h' wlT bl wrT r = muAt agg deg h wlT bl wrT n := by
    unfold muAt; simp only [hlin]
  have hvar : varAt agg' deg' h' wlT bl wrT r = varAt agg deg h wlT bl wrT n := by
    unfold varAt; simp only [hlin, hmu]
  rw [layerOut_apply, layerOut_apply, hlin, hmu, hvar, hh]

end Cert.Sage

end
-- ==== Proof.KerNet.lean ====
/-
  The kernel's program as ONE function of its arguments, at the extended reals.

  Its host side transposes each stacked weight array once (channels swapped within every layer) and narrows it
  to the 16-bit format, which changes nothing on the extended reals; layer `l`'s window is the slice `l` of that.
  A parameter vector's window is its slice re-laid as one row. A layer is the layer function of the aggregated
  messages over the SORTED edges (masked gather, then the sum at the destinations), the in-degree column over the
  sorted destinations, the features, and the layer's five parameter windows; the network is three of them.
-/
import proofs.«417933_j80195629351383_2_alg».proof.Proof.KerHost
import proofs.«417933_j80195629351383_2_alg».proof.Proof.Spec

noncomputable section

namespace Cert.KernelIdeal.Edge

open Cert.KernelIdeal Idealize.ShloMosaic

variable {F : FTy → Type} [FloatOps F] [Facts]
open Facts₀ Facts

/-- A stacked weight array with the two channel axes of every layer swapped, in the 16-bit format. -/
def wT (W : FVec F S3x128x128 .f32) : FVec F S3x128x128 .bf16 :=
  truncf .bf16 (transpose S3x128x128 [0, 2, 1] W transposes_S3x128x128_S3x128x128_0_2_1) bitsLt_bf16_f32

/-- Layer 0's weight window. -/
def wK0 (W : FVec F S3x128x128 .f32) : FVec F S128x128 .bf16 :=
  shapeCast S128x128 (extractStridedSlice S1x128x128 ![0, 0, 0] (wT W) slices_S3x128x128_S1x128x128_0_0_0) shapeCasts_S1x128x128_S128x128
/-- Layer 1's weight window. -/
def wK1 (W : FVec F S3x128x128 .f32) : FVec F S128x128 .bf16 :=
  shapeCast S128x128 (extractStridedSlice S1x128x128 ![1, 0, 0] (wT W) slices_S3x128x128_S1x128x128_1_0_0) shapeCasts_S1x128x128_S128x128
/-- Layer 2's weight window. -/
def wK2 (W : FVec F S3x128x128 .f32) : FVec F S128x128 .bf16 :=
  shapeCast S128x128 (extractStridedSlice S1x128x128 ![2, 0, 0] (wT W) slices_S3x128x128_S1x128x128_2_0_0) shapeCasts_S1x128x128_S128x128

/-- Layer 0's parameter vector as one row. -/
def rowK0 (B : FVec F S3x128 .f32) : FVec F S1x128 .f32 :=
  shapeCast S1x128 (shapeCast S128 (extractStridedSlice S1x128 ![0, 0] B slices_S3x128_S1x128_0_0) shapeCasts_S1x128_S128) shapeCasts_S128_S1x128
/-- Layer 1's parameter vector as one row. -/
def rowK1 (B : FVec F S3x128 .f32) : FVec F S1x128 .f32 :=
  shapeCast S1x128 (shapeCast S128 (extractStridedSlice S1x128 ![1, 0] B slices_S3x128_S1x128_1_0) shapeCasts_S1x128_S128) shapeCasts_S128_S1x128
/-- Layer 2's parameter vector as one row. -/
def rowK2 (B : FVec F S3x128 .f32) : FVec F S1x128 .f32 :=
  shapeCast S1x128 (shapeCast S128 (extractStridedSlice S1x128 ![2, 0] B slices_S3x128_S1x128_2_0) shapeCasts_S1x128_S128) shapeCasts_S128_S1x128

/-- One layer of the kernel's program on the extended reals: the layer function of what its host side and its
    windows hand the Pallas kernel. -/
def kerLayer (h : FVec Ideal S50000x128 .f32) (E : IVec S2x800000 32) (wl : FVec Ideal S128x128 .bf16) (bl : FVec Ideal S1x128 .f32)
    (wr : FVec Ideal S128x128 .bf16) (g b : FVec Ideal S1x128 .f32) : FVec Ideal S50000x128 .f32 :=
  Cert.Sage.layerOut (R := 50000) (aggK (F := Ideal) h (srcRow E) (dstRow E)) (degCol (F := Ideal) (dstK (dstRow E))) h wl bl wr g b

/-- The kernel's three layers, from the features, the edge list and the five stacked parameters. -/
def kerNet (h0 : FVec Ideal S50000x128 .f32) (E : IVec S2x800000 32) (Wl : FVec Ideal S3x128x128 .f32) (Bl : FVec Ideal S3x128 .f32)
    (Wr : FVec Ideal S3x128x128 .f32) (G B : FVec Ideal S3x128 .f32) : FVec Ideal S50000x128 .f32 :=
  kerLayer
    (kerLayer
      (kerLayer h0 E (wK0 Wl) (rowK0 Bl) (wK0 Wr) (rowK0 G) (rowK0 B))
      E (wK1 Wl) (rowK1 Bl) (wK1 Wr) (rowK1 G) (rowK1 B))
    E (wK2 Wl) (rowK2 Bl) (wK2 Wr) (rowK2 G) (rowK2 B)

end Cert.KernelIdeal.Edge

end
-- ==== Proof.KerState.lean ====
/-
  What the kernel's program has computed ONCE, before its first layer, and never writes again: the sources and the
  destinations in sorted order, the in-degree column over the sorted destinations, the two transposed weight
  stacks; and its seven arguments. `Persist m c W` says that the buffer contents `W` hold exactly these, as
  functions of the launch memory `m` on device `c`. It holds at the entry of each of the three Pallas regions.
-/
import proofs.«417933_j80195629351383_2_alg».proof.Proof.KerNet
import proofs.«417933_j80195629351383_2_alg».proof.Proof.Gen.KernelIdeal

noncomputable section

namespace Cert.KernelIdeal.Chain

open Cert.KernelIdeal Cert.KernelIdeal.Edge Idealize.ShloMosaic Idealize.ShloMosaic.TcCoe Idealize.SL.Sem

/-- The launch memory's edge list on device `c`. -/
abbrev edges (m : (ℓ : Loc nD τ sig) → Buf (Elt Ideal) ℓ) (c : Dev nD) : IVec S2x800000 32 :=
  m ((c.tc : Thread nD τ).loc main_arg1)

/-- The once-computed buffers and the arguments, at the contents `W`. -/
structure Persist (m : (ℓ : Loc nD τ sig) → Buf (Elt Ideal) ℓ) (c : Dev nD) (W : Valuation τ sig (Elt Ideal)) : Prop where
  src : W (Proc.devRef .tc main_v11) = srcK (srcRow (edges m c)) (dstRow (edges m c))
  dst : W (Proc.devRef .tc main_v18) = dstK (dstRow (edges m c))
  deg : W (Proc.devRef .tc main_v23) = degCol (F := Ideal) (dstK (dstRow (edges m c)))
  wl : W (Proc.devRef .tc main_v25) = wT (F := Ideal) (m ((c.tc : Thread nD τ).loc main_arg2))
  wr : W (Proc.devRef .tc main_v27) = wT (F := Ideal) (m ((c.tc : Thread nD τ).loc main_arg4))
  a0 : W (Proc.devRef .tc main_arg0) = m ((c.tc : Thread nD τ).loc main_arg0)
  a1 : W (Proc.devRef .tc main_arg1) = m ((c.tc : Thread nD τ).loc main_arg1)
  a2 : W (Proc.devRef .tc main_arg2) = m ((c.tc : Thread nD τ).loc main_arg2)
  a3 : W (Proc.devRef .tc main_arg3) = m ((c.tc : Thread nD τ).loc main_arg3)
  a4 : W (Proc.devRef .tc main_arg4) = m ((c.tc : Thread nD τ).loc main_arg4)
  a5 : W (Proc.devRef .tc main_arg5) = m ((c.tc : Thread nD τ).loc main_arg5)
  a6 : W (Proc.devRef .tc main_arg6) = m ((c.tc : Thread nD τ).loc main_arg6)

end Cert.KernelIdeal.Chain

end
-- ==== Proof.KerEntry0.lean ====
/-
  The contents of the TensorCore's buffers when the first kernel region is entered, as functions of the launch
  memory. Five stretches of host operations run before it. The first cuts the edge list into its source row and
  its destination row; the second is the stable argsort of the destination row; the third re-reads both rows in
  sorted order, counts the in-degree over the sorted destinations and transposes the two weight stacks; the
  fourth gathers the feature rows the sorted sources name; the fifth adds every gathered row at its sorted
  destination and cuts out the first layer's five parameter windows.

  Each stretch is read from ARBITRARY starting contents `W`: what it leaves in a buffer it writes is a function of
  what `W` holds in the buffers it reads, and every buffer it does not write is as in `W`. The five are then
  chained from the launch memory.
-/
import proofs.«417933_j80195629351383_2_alg».proof.Proof.Gen.KernelIdeal.Frame
import proofs.«417933_j80195629351383_2_alg».proof.Proof.KerState

noncomputable section

namespace Cert.KernelIdeal.Chain

open Cert.KernelIdeal Cert.KernelIdeal.Edge Idealize.ShloMosaic Idealize.ShloMosaic.TcCoe Idealize.SL.Sem

namespace Entry0

/-! ## Values carried through a buffer of the same type

An operation of a called function writes its value into a buffer whose type equals the value's type, and reads it
back along the same equality; both moves are the identity. -/

/-- Moving a value to an equal type and back changes nothing. -/
theorem cast_cast_eq {α β : Type} (h : α = β) (h' : β = α) (v : β) : cast h (cast h' v) = v := by
  subst h; rfl

/-- Reading the destination row: the buffer's type is the row's. -/
theorem read_v3 (p1 p2 p3) (v : (main_v3 : Ref sig .tc).ty.Contents (Elt Ideal)) :
    (StableHlo.TRef.of (T := ⟨S800000, .i32⟩) main_v3 p1 p2 p3).ofBuf v = v := rfl
/-- Writing the sorting permutation: the buffer's type is the permutation's. -/
theorem write_v4 (p1 p2 p3) (v : (⟨S800000, .i32⟩ : BufTy).Contents (Elt Ideal)) :
    (StableHlo.TRef.of (T := ⟨S800000, .i32⟩) main_v4 p1 p2 p3).toBuf v = v := rfl
/-- Reading the features. -/
theorem read_arg0 (p1 p2 p3) (v : (main_arg0 : Ref sig .tc).ty.Contents (Elt Ideal)) :
    (StableHlo.TRef.of (T := ⟨S50000x128, .f32⟩) main_arg0 p1 p2 p3).ofBuf v = v := rfl
/-- Reading the sorted sources. -/
theorem read_v11 (p1 p2 p3) (v : (main_v11 : Ref sig .tc).ty.Contents (Elt Ideal)) :
    (StableHlo.TRef.of (T := ⟨S800000, .i32⟩) main_v11 p1 p2 p3).ofBuf v = v := rfl
/-- Writing the gathered rows. -/
theorem write_v28 (p1 p2 p3) (v : (⟨S800000x128, .f32⟩ : BufTy).Contents (Elt Ideal)) :
    (StableHlo.TRef.of (T := ⟨S800000x128, .f32⟩) main_v28 p1 p2 p3).toBuf v = v := rfl

/-! ## The buffers each stretch writes, and that it leaves every other buffer alone -/

/-- The first stretch writes the two rows of the edge list, each as a slice and as a vector. -/
abbrev wr0 : List (Ref sig .tc) := [main_v0, main_v1, main_v2, main_v3]
/-- The second writes the positions, the sorted keys and the sorting permutation. -/
abbrev wr1 : List (Ref sig .tc) := [main_call0_v0, main_call0_v1_0, main_v4]
/-- The third writes the two re-read rows, the in-degree and the two transposed stacks, with their intermediates. -/
abbrev wr2 : List (Ref sig .tc) :=
  [main_c, main_v5, main_v6, main_c_0, main_v7, main_v8, main_v9, main_v10, main_v11, main_c_1, main_v12, main_v13,
   main_c_2, main_v14, main_v15, main_v16, main_v17, main_v18, main_cst, main_v19, main_cst_3, main_v20, main_v21,
   main_v22, main_v23, main_v24, main_v25, main_v26, main_v27]
/-- The fourth writes the gathered rows, with the wrapped indices and the mask on the way. -/
abbrev wr3 : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14, main_call1_cst,
   main_call1_v15, main_v28]
/-- The fifth writes the aggregate and the five parameter windows, with their slices. -/
abbrev wr4 : List (Ref sig .tc) :=
  [main_cst_4, main_v29, main_v30, main_v31, main_v32, main_v33, main_v34, main_v35, main_v36, main_v37, main_v38,
   main_v39, main_v40, main_v41, main_v42, main_v43, main_v44]

/-- A stretch leaves alone a buffer that differs from the result buffer of each of its operations. -/
local macro "leaves_alone" ops:ident h:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne ($h _ (by decide)))))

theorem keep0 (W : Valuation τ sig (Elt Ideal)) (b : Ref sig .tc) (h : ∀ y ∈ wr0, b ≠ y) :
    StableHlo.after (Gen.hostOps0 (F := Ideal)) W (Proc.devRef .tc b) = W (Proc.devRef .tc b) := by
  leaves_alone Gen.hostOps0 h
theorem keep1 (W : Valuation τ sig (Elt Ideal)) (b : Ref sig .tc) (h : ∀ y ∈ wr1, b ≠ y) :
    StableHlo.after (Gen.hostOps0_1 (F := Ideal)) W (Proc.devRef .tc b) = W (Proc.devRef .tc b) := by
  leaves_alone Gen.hostOps0_1 h
theorem keep2 (W : Valuation τ sig (Elt Ideal)) (b : Ref sig .tc) (h : ∀ y ∈ wr2, b ≠ y) :
    StableHlo.after (Gen.hostOps0_2 (F := Ideal)) W (Proc.devRef .tc b) = W (Proc.devRef .tc b) := by
  leaves_alone Gen.hostOps0_2 h
theorem keep3 (W : Valuation τ sig (Elt Ideal)) (b : Ref sig .tc) (h : ∀ y ∈ wr3, b ≠ y) :
    StableHlo.after (Gen.hostOps0_3 (F := Ideal)) W (Proc.devRef .tc b) = W (Proc.devRef .tc b) := by
  leaves_alone Gen.hostOps0_3 h
theorem keep4 (W : Valuation τ sig (Elt Ideal)) (b : Ref sig .tc) (h : ∀ y ∈ wr4, b ≠ y) :
    StableHlo.after (Gen.hostOps0_4 (F := Ideal)) W (Proc.devRef .tc b) = W (Proc.devRef .tc b) := by
  leaves_alone Gen.hostOps0_4 h

/-! ## What each stretch writes, from arbitrary starting contents -/

/-- The source row is the edge list's row 0. -/
theorem cut_src (W : Valuation τ sig (Elt Ideal)) (e : IVec S2x800000 32) (h : W (Proc.devRef .tc main_arg1) = e) :
    StableHlo.after (Gen.hostOps0 (F := Ideal)) W (Proc.devRef .tc main_v1) = srcRow e := by
  after_results_simp
  rw [h]; rfl
/-- The destination row is the edge list's row 1. -/
theorem cut_dst (W : Valuation τ sig (Elt Ideal)) (e : IVec S2x800000 32) (h : W (Proc.devRef .tc main_arg1) = e) :
    StableHlo.after (Gen.hostOps0 (F := Ideal)) W (Proc.devRef .tc main_v3) = dstRow e := by
  after_results_simp
  rw [h]; rfl

/-- The sorting permutation of the destination row: the positions carried through the stable sort by destination. -/
theorem sort_ord (W : Valuation τ sig (Elt Ideal)) (d : IVec S800000 32) (h : W (Proc.devRef .tc main_v3) = d) :
    StableHlo.after (Gen.hostOps0_1 (F := Ideal)) W (Proc.devRef .tc main_v4) = order d := by
  after_results_simp
  simp only [cast_cast_eq, read_v3, write_v4]
  rw [h]; rfl

/-- The sources re-read in sorted order: the gather of the source row at the wrapped permutation. -/
theorem sorted_src (W : Valuation τ sig (Elt Ideal)) (s d : IVec S800000 32)
    (h1 : W (Proc.devRef .tc main_v1) = s) (h4 : W (Proc.devRef .tc main_v4) = order d) :
    StableHlo.after (Gen.hostOps0_2 (F := Ideal)) W (Proc.devRef .tc main_v11) = srcK s d := by
  after_results_simp
  rw [h1, h4]; rfl
/-- The destinations re-read in sorted order. -/
theorem sorted_dst (W : Valuation τ sig (Elt Ideal)) (d : IVec S800000 32)
    (h3 : W (Proc.devRef .tc main_v3) = d) (h4 : W (Proc.devRef .tc main_v4) = order d) :
    StableHlo.after (Gen.hostOps0_2 (F := Ideal)) W (Proc.devRef .tc main_v18) = dstK d := by
  after_results_simp
  rw [h3, h4]; rfl
/-- The in-degree column: a one added at every sorted destination, from zero. -/
theorem sorted_deg (W : Valuation τ sig (Elt Ideal)) (d : IVec S800000 32)
    (h3 : W (Proc.devRef .tc main_v3) = d) (h4 : W (Proc.devRef .tc main_v4) = order d) :
    StableHlo.after (Gen.hostOps0_2 (F := Ideal)) W (Proc.devRef .tc main_v23) = degCol (F := Ideal) (dstK d) := by
  after_results_simp
  rw [h3, h4]; rfl
/-- The left weight stack, transposed within every layer and narrowed. -/
theorem stack_l (W : Valuation τ sig (Elt Ideal)) (X : FVec Ideal S3x128x128 .f32) (h : W (Proc.devRef .tc main_arg2) = X) :
    StableHlo.after (Gen.hostOps0_2 (F := Ideal)) W (Proc.devRef .tc main_v25) = wT (F := Ideal) X := by
  after_results_simp
  rw [h]; rfl
/-- The right weight stack, transposed within every layer and narrowed. -/
theorem stack_r (W : Valuation τ sig (Elt Ideal)) (X : FVec Ideal S3x128x128 .f32) (h : W (Proc.devRef .tc main_arg4) = X) :
    StableHlo.after (Gen.hostOps0_2 (F := Ideal)) W (Proc.devRef .tc main_v27) = wT (F := Ideal) X := by
  after_results_simp
  rw [h]; rfl

/-- The gathered rows: the feature rows the indices name once wrapped, the not-a-number word where an index is
    outside the table. -/
theorem gathered (W : Valuation τ sig (Elt Ideal)) (x : FVec Ideal S50000x128 .f32) (idx : IVec S800000 32)
    (h0 : W (Proc.devRef .tc main_arg0) = x) (h11 : W (Proc.devRef .tc main_v11) = idx) :
    StableHlo.after (Gen.hostOps0_3 (F := Ideal)) W (Proc.devRef .tc main_v28) = takeK (F := Ideal) x idx := by
  after_results_simp
  simp only [cast_cast_eq, read_arg0, read_v11, write_v28]
  rw [h0, h11]
  unfold takeK takeMask takeIdx col wrap
  rfl

/-- The aggregate: every message added at its destination, from zero. -/
theorem summed (W : Valuation τ sig (Elt Ideal)) (d : IVec S800000 32) (msg : FVec Ideal S800000x128 .f32)
    (h18 : W (Proc.devRef .tc main_v18) = d) (h28 : W (Proc.devRef .tc main_v28) = msg) :
    StableHlo.after (Gen.hostOps0_4 (F := Ideal)) W (Proc.devRef .tc main_v31) = aggOf (F := Ideal) d msg := by
  after_results_simp
  rw [h18, h28]; rfl
/-- Layer 0's left weight window: slice 0 of the transposed stack. -/
theorem win_l (W : Valuation τ sig (Elt Ideal)) (X : FVec Ideal S3x128x128 .f32)
    (h : W (Proc.devRef .tc main_v25) = wT (F := Ideal) X) :
    StableHlo.after (Gen.hostOps0_4 (F := Ideal)) W (Proc.devRef .tc main_v33) = wK0 (F := Ideal) X := by
  after_results_simp
  rw [h]; rfl
/-- Layer 0's right weight window. -/
theorem win_r (W : Valuation τ sig (Elt Ideal)) (X : FVec Ideal S3x128x128 .f32)
    (h : W (Proc.devRef .tc main_v27) = wT (F := Ideal) X) :
    StableHlo.after (Gen.hostOps0_4 (F := Ideal)) W (Proc.devRef .tc main_v37) = wK0 (F := Ideal) X := by
  after_results_simp
  rw [h]; rfl
/-- Layer 0's left bias as one row. -/
theorem row_bl (W : Valuation τ sig (Elt Ideal)) (B : FVec Ideal S3x128 .f32) (h : W (Proc.devRef .tc main_arg3) = B) :
    StableHlo.after (Gen.hostOps0_4 (F := Ideal)) W (Proc.devRef .tc main_v42) = rowK0 (F := Ideal) B := by
  after_results_simp
  rw [h]; rfl
/-- Layer 0's scale as one row. -/
theorem row_g (W : Valuation τ sig (Elt Ideal)) (B : FVec Ideal S3x128 .f32) (h : W (Proc.devRef .tc main_arg5) = B) :
    StableHlo.after (Gen.hostOps0_4 (F := Ideal)) W (Proc.devRef .tc main_v43) = rowK0 (F := Ideal) B := by
  after_results_simp
  rw [h]; rfl
/-- Layer 0's shift as one row. -/
theorem row_b (W : Valuation τ sig (Elt Ideal)) (B : FVec Ideal S3x128 .f32) (h : W (Proc.devRef .tc main_arg6) = B) :
    StableHlo.after (Gen.hostOps0_4 (F := Ideal)) W (Proc.devRef .tc main_v44) = rowK0 (F := Ideal) B := by
  after_results_simp
  rw [h]; rfl

/-! ## The five stretches chained from the launch memory -/

section Chain

variable (m : (ℓ : Loc nD τ sig) → Buf (Elt Ideal) ℓ) (ρ : Dev nD → PrngReg) (c : Dev nD)

/-- At the launch a buffer holds the launch memory's word for it. -/
theorem at0 (b : Ref sig .tc) : Gen.W0 (F := Ideal) m ρ c (Proc.devRef .tc b) = m ((c.tc : Thread nD τ).loc b) := rfl

/-- A buffer the first two stretches do not write. -/
theorem at2 (b : Ref sig .tc) (h0 : ∀ y ∈ wr0, b ≠ y) (h1 : ∀ y ∈ wr1, b ≠ y) :
    Gen.W2 (F := Ideal) m ρ c (Proc.devRef .tc b) = m ((c.tc : Thread nD τ).loc b) :=
  (keep1 (Gen.W1 m ρ c) b h1).trans ((keep0 (Gen.W0 m ρ c) b h0).trans (at0 m ρ c b))
/-- A buffer the first three stretches do not write. -/
theorem at3 (b : Ref sig .tc) (h0 : ∀ y ∈ wr0, b ≠ y) (h1 : ∀ y ∈ wr1, b ≠ y) (h2 : ∀ y ∈ wr2, b ≠ y) :
    Gen.W3 (F := Ideal) m ρ c (Proc.devRef .tc b) = m ((c.tc : Thread nD τ).loc b) :=
  (keep2 (Gen.W2 m ρ c) b h2).trans (at2 m ρ c b h0 h1)
/-- A buffer the first four stretches do not write. -/
theorem at4 (b : Ref sig .tc) (h0 : ∀ y ∈ wr0, b ≠ y) (h1 : ∀ y ∈ wr1, b ≠ y) (h2 : ∀ y ∈ wr2, b ≠ y)
    (h3 : ∀ y ∈ wr3, b ≠ y) :
    Gen.W4 (F := Ideal) m ρ c (Proc.devRef .tc b) = m ((c.tc : Thread nD τ).loc b) :=
  (keep3 (Gen.W3 m ρ c) b h3).trans (at3 m ρ c b h0 h1 h2)
/-- A buffer none of the five stretches writes. -/
theorem at5 (b : Ref sig .tc) (h0 : ∀ y ∈ wr0, b ≠ y) (h1 : ∀ y ∈ wr1, b ≠ y) (h2 : ∀ y ∈ wr2, b ≠ y)
    (h3 : ∀ y ∈ wr3, b ≠ y) (h4 : ∀ y ∈ wr4, b ≠ y) :
    Gen.W5 (F := Ideal) m ρ c (Proc.devRef .tc b) = m ((c.tc : Thread nD τ).loc b) :=
  (keep4 (Gen.W4 m ρ c) b h4).trans (at4 m ρ c b h0 h1 h2 h3)

/-- After the first stretch: the two rows. -/
theorem src1 : Gen.W1 (F := Ideal) m ρ c (Proc.devRef .tc main_v1) = srcRow (edges m c) :=
  cut_src (Gen.W0 m ρ c) _ (at0 m ρ c main_arg1)
theorem dst1 : Gen.W1 (F := Ideal) m ρ c (Proc.devRef .tc main_v3) = dstRow (edges m c) :=
  cut_dst (Gen.W0 m ρ c) _ (at0 m ρ c main_arg1)

/-- After the second: the rows as they were, and the sorting permutation of the destinations. -/
theorem src2 : Gen.W2 (F := Ideal) m ρ c (Proc.devRef .tc main_v1) = srcRow (edges m c) :=
  (keep1 (Gen.W1 m ρ c) main_v1 (by decide)).trans (src1 m ρ c)
theorem dst2 : Gen.W2 (F := Ideal) m ρ c (Proc.devRef .tc main_v3) = dstRow (edges m c) :=
  (keep1 (Gen.W1 m ρ c) main_v3 (by decide)).trans (dst1 m ρ c)
theorem ord2 : Gen.W2 (F := Ideal) m ρ c (Proc.devRef .tc main_v4) = order (dstRow (edges m c)) :=
  sort_ord (Gen.W1 m ρ c) _ (dst1 m ρ c)

/-- After the third: the once-computed buffers. -/
theorem src3 : Gen.W3 (F := Ideal) m ρ c (Proc.devRef .tc main_v11) = srcK (srcRow (edges m c)) (dstRow (edges m c)) :=
  sorted_src (Gen.W2 m ρ c) _ _ (src2 m ρ c) (ord2 m ρ c)
theorem dst3 : Gen.W3 (F := Ideal) m ρ c (Proc.devRef .tc main_v18) = dstK (dstRow (edges m c)) :=
  sorted_dst (Gen.W2 m ρ c) _ (dst2 m ρ c) (ord2 m ρ c)
theorem deg3 : Gen.W3 (F := Ideal) m ρ c (Proc.devRef .tc main_v23) = degCol (F := Ideal) (dstK (dstRow (edges m c))) :=
  sorted_deg (Gen.W2 m ρ c) _ (dst2 m ρ c) (ord2 m ρ c)
theorem wl3 : Gen.W3 (F := Ideal) m ρ c (Proc.devRef .tc main_v25) = wT (F := Ideal) (m ((c.tc : Thread nD τ).loc main_arg2)) :=
  stack_l (Gen.W2 m ρ c) _ (at2 m ρ c main_arg2 (by decide) (by decide))
theorem wr3' : Gen.W3 (F := Ideal) m ρ c (Proc.devRef .tc main_v27) = wT (F := Ideal) (m ((c.tc : Thread nD τ).loc main_arg4)) :=
  stack_r (Gen.W2 m ρ c) _ (at2 m ρ c main_arg4 (by decide) (by decide))

/-- After the fourth: the gathered rows, and the once-computed buffers as they were. -/
theorem msg4 : Gen.W4 (F := Ideal) m ρ c (Proc.devRef .tc main_v28)
    = takeK (F := Ideal) (m ((c.tc : Thread nD τ).loc main_arg0)) (srcK (srcRow (edges m c)) (dstRow (edges m c))) :=
  gathered (Gen.W3 m ρ c) _ _ (at3 m ρ c main_arg0 (by decide) (by decide) (by decide)) (src3 m ρ c)
theorem src4 : Gen.W4 (F := Ideal) m ρ c (Proc.devRef .tc main_v11) = srcK (srcRow (edges m c)) (dstRow (edges m c)) :=
  (keep3 (Gen.W3 m ρ c) main_v11 (by decide)).trans (src3 m ρ c)
theorem dst4 : Gen.W4 (F := Ideal) m ρ c (Proc.devRef .tc main_v18) = dstK (dstRow (edges m c)) :=
  (keep3 (Gen.W3 m ρ c) main_v18 (by decide)).trans (dst3 m ρ c)
theorem deg4 : Gen.W4 (F := Ideal) m ρ c (Proc.devRef .tc main_v23) = degCol (F := Ideal) (dstK (dstRow (edges m c))) :=
  (keep3 (Gen.W3 m ρ c) main_v23 (by decide)).trans (deg3 m ρ c)
theorem wl4 : Gen.W4 (F := Ideal) m ρ c (Proc.devRef .tc main_v25) = wT (F := Ideal) (m ((c.tc : Thread nD τ).loc main_arg2)) :=
  (keep3 (Gen.W3 m ρ c) main_v25 (by decide)).trans (wl3 m ρ c)
theorem wr4' : Gen.W4 (F := Ideal) m ρ c (Proc.devRef .tc main_v27) = wT (F := Ideal) (m ((c.tc : Thread nD τ).loc main_arg4)) :=
  (keep3 (Gen.W3 m ρ c) main_v27 (by decide)).trans (wr3' m ρ c)

/-- The aggregate of the gathered rows over the sorted edges is the layer's aggregate of the features. -/
theorem aggK_eq (x : FVec Ideal S50000x128 .f32) (s d : IVec S800000 32) :
    aggOf (F := Ideal) (dstK d) (takeK (F := Ideal) x (srcK s d)) = aggK (F := Ideal) x s d := rfl

end Chain

end Entry0

open Entry0

/-- The once-computed buffers and the arguments at the first region's entry. -/
theorem persist5 (m : (ℓ : Loc nD τ sig) → Buf (Elt Ideal) ℓ) (ρ : Dev nD → PrngReg) (c : Dev nD) :
    Persist m c (Gen.W5 (F := Ideal) m ρ c) where
  src := (keep4 (Gen.W4 m ρ c) main_v11 (by decide)).trans (src4 m ρ c)
  dst := (keep4 (Gen.W4 m ρ c) main_v18 (by decide)).trans (dst4 m ρ c)
  deg := (keep4 (Gen.W4 m ρ c) main_v23 (by decide)).trans (deg4 m ρ c)
  wl := (keep4 (Gen.W4 m ρ c) main_v25 (by decide)).trans (wl4 m ρ c)
  wr := (keep4 (Gen.W4 m ρ c) main_v27 (by decide)).trans (wr4' m ρ c)
  a0 := at5 m ρ c main_arg0 (by decide) (by decide) (by decide) (by decide) (by decide)
  a1 := at5 m ρ c main_arg1 (by decide) (by decide) (by decide) (by decide) (by decide)
  a2 := at5 m ρ c main_arg2 (by decide) (by decide) (by decide) (by decide) (by decide)
  a3 := at5 m ρ c main_arg3 (by decide) (by decide) (by decide) (by decide) (by decide)
  a4 := at5 m ρ c main_arg4 (by decide) (by decide) (by decide) (by decide) (by decide)
  a5 := at5 m ρ c main_arg5 (by decide) (by decide) (by decide) (by decide) (by decide)
  a6 := at5 m ρ c main_arg6 (by decide) (by decide) (by decide) (by decide) (by decide)

/-- The first region's aggregate window: the gathered rows summed at the sorted destinations. -/
theorem entry0_v31 (m : (ℓ : Loc nD τ sig) → Buf (Elt Ideal) ℓ) (ρ : Dev nD → PrngReg) (c : Dev nD) :
    Gen.V5 (F := Ideal) m ρ c main_v31
      = aggK (F := Ideal) (m ((c.tc : Thread nD τ).loc main_arg0)) (srcRow (edges m c)) (dstRow (edges m c)) :=
  (summed (Gen.W4 m ρ c) _ _ (dst4 m ρ c) (msg4 m ρ c)).trans (aggK_eq _ _ _)

/-- The first layer's left weight window. -/
theorem entry0_v33 (m : (ℓ : Loc nD τ sig) → Buf (Elt Ideal) ℓ) (ρ : Dev nD → PrngReg) (c : Dev nD) :
    Gen.V5 (F := Ideal) m ρ c main_v33 = wK0 (F := Ideal) (m ((c.tc : Thread nD τ).loc main_arg2)) :=
  win_l (Gen.W4 m ρ c) _ (wl4 m ρ c)

/-- The first layer's left bias row. -/
theorem entry0_v42 (m : (ℓ : Loc nD τ sig) → Buf (Elt Ideal) ℓ) (ρ : Dev nD → PrngReg) (c : Dev nD) :
    Gen.V5 (F := Ideal) m ρ c main_v42 = rowK0 (F := Ideal) (m ((c.tc : Thread nD τ).loc main_arg3)) :=
  row_bl (Gen.W4 m ρ c) _ (at4 m ρ c main_arg3 (by decide) (by decide) (by decide) (by decide))

/-- The first layer's right weight window. -/
theorem entry0_v37 (m : (ℓ : Loc nD τ sig) → Buf (Elt Ideal) ℓ) (ρ : Dev nD → PrngReg) (c : Dev nD) :
    Gen.V5 (F := Ideal) m ρ c main_v37 = wK0 (F := Ideal) (m ((c.tc : Thread nD τ).loc main_arg4)) :=
  win_r (Gen.W4 m ρ c) _ (wr4' m ρ c)

/-- The first layer's scale row. -/
theorem entry0_v43 (m : (ℓ : Loc nD τ sig) → Buf (Elt Ideal) ℓ) (ρ : Dev nD → PrngReg) (c : Dev nD) :
    Gen.V5 (F := Ideal) m ρ c main_v43 = rowK0 (F := Ideal) (m ((c.tc : Thread nD τ).loc main_arg5)) :=
  row_g (Gen.W4 m ρ c) _ (at4 m ρ c main_arg5 (by decide) (by decide) (by decide) (by decide))

/-- The first layer's shift row. -/
theorem entry0_v44 (m : (ℓ : Loc nD τ sig) → Buf (Elt Ideal) ℓ) (ρ : Dev nD → PrngReg) (c : Dev nD) :
    Gen.V5 (F := Ideal) m ρ c main_v44 = rowK0 (F := Ideal) (m ((c.tc : Thread nD τ).loc main_arg6)) :=
  row_b (Gen.W4 m ρ c) _ (at4 m ρ c main_arg6 (by decide) (by decide) (by decide) (by decide))

/-- The six windows of the first region that host operations wrote, together. -/
theorem entry0 (m : (ℓ : Loc nD τ sig) → Buf (Elt Ideal) ℓ) (ρ : Dev nD → PrngReg) (c : Dev nD) :
    Gen.V5 (F := Ideal) m ρ c main_v31
        = aggK (F := Ideal) (m ((c.tc : Thread nD τ).loc main_arg0)) (srcRow (edges m c)) (dstRow (edges m c))
      ∧ Gen.V5 (F := Ideal) m ρ c main_v33 = wK0 (F := Ideal) (m ((c.tc : Thread nD τ).loc main_arg2))
      ∧ Gen.V5 (F := Ideal) m ρ c main_v42 = rowK0 (F := Ideal) (m ((c.tc : Thread nD τ).loc main_arg3))
      ∧ Gen.V5 (F := Ideal) m ρ c main_v37 = wK0 (F := Ideal) (m ((c.tc : Thread nD τ).loc main_arg4))
      ∧ Gen.V5 (F := Ideal) m ρ c main_v43 = rowK0 (F := Ideal) (m ((c.tc : Thread nD τ).loc main_arg5))
      ∧ Gen.V5 (F := Ideal) m ρ c main_v44 = rowK0 (F := Ideal) (m ((c.tc : Thread nD τ).loc main_arg6)) :=
  ⟨entry0_v31 m ρ c, entry0_v33 m ρ c, entry0_v42 m ρ c, entry0_v37 m ρ c, entry0_v43 m ρ c, entry0_v44 m ρ c⟩

end Cert.KernelIdeal.Chain

end
-- ==== Proof.KerEntry1.lean ====
/-
  From the entry of the first Pallas region to the entry of the second.

  The first region writes one array, the features of layer 2; every other buffer leaves it as it entered. The host
  operations between the two regions gather the rows of those features that the sorted sources name (the
  not-a-number word where a wrapped index falls outside the table), add each gathered row at its sorted
  destination starting from zero, and cut layer 2's five parameter windows out of the transposed weight stacks and
  the stacked parameter vectors. None of them writes a once-computed buffer or an argument, so those persist.
-/
import proofs.«417933_j80195629351383_2_alg».proof.Proof.Gen.KernelIdeal.Frame
import proofs.«417933_j80195629351383_2_alg».proof.Proof.KerState

set_option maxRecDepth 16384

noncomputable section

namespace Cert.KernelIdeal.Chain

open Cert.KernelIdeal Cert.KernelIdeal.Edge Idealize.ShloMosaic Idealize.ShloMosaic.TcCoe Idealize.SL.Sem
open Facts₀ Facts

variable (m : (ℓ : Loc nD τ sig) → Buf (Elt Ideal) ℓ) (ρ : Dev nD → PrngReg)

/-- Region 0's output array at its exit: the features of layer 2. -/
abbrev h1 (c : Dev nD) : FVec Ideal S50000x128 .f32 := Gen.W6 (F := Ideal) m ρ c (Proc.devRef .tc main_v45)

/-- The features of layer 2 are what the first region's write-backs leave in its output window's array. -/
theorem h1_eq (c : Dev nD) : h1 m ρ c = (Gen.dat0 (F := Ideal) (Gen.V5 m ρ) c).arrAt 8 cfg0.N :=
  Gen.W6_arr (F := Ideal) m ρ c 8

namespace Entry1

/-- A buffer that no operation of a stretch writes holds after the stretch what it held before it: every
    operation's written reference differs from the buffer's. -/
local macro "keeps " b:term " across " s:ident " from " V:term : term =>
  `(StableHlo.after_of_forall_not_mem (b := Proc.devRef .tc $b) ($s:ident (F := Ideal)) $V (List.forall_iff_forall_mem.mp (by
      simp only [$s:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## The once-computed buffers and the arguments across the first region and the two stretches after it -/

/-- Across the first region: the in-degree column and the first argument are arrays of two of its input windows,
    which a region never writes; the other ten are none of its arrays. -/
theorem persist6 (c : Dev nD) (h5 : Persist m c (Gen.W5 (F := Ideal) m ρ c)) : Persist m c (Gen.W6 (F := Ideal) m ρ c) where
  src := (Gen.W6_of_ne (F := Ideal) m ρ c main_v11 (by decide)).trans h5.src
  dst := (Gen.W6_of_ne (F := Ideal) m ρ c main_v18 (by decide)).trans h5.dst
  deg := ((Gen.W6_arr (F := Ideal) m ρ c 1).trans
    (((Gen.dat0 (F := Ideal) (Gen.V5 m ρ) c).arrAt_in 1 rfl _).trans (Gen.A_eq0 (F := Ideal) (Gen.V5 m ρ) c 1))).trans h5.deg
  wl := (Gen.W6_of_ne (F := Ideal) m ρ c main_v25 (by decide)).trans h5.wl
  wr := (Gen.W6_of_ne (F := Ideal) m ρ c main_v27 (by decide)).trans h5.wr
  a0 := ((Gen.W6_arr (F := Ideal) m ρ c 2).trans
    (((Gen.dat0 (F := Ideal) (Gen.V5 m ρ) c).arrAt_in 2 rfl _).trans (Gen.A_eq0 (F := Ideal) (Gen.V5 m ρ) c 2))).trans h5.a0
  a1 := (Gen.W6_of_ne (F := Ideal) m ρ c main_arg1 (by decide)).trans h5.a1
  a2 := (Gen.W6_of_ne (F := Ideal) m ρ c main_arg2 (by decide)).trans h5.a2
  a3 := (Gen.W6_of_ne (F := Ideal) m ρ c main_arg3 (by decide)).trans h5.a3
  a4 := (Gen.W6_of_ne (F := Ideal) m ρ c main_arg4 (by decide)).trans h5.a4
  a5 := (Gen.W6_of_ne (F := Ideal) m ρ c main_arg5 (by decide)).trans h5.a5
  a6 := (Gen.W6_of_ne (F := Ideal) m ρ c main_arg6 (by decide)).trans h5.a6

/-- Across the masked gather: it writes its own intermediate values and the gathered messages only. -/
theorem persist7 (c : Dev nD) (h6 : Persist m c (Gen.W6 (F := Ideal) m ρ c)) : Persist m c (Gen.W7 (F := Ideal) m ρ c) where
  src := (keeps main_v11 across Gen.hostOps1 from Gen.W6 (F := Ideal) m ρ c).trans h6.src
  dst := (keeps main_v18 across Gen.hostOps1 from Gen.W6 (F := Ideal) m ρ c).trans h6.dst
  deg := (keeps main_v23 across Gen.hostOps1 from Gen.W6 (F := Ideal) m ρ c).trans h6.deg
  wl := (keeps main_v25 across Gen.hostOps1 from Gen.W6 (F := Ideal) m ρ c).trans h6.wl
  wr := (keeps main_v27 across Gen.hostOps1 from Gen.W6 (F := Ideal) m ρ c).trans h6.wr
  a0 := (keeps main_arg0 across Gen.hostOps1 from Gen.W6 (F := Ideal) m ρ c).trans h6.a0
  a1 := (keeps main_arg1 across Gen.hostOps1 from Gen.W6 (F := Ideal) m ρ c).trans h6.a1
  a2 := (keeps main_arg2 across Gen.hostOps1 from Gen.W6 (F := Ideal) m ρ c).trans h6.a2
  a3 := (keeps main_arg3 across Gen.hostOps1 from Gen.W6 (F := Ideal) m ρ c).trans h6.a3
  a4 := (keeps main_arg4 across Gen.hostOps1 from Gen.W6 (F := Ideal) m ρ c).trans h6.a4
  a5 := (keeps main_arg5 across Gen.hostOps1 from Gen.W6 (F := Ideal) m ρ c).trans h6.a5
  a6 := (keeps main_arg6 across Gen.hostOps1 from Gen.W6 (F := Ideal) m ρ c).trans h6.a6

/-- Across the sum at the destinations and the cutting of the parameter windows: each writes a fresh buffer. -/
theorem persist8_of7 (c : Dev nD) (h7 : Persist m c (Gen.W7 (F := Ideal) m ρ c)) : Persist m c (Gen.W8 (F := Ideal) m ρ c) where
  src := (keeps main_v11 across Gen.hostOps1_1 from Gen.W7 (F := Ideal) m ρ c).trans h7.src
  dst := (keeps main_v18 across Gen.hostOps1_1 from Gen.W7 (F := Ideal) m ρ c).trans h7.dst
  deg := (keeps main_v23 across Gen.hostOps1_1 from Gen.W7 (F := Ideal) m ρ c).trans h7.deg
  wl := (keeps main_v25 across Gen.hostOps1_1 from Gen.W7 (F := Ideal) m ρ c).trans h7.wl
  wr := (keeps main_v27 across Gen.hostOps1_1 from Gen.W7 (F := Ideal) m ρ c).trans h7.wr
  a0 := (keeps main_arg0 across Gen.hostOps1_1 from Gen.W7 (F := Ideal) m ρ c).trans h7.a0
  a1 := (keeps main_arg1 across Gen.hostOps1_1 from Gen.W7 (F := Ideal) m ρ c).trans h7.a1
  a2 := (keeps main_arg2 across Gen.hostOps1_1 from Gen.W7 (F := Ideal) m ρ c).trans h7.a2
  a3 := (keeps main_arg3 across Gen.hostOps1_1 from Gen.W7 (F := Ideal) m ρ c).trans h7.a3
  a4 := (keeps main_arg4 across Gen.hostOps1_1 from Gen.W7 (F := Ideal) m ρ c).trans h7.a4
  a5 := (keeps main_arg5 across Gen.hostOps1_1 from Gen.W7 (F := Ideal) m ρ c).trans h7.a5
  a6 := (keeps main_arg6 across Gen.hostOps1_1 from Gen.W7 (F := Ideal) m ρ c).trans h7.a6

/-- Neither stretch writes the features of layer 2. -/
theorem feat8 (c : Dev nD) :
    Gen.W8 (F := Ideal) m ρ c (Proc.devRef .tc main_v45) = Gen.W6 (F := Ideal) m ρ c (Proc.devRef .tc main_v45) :=
  (keeps main_v45 across Gen.hostOps1_1 from Gen.W7 (F := Ideal) m ρ c).trans
    (keeps main_v45 across Gen.hostOps1 from Gen.W6 (F := Ideal) m ρ c)

/-! ## Typed references: a value stored at its own type and read back is itself -/

/-- Storing a value through a typed reference and reading it back through the same reference returns it. -/
theorem ofBuf_toBuf {T : BufTy} (x : StableHlo.TRef sig T) (v : T.Contents (Elt Ideal)) : x.ofBuf (x.toBuf v) = v := by
  obtain ⟨r, h, _, _⟩ := x; subst h; rfl

/-- The sorted sources' buffer is read at its own type. -/
theorem ofBuf_v11 (p1 p2 p3) (v : (main_v11 : Ref sig .tc).ty.Contents (Elt Ideal)) :
    (StableHlo.TRef.of (T := ⟨S800000, .i32⟩) main_v11 p1 p2 p3).ofBuf v = v := rfl

/-- The features' buffer is read at its own type. -/
theorem ofBuf_v45 (p1 p2 p3) (v : (main_v45 : Ref sig .tc).ty.Contents (Elt Ideal)) :
    (StableHlo.TRef.of (T := ⟨S50000x128, .f32⟩) main_v45 p1 p2 p3).ofBuf v = v := rfl

/-- The messages' buffer is written at its own type. -/
theorem toBuf_v46 (p1 p2 p3) (v : (⟨S800000x128, .f32⟩ : BufTy).Contents (Elt Ideal)) :
    (StableHlo.TRef.of (T := ⟨S800000x128, .f32⟩) main_v46 p1 p2 p3).toBuf v = v := rfl

/-! ## What the two stretches write, from any starting contents `X` -/

/-- The masked gather: the rows of the features that the index buffer names, the not-a-number word where a wrapped
    index lies outside the table. -/
theorem take_of (X : Valuation τ sig (Elt Ideal)) :
    StableHlo.after (Gen.hostOps1 (F := Ideal)) X (Proc.devRef .tc main_v46)
      = Edge.takeK (F := Ideal) (X (Proc.devRef .tc main_v45)) (X (Proc.devRef .tc main_v11)) := by
  after_results_simp
  simp only [ofBuf_toBuf, ofBuf_v11, ofBuf_v45, toBuf_v46]
  unfold Edge.takeK Edge.takeMask Edge.takeIdx Edge.wrap Edge.col
  rfl

/-- The sum at the destinations: each message added, from zero, at the row its destination names. -/
theorem agg_of (X : Valuation τ sig (Elt Ideal)) :
    StableHlo.after (Gen.hostOps1_1 (F := Ideal)) X (Proc.devRef .tc main_v49)
      = Edge.aggOf (F := Ideal) (X (Proc.devRef .tc main_v18)) (X (Proc.devRef .tc main_v46)) := by
  after_results
  rfl

/-- Slice 1 of a transposed weight stack, as a matrix. -/
abbrev cut1 (w : FVec Ideal S3x128x128 .bf16) : FVec Ideal S128x128 .bf16 :=
  shapeCast S128x128 (extractStridedSlice S1x128x128 ![1, 0, 0] w slices_S3x128x128_S1x128x128_1_0_0) shapeCasts_S1x128x128_S128x128

/-- The left weight window: slice 1 of the left transposed stack. -/
theorem wl_of (X : Valuation τ sig (Elt Ideal)) :
    StableHlo.after (Gen.hostOps1_1 (F := Ideal)) X (Proc.devRef .tc main_v51) = cut1 (X (Proc.devRef .tc main_v25)) := by
  after_results
  rfl

/-- The right weight window: slice 1 of the right transposed stack. -/
theorem wr_of (X : Valuation τ sig (Elt Ideal)) :
    StableHlo.after (Gen.hostOps1_1 (F := Ideal)) X (Proc.devRef .tc main_v55) = cut1 (X (Proc.devRef .tc main_v27)) := by
  after_results
  rfl

/-- The left bias row: slice 1 of the fourth argument, as one row. -/
theorem bl_of (X : Valuation τ sig (Elt Ideal)) :
    StableHlo.after (Gen.hostOps1_1 (F := Ideal)) X (Proc.devRef .tc main_v60)
      = Edge.rowK1 (F := Ideal) (X (Proc.devRef .tc main_arg3)) := by
  after_results
  rfl

/-- The normalisation scale row: slice 1 of the sixth argument, as one row. -/
theorem g_of (X : Valuation τ sig (Elt Ideal)) :
    StableHlo.after (Gen.hostOps1_1 (F := Ideal)) X (Proc.devRef .tc main_v61)
      = Edge.rowK1 (F := Ideal) (X (Proc.devRef .tc main_arg5)) := by
  after_results
  rfl

/-- The normalisation shift row: slice 1 of the seventh argument, as one row. -/
theorem b_of (X : Valuation τ sig (Elt Ideal)) :
    StableHlo.after (Gen.hostOps1_1 (F := Ideal)) X (Proc.devRef .tc main_v62)
      = Edge.rowK1 (F := Ideal) (X (Proc.devRef .tc main_arg6)) := by
  after_results
  rfl

end Entry1

/-! ## The second region's entry -/

/-- The once-computed buffers and the arguments are still in place at the second region's entry. -/
theorem persist8 (c : Dev nD) (h5 : Persist m c (Gen.W5 (F := Ideal) m ρ c)) : Persist m c (Gen.W8 (F := Ideal) m ρ c) :=
  Entry1.persist8_of7 m ρ c (Entry1.persist7 m ρ c (Entry1.persist6 m ρ c h5))

/-- The aggregated messages of layer 2: the rows of its features gathered at the sorted sources, added at the
    sorted destinations. -/
theorem entry1_agg (c : Dev nD) (h5 : Persist m c (Gen.W5 (F := Ideal) m ρ c)) :
    Gen.V8 (F := Ideal) m ρ c main_v49 = Edge.aggK (F := Ideal) (h1 m ρ c) (Edge.srcRow (edges m c)) (Edge.dstRow (edges m c)) := by
  have h6 := Entry1.persist6 m ρ c h5
  have h7 := Entry1.persist7 m ρ c h6
  -- the messages: the masked gather read the features of layer 2 and the sorted sources
  have e46 : Gen.W7 (F := Ideal) m ρ c (Proc.devRef .tc main_v46)
      = Edge.takeK (F := Ideal) (h1 m ρ c) (Edge.srcK (Edge.srcRow (edges m c)) (Edge.dstRow (edges m c))) :=
    (Entry1.take_of (Gen.W6 (F := Ideal) m ρ c)).trans (congrArg (Edge.takeK (F := Ideal) (h1 m ρ c)) h6.src)
  -- their sum at the sorted destinations
  have e49 : Gen.V8 (F := Ideal) m ρ c main_v49
      = Edge.aggOf (F := Ideal) (Edge.dstK (Edge.dstRow (edges m c)))
          (Edge.takeK (F := Ideal) (h1 m ρ c) (Edge.srcK (Edge.srcRow (edges m c)) (Edge.dstRow (edges m c)))) :=
    (Entry1.agg_of (Gen.W7 (F := Ideal) m ρ c)).trans (congrArg₂ (Edge.aggOf (F := Ideal)) h7.dst e46)
  rw [e49]
  unfold Edge.aggK
  rfl

/-- The features of layer 2 reach the second region untouched. -/
theorem entry1_feat (c : Dev nD) : Gen.V8 (F := Ideal) m ρ c main_v45 = h1 m ρ c :=
  Entry1.feat8 m ρ c

/-- Layer 2's left weight window. -/
theorem entry1_wl (c : Dev nD) (h5 : Persist m c (Gen.W5 (F := Ideal) m ρ c)) :
    Gen.V8 (F := Ideal) m ρ c main_v51 = Edge.wK1 (F := Ideal) (m ((c.tc : Thread nD τ).loc main_arg2)) :=
  (Entry1.wl_of (Gen.W7 (F := Ideal) m ρ c)).trans
    (congrArg Entry1.cut1 (Entry1.persist7 m ρ c (Entry1.persist6 m ρ c h5)).wl)

/-- Layer 2's left bias row. -/
theorem entry1_bl (c : Dev nD) (h5 : Persist m c (Gen.W5 (F := Ideal) m ρ c)) :
    Gen.V8 (F := Ideal) m ρ c main_v60 = Edge.rowK1 (F := Ideal) (m ((c.tc : Thread nD τ).loc main_arg3)) :=
  (Entry1.bl_of (Gen.W7 (F := Ideal) m ρ c)).trans
    (congrArg (Edge.rowK1 (F := Ideal)) (Entry1.persist7 m ρ c (Entry1.persist6 m ρ c h5)).a3)

/-- Layer 2's right weight window. -/
theorem entry1_wr (c : Dev nD) (h5 : Persist m c (Gen.W5 (F := Ideal) m ρ c)) :
    Gen.V8 (F := Ideal) m ρ c main_v55 = Edge.wK1 (F := Ideal) (m ((c.tc : Thread nD τ).loc main_arg4)) :=
  (Entry1.wr_of (Gen.W7 (F := Ideal) m ρ c)).trans
    (congrArg Entry1.cut1 (Entry1.persist7 m ρ c (Entry1.persist6 m ρ c h5)).wr)

/-- Layer 2's normalisation scale row. -/
theorem entry1_g (c : Dev nD) (h5 : Persist m c (Gen.W5 (F := Ideal) m ρ c)) :
    Gen.V8 (F := Ideal) m ρ c main_v61 = Edge.rowK1 (F := Ideal) (m ((c.tc : Thread nD τ).loc main_arg5)) :=
  (Entry1.g_of (Gen.W7 (F := Ideal) m ρ c)).trans
    (congrArg (Edge.rowK1 (F := Ideal)) (Entry1.persist7 m ρ c (Entry1.persist6 m ρ c h5)).a5)

/-- Layer 2's normalisation shift row. -/
theorem entry1_b (c : Dev nD) (h5 : Persist m c (Gen.W5 (F := Ideal) m ρ c)) :
    Gen.V8 (F := Ideal) m ρ c main_v62 = Edge.rowK1 (F := Ideal) (m ((c.tc : Thread nD τ).loc main_arg6)) :=
  (Entry1.b_of (Gen.W7 (F := Ideal) m ρ c)).trans
    (congrArg (Edge.rowK1 (F := Ideal)) (Entry1.persist7 m ρ c (Entry1.persist6 m ρ c h5)).a6)

/-- The second region's eight windows' arrays at its entry, as functions of layer 2's features and the launch memory
    (the in-degree column is among the once-computed buffers of `persist8`). -/
theorem entry1 (c : Dev nD) (h5 : Persist m c (Gen.W5 (F := Ideal) m ρ c)) :
    Gen.V8 (F := Ideal) m ρ c main_v49 = Edge.aggK (F := Ideal) (h1 m ρ c) (Edge.srcRow (edges m c)) (Edge.dstRow (edges m c))
    ∧ Gen.V8 (F := Ideal) m ρ c main_v45 = h1 m ρ c
    ∧ Gen.V8 (F := Ideal) m ρ c main_v51 = Edge.wK1 (F := Ideal) (m ((c.tc : Thread nD τ).loc main_arg2))
    ∧ Gen.V8 (F := Ideal) m ρ c main_v60 = Edge.rowK1 (F := Ideal) (m ((c.tc : Thread nD τ).loc main_arg3))
    ∧ Gen.V8 (F := Ideal) m ρ c main_v55 = Edge.wK1 (F := Ideal) (m ((c.tc : Thread nD τ).loc main_arg4))
    ∧ Gen.V8 (F := Ideal) m ρ c main_v61 = Edge.rowK1 (F := Ideal) (m ((c.tc : Thread nD τ).loc main_arg5))
    ∧ Gen.V8 (F := Ideal) m ρ c main_v62 = Edge.rowK1 (F := Ideal) (m ((c.tc : Thread nD τ).loc main_arg6)) :=
  ⟨entry1_agg m ρ c h5, entry1_feat m ρ c, entry1_wl m ρ c h5, entry1_bl m ρ c h5, entry1_wr m ρ c h5, entry1_g m ρ c h5,
    entry1_b m ρ c h5⟩

end Cert.KernelIdeal.Chain

end
-- ==== Proof.KerEntry2.lean ====
/-
  From the second Pallas region's exit to the third's entry: the same reading as one layer earlier.

  The second region leaves the third layer's features in its output array and touches nothing else but its own
  staging. Two host stretches follow. The first gathers, per sorted edge, the feature row its source names (an
  index below zero counted from the end, the not-a-number word where the wrapped index is outside the table); the
  second adds each gathered row at the edge's sorted destination, from zero, and cuts the third layer's slice out
  of each transposed weight stack and each parameter stack. None of these operations writes a once-computed
  buffer or an argument, so what held at the second region's entry still holds at the third's; and the third
  region's eight input arrays are the aggregated messages, the degree column, the features and the five
  parameter windows of layer three.
-/
import proofs.«417933_j80195629351383_2_alg».proof.Proof.Gen.KernelIdeal.Frame
import proofs.«417933_j80195629351383_2_alg».proof.Proof.KerState

noncomputable section

namespace Cert.KernelIdeal.Chain

open Cert.KernelIdeal Cert.KernelIdeal.Edge Idealize.ShloMosaic Idealize.ShloMosaic.TcCoe Idealize.SL.Sem

variable (m : (ℓ : Loc nD τ sig) → Buf (Elt Ideal) ℓ) (ρ : Dev nD → PrngReg)

namespace Entry2

/-! ## The two host stretches, from arbitrary starting contents `X` -/

/-- The buffers the gather stretch writes: the values of the masked gather, the last being the gathered rows. -/
abbrev gatherWrites : List (Ref sig .tc) :=
  [main_call3_c, main_call3_v0, main_call3_v1, main_call3_c_0, main_call3_v2, main_call3_v3, main_call3_v4,
   main_call3_v5, main_call3_c_1, main_call3_c_2, main_call3_v6, main_call3_v7, main_call3_v8, main_call3_v9,
   main_call3_v10, main_call3_v11, main_call3_c_3, main_call3_v12, main_call3_v13, main_call3_v14, main_call3_cst,
   main_call3_v15, main_v64]

/-- The buffers the second stretch writes: the zero table, the destination column, the sum, and the slices. -/
abbrev sumWrites : List (Ref sig .tc) :=
  [main_cst_6, main_v65, main_v66, main_v67, main_v68, main_v69, main_v70, main_v71, main_v72, main_v73, main_v74,
   main_v75, main_v76, main_v77, main_v78, main_v79, main_v80]

/-- A buffer the gather stretch does not write keeps its contents. -/
theorem keepGather (X : Valuation τ sig (Elt Ideal)) (b : Ref sig .tc) (hb : b ∉ gatherWrites) :
    StableHlo.after (Gen.hostOps2 (F := Ideal)) X (Proc.devRef .tc b) = X (Proc.devRef .tc b) := by
  refine StableHlo.after_of_writes_sub (Gen.hostOps2 (F := Ideal)) X ?_ hb
  simp only [Gen.hostOps2, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]

/-- A buffer the second stretch does not write keeps its contents. -/
theorem keepSum (X : Valuation τ sig (Elt Ideal)) (b : Ref sig .tc) (hb : b ∉ sumWrites) :
    StableHlo.after (Gen.hostOps2_1 (F := Ideal)) X (Proc.devRef .tc b) = X (Proc.devRef .tc b) := by
  refine StableHlo.after_of_writes_sub (Gen.hostOps2_1 (F := Ideal)) X ?_ hb
  simp only [Gen.hostOps2_1, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]

/-- Contents re-typed to a buffer's own type and back are unchanged. -/
theorem ofBuf_toBuf {T : BufTy} (x : StableHlo.TRef sig T) (v : T.Contents (Elt Ideal)) : x.ofBuf (x.toBuf v) = v := by
  obtain ⟨r, h, _, _⟩ := x
  subst h
  rfl

/-- Re-typing at the sorted sources' buffer, at the feature table's and at the gathered rows' is the identity:
    each buffer's type is the tensor type it is read or written at. -/
theorem ofBuf_v11 (p1 p2 p3) (v : (main_v11 : Ref sig .tc).ty.Contents (Elt Ideal)) :
    (StableHlo.TRef.of (T := ⟨S800000, .i32⟩) main_v11 p1 p2 p3).ofBuf v = v := rfl
theorem ofBuf_v63 (p1 p2 p3) (v : (main_v63 : Ref sig .tc).ty.Contents (Elt Ideal)) :
    (StableHlo.TRef.of (T := ⟨S50000x128, .f32⟩) main_v63 p1 p2 p3).ofBuf v = v := rfl
theorem toBuf_v64 (p1 p2 p3) (v : (⟨S800000x128, .f32⟩ : BufTy).Contents (Elt Ideal)) :
    (StableHlo.TRef.of (T := ⟨S800000x128, .f32⟩) main_v64 p1 p2 p3).toBuf v = v := rfl

/-- The gather stretch leaves, in its last buffer, the masked gather of the feature table's rows at the sorted
    sources: every operation of it is one of the masked gather's, in the same order. -/
theorem gather_of (X : Valuation τ sig (Elt Ideal)) :
    StableHlo.after (Gen.hostOps2 (F := Ideal)) X (Proc.devRef .tc main_v64)
      = takeK (F := Ideal) (X (Proc.devRef .tc main_v63)) (X (Proc.devRef .tc main_v11)) := by
  after_results_simp
  simp only [ofBuf_toBuf, ofBuf_v11, ofBuf_v63, toBuf_v64]
  unfold takeK takeMask takeIdx wrap col
  rfl

/-- The second stretch adds the gathered rows at the sorted destinations, from the zero table. -/
theorem sum_of (X : Valuation τ sig (Elt Ideal)) :
    StableHlo.after (Gen.hostOps2_1 (F := Ideal)) X (Proc.devRef .tc main_v67)
      = aggOf (F := Ideal) (X (Proc.devRef .tc main_v18)) (X (Proc.devRef .tc main_v64)) := by
  after_results_simp
  rfl

/-- Its slice of the left transposed stack is layer three's. -/
theorem wl_of (X : Valuation τ sig (Elt Ideal)) (W : FVec Ideal S3x128x128 .f32)
    (hW : X (Proc.devRef .tc main_v25) = wT (F := Ideal) W) :
    StableHlo.after (Gen.hostOps2_1 (F := Ideal)) X (Proc.devRef .tc main_v69) = wK2 (F := Ideal) W := by
  after_results_simp
  rw [hW]
  rfl

/-- Its slice of the right transposed stack is layer three's. -/
theorem wr_of (X : Valuation τ sig (Elt Ideal)) (W : FVec Ideal S3x128x128 .f32)
    (hW : X (Proc.devRef .tc main_v27) = wT (F := Ideal) W) :
    StableHlo.after (Gen.hostOps2_1 (F := Ideal)) X (Proc.devRef .tc main_v73) = wK2 (F := Ideal) W := by
  after_results_simp
  rw [hW]
  rfl

/-- Its three parameter rows are layer three's slices of the three parameter stacks, each re-laid as one row. -/
theorem row3_of (X : Valuation τ sig (Elt Ideal)) :
    StableHlo.after (Gen.hostOps2_1 (F := Ideal)) X (Proc.devRef .tc main_v78)
      = rowK2 (F := Ideal) (X (Proc.devRef .tc main_arg3)) := by
  after_results_simp
  rfl
theorem row5_of (X : Valuation τ sig (Elt Ideal)) :
    StableHlo.after (Gen.hostOps2_1 (F := Ideal)) X (Proc.devRef .tc main_v79)
      = rowK2 (F := Ideal) (X (Proc.devRef .tc main_arg5)) := by
  after_results_simp
  rfl
theorem row6_of (X : Valuation τ sig (Elt Ideal)) :
    StableHlo.after (Gen.hostOps2_1 (F := Ideal)) X (Proc.devRef .tc main_v80)
      = rowK2 (F := Ideal) (X (Proc.devRef .tc main_arg6)) := by
  after_results_simp
  rfl

/-! ## Across the region's exit and the two stretches -/

/-- A buffer neither stretch writes holds at the third region's entry what it held at the second's exit. -/
theorem cross (c : Dev nD) (b : Ref sig .tc) (hg : b ∉ gatherWrites) (hs : b ∉ sumWrites) :
    Gen.W11 (F := Ideal) m ρ c (Proc.devRef .tc b) = Gen.W9 (F := Ideal) m ρ c (Proc.devRef .tc b) :=
  (keepSum (Gen.W10 (F := Ideal) m ρ c) b hs).trans (keepGather (Gen.W9 (F := Ideal) m ρ c) b hg)

/-- What a buffer that the second region and the gather stretch leave alone holds before the second stretch. -/
theorem before_sum (c : Dev nD) (b : Ref sig .tc) (hg : b ∉ gatherWrites) (hr : ∀ w, Pipeline.arrRef spec1 w ≠ b) :
    Gen.W10 (F := Ideal) m ρ c (Proc.devRef .tc b) = Gen.W8 (F := Ideal) m ρ c (Proc.devRef .tc b) :=
  (keepGather (Gen.W9 (F := Ideal) m ρ c) b hg).trans (Gen.W9_of_ne m ρ c b hr)

end Entry2

open Entry2

/-! ## The statements -/

/-- Region 1's output array at its exit: the features of layer 3. -/
abbrev h2 (c : Dev nD) : FVec Ideal S50000x128 .f32 := Gen.W9 (F := Ideal) m ρ c (Proc.devRef .tc main_v63)

/-- The once-computed buffers and the arguments are still in place at the third region's entry: the second
    region has the degree column as an input window, which it leaves as entered, and none of the others among
    its arrays; neither stretch writes any of the twelve. -/
theorem persist11 (c : Dev nD) (h8 : Persist m c (Gen.W8 (F := Ideal) m ρ c)) :
    Persist m c (Gen.W11 (F := Ideal) m ρ c) where
  src := (cross m ρ c main_v11 (by decide) (by decide)).trans ((Gen.W9_of_ne m ρ c main_v11 (by decide)).trans h8.src)
  dst := (cross m ρ c main_v18 (by decide) (by decide)).trans ((Gen.W9_of_ne m ρ c main_v18 (by decide)).trans h8.dst)
  deg := (cross m ρ c main_v23 (by decide) (by decide)).trans
    (((Gen.W9_arr m ρ c 1).trans (((Gen.dat1 (Gen.V8 m ρ) c).arrAt_in 1 rfl _).trans (Gen.A_eq1 (Gen.V8 m ρ) c 1))).trans h8.deg)
  wl := (cross m ρ c main_v25 (by decide) (by decide)).trans ((Gen.W9_of_ne m ρ c main_v25 (by decide)).trans h8.wl)
  wr := (cross m ρ c main_v27 (by decide) (by decide)).trans ((Gen.W9_of_ne m ρ c main_v27 (by decide)).trans h8.wr)
  a0 := (cross m ρ c main_arg0 (by decide) (by decide)).trans ((Gen.W9_of_ne m ρ c main_arg0 (by decide)).trans h8.a0)
  a1 := (cross m ρ c main_arg1 (by decide) (by decide)).trans ((Gen.W9_of_ne m ρ c main_arg1 (by decide)).trans h8.a1)
  a2 := (cross m ρ c main_arg2 (by decide) (by decide)).trans ((Gen.W9_of_ne m ρ c main_arg2 (by decide)).trans h8.a2)
  a3 := (cross m ρ c main_arg3 (by decide) (by decide)).trans ((Gen.W9_of_ne m ρ c main_arg3 (by decide)).trans h8.a3)
  a4 := (cross m ρ c main_arg4 (by decide) (by decide)).trans ((Gen.W9_of_ne m ρ c main_arg4 (by decide)).trans h8.a4)
  a5 := (cross m ρ c main_arg5 (by decide) (by decide)).trans ((Gen.W9_of_ne m ρ c main_arg5 (by decide)).trans h8.a5)
  a6 := (cross m ρ c main_arg6 (by decide) (by decide)).trans ((Gen.W9_of_ne m ρ c main_arg6 (by decide)).trans h8.a6)

/-- The third region's input arrays at its entry: the messages of the third layer's features aggregated over
    the sorted edges, those features, and layer three's five parameter windows. -/
theorem entry2 (c : Dev nD) (h8 : Persist m c (Gen.W8 (F := Ideal) m ρ c)) :
    Gen.V11 (F := Ideal) m ρ c main_v67
        = Edge.aggK (F := Ideal) (h2 m ρ c) (Edge.srcRow (edges m c)) (Edge.dstRow (edges m c))
      ∧ Gen.V11 (F := Ideal) m ρ c main_v63 = h2 m ρ c
      ∧ Gen.V11 (F := Ideal) m ρ c main_v69 = Edge.wK2 (F := Ideal) (m ((c.tc : Thread nD τ).loc main_arg2))
      ∧ Gen.V11 (F := Ideal) m ρ c main_v78 = Edge.rowK2 (F := Ideal) (m ((c.tc : Thread nD τ).loc main_arg3))
      ∧ Gen.V11 (F := Ideal) m ρ c main_v73 = Edge.wK2 (F := Ideal) (m ((c.tc : Thread nD τ).loc main_arg4))
      ∧ Gen.V11 (F := Ideal) m ρ c main_v79 = Edge.rowK2 (F := Ideal) (m ((c.tc : Thread nD τ).loc main_arg5))
      ∧ Gen.V11 (F := Ideal) m ρ c main_v80 = Edge.rowK2 (F := Ideal) (m ((c.tc : Thread nD τ).loc main_arg6)) := by
  have e11 : Gen.W9 (F := Ideal) m ρ c (Proc.devRef .tc main_v11) = srcK (srcRow (edges m c)) (dstRow (edges m c)) :=
    (Gen.W9_of_ne m ρ c main_v11 (by decide)).trans h8.src
  have e18 : Gen.W10 (F := Ideal) m ρ c (Proc.devRef .tc main_v18) = dstK (dstRow (edges m c)) :=
    (before_sum m ρ c main_v18 (by decide) (by decide)).trans h8.dst
  have e64 : Gen.W10 (F := Ideal) m ρ c (Proc.devRef .tc main_v64)
      = takeK (F := Ideal) (h2 m ρ c) (srcK (srcRow (edges m c)) (dstRow (edges m c))) :=
    (gather_of (Gen.W9 (F := Ideal) m ρ c)).trans (congrArg (takeK (F := Ideal) (h2 m ρ c)) e11)
  refine ⟨?_, ?_, ?_, ?_, ?_, ?_, ?_⟩
  · exact (sum_of (Gen.W10 (F := Ideal) m ρ c)).trans (congrArg₂ (aggOf (F := Ideal)) e18 e64)
  · exact cross m ρ c main_v63 (by decide) (by decide)
  · exact wl_of (Gen.W10 (F := Ideal) m ρ c) _ ((before_sum m ρ c main_v25 (by decide) (by decide)).trans h8.wl)
  · exact (row3_of (Gen.W10 (F := Ideal) m ρ c)).trans
      (congrArg (rowK2 (F := Ideal)) ((before_sum m ρ c main_arg3 (by decide) (by decide)).trans h8.a3))
  · exact wr_of (Gen.W10 (F := Ideal) m ρ c) _ ((before_sum m ρ c main_v27 (by decide) (by decide)).trans h8.wr)
  · exact (row5_of (Gen.W10 (F := Ideal) m ρ c)).trans
      (congrArg (rowK2 (F := Ideal)) ((before_sum m ρ c main_arg5 (by decide) (by decide)).trans h8.a5))
  · exact (row6_of (Gen.W10 (F := Ideal) m ρ c)).trans
      (congrArg (rowK2 (F := Ideal)) ((before_sum m ρ c main_arg6 (by decide) (by decide)).trans h8.a6))

/-- The third layer's features are what the second region's pipeline leaves in its output window. -/
theorem h2_eq (c : Dev nD) : h2 m ρ c = (Gen.dat1 (F := Ideal) (Gen.V8 m ρ) c).arrAt 8 cfg1.N :=
  Gen.W9_arr m ρ c 8

/-- The program's result is what the third region's pipeline leaves in its output window. -/
theorem result_eq (c : Dev nD) :
    Gen.W12 (F := Ideal) m ρ c (Proc.devRef .tc main_v81) = (Gen.dat2 (F := Ideal) (Gen.V11 m ρ) c).arrAt 8 cfg2.N :=
  Gen.W12_arr m ρ c 8

end Cert.KernelIdeal.Chain

end
-- ==== Proof.Region0.lean ====
/-
  A layer's region, block by block, adds up to the layer on the whole graph.

  The region runs over ten grid points. At point `t` it is handed rows `5000 t … 5000 t + 4999` of the aggregated
  messages, of the in-degree column and of the node features, together with the layer's parameters whole, and it writes
  rows `5000 t … 5000 t + 4999` of the output. What it writes in a row is the layer function of that row of its three
  blocks; a row of the layer function depends on no other row; and the ten row ranges exhaust the 50000 nodes. So the
  output array ends as the layer function of the arrays the region was entered with, at every node and channel.
-/
import proofs.«417933_j80195629351383_2_alg».proof.Proof.Gen.KernelIdeal.Frame
import proofs.«417933_j80195629351383_2_alg».proof.Proof.Spec
import Idealize.ShloMosaic.Lib.ValueIdx
import Idealize.ShloMosaic.Lib.Pipeline.Value

noncomputable section

namespace Cert.KernelIdeal.Region

open Cert.KernelIdeal Cert.KernelIdeal.Gen Cert.Sage Idealize.ShloMosaic Idealize.ShloMosaic.TcCoe Idealize.ShloMosaic.ValueIdx
open Idealize.ShloMosaic.Pipeline (Dat)

section

variable (V : (c : Dev nD) → (b : Ref sig .tc) → Buf (Elt Ideal) ((c : Thread nD τ).loc b))

/-! ## The arrays the region is entered with, and the blocks a grid point is handed -/

/-- The aggregated messages: row `n` is the sum of the source rows of the edges that end at node `n`. -/
abbrev aggR0 (c : Dev nD) : Vec Ideal S50000x128 .f32 := V c main_v31
/-- The in-degrees, one per node, as a column. -/
abbrev degR0 (c : Dev nD) : Vec Ideal S50000x1 .f32 := V c main_v23
/-- The node features the layer starts from. -/
abbrev featR0 (c : Dev nD) : Vec Ideal S50000x128 .f32 := V c main_arg0
/-- The weights applied to the neighbourhood mean, input channel by output channel. -/
abbrev wlR0 (c : Dev nD) : Vec Ideal S128x128 .bf16 := V c main_v33
/-- The bias, one row. -/
abbrev blR0 (c : Dev nD) : Vec Ideal S1x128 .f32 := V c main_v42
/-- The weights applied to the node's own features. -/
abbrev wrR0 (c : Dev nD) : Vec Ideal S128x128 .bf16 := V c main_v37
/-- The normalisation's scale, one row. -/
abbrev gR0 (c : Dev nD) : Vec Ideal S1x128 .f32 := V c main_v43
/-- The normalisation's shift, one row. -/
abbrev bR0 (c : Dev nD) : Vec Ideal S1x128 .f32 := V c main_v44

/-- The layer function of those arrays, at all 50000 nodes. -/
abbrev wholeR0 (c : Dev nD) : Vec Ideal S50000x128 .f32 :=
  layerOut (R := 50000) (aggR0 V c) (degR0 V c) (featR0 V c) (wlR0 V c) (blR0 V c) (wrR0 V c) (gR0 V c) (bR0 V c)

/-- Point `t`'s 5000 rows of the aggregated messages. -/
abbrev aggBlkR0 (c : Dev nD) (t : Fin cfg0.N) : Vec Ideal S5000x128 .f32 := iblk0 V c 0 t
/-- Point `t`'s 5000 in-degrees. -/
abbrev degBlkR0 (c : Dev nD) (t : Fin cfg0.N) : Vec Ideal S5000x1 .f32 := iblk0 V c 1 t
/-- Point `t`'s 5000 rows of the features. -/
abbrev featBlkR0 (c : Dev nD) (t : Fin cfg0.N) : Vec Ideal S5000x128 .f32 := iblk0 V c 2 t
/-- The left weights as point `t` is handed them. -/
abbrev wlBlkR0 (c : Dev nD) (t : Fin cfg0.N) : Vec Ideal S128x128 .bf16 := iblk0 V c 3 t
/-- The bias as point `t` is handed it. -/
abbrev blBlkR0 (c : Dev nD) (t : Fin cfg0.N) : Vec Ideal S1x128 .f32 := iblk0 V c 4 t
/-- The right weights as point `t` is handed them. -/
abbrev wrBlkR0 (c : Dev nD) (t : Fin cfg0.N) : Vec Ideal S128x128 .bf16 := iblk0 V c 5 t
/-- The scale as point `t` is handed it. -/
abbrev gBlkR0 (c : Dev nD) (t : Fin cfg0.N) : Vec Ideal S1x128 .f32 := iblk0 V c 6 t
/-- The shift as point `t` is handed it. -/
abbrev bBlkR0 (c : Dev nD) (t : Fin cfg0.N) : Vec Ideal S1x128 .f32 := iblk0 V c 7 t

/-! ## Where each block sits in its array -/

/-- The block index of every window at every grid point: the four row windows (messages, degrees, features, output)
    are at block row `t`, block column 0; the five parameter windows stay at block (0, 0). -/
theorem idxR0 : ∀ t : Fin cfg0.N,
    (win0_8.index t (0 : Fin 2) = t.val ∧ win0_8.index t (1 : Fin 2) = 0)
    ∧ (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- Row `r` of point `t`'s block of the messages is row `5000 t + r` of the messages. -/
theorem aggBlkR0_apply (c : Dev nD) (t : Fin cfg0.N) (r : Fin 5000) (k : Fin 128) (n : Fin 50000)
    (hn : n.val = 5000 * t.val + r.val) :
    aggBlkR0 V c t (ix2 r k) = aggR0 V c (ix2 n k) := by
  obtain ⟨-, ⟨e0, e1⟩, -⟩ := idxR0 t
  show aggR0 V c (((cfg0.win 0).blk t).view.emb (ix2 r k : S5000x128.Idx)) = aggR0 V c (ix2 n k)
  refine congrArg (aggR0 V c) ?_
  funext a; apply Fin.ext
  match a with
  | ⟨0, _⟩ => show win0_0.index t (0 : Fin 2) * 5000 + 1 * r.val = n.val; rw [e0, hn]; omega
  | ⟨1, _⟩ => show win0_0.index t (1 : Fin 2) * 128 + 1 * k.val = k.val; rw [e1]; omega

/-- Entry `r` of point `t`'s block of the degrees is the degree of node `5000 t + r`. -/
theorem degBlkR0_apply (c : Dev nD) (t : Fin cfg0.N) (r : Fin 5000) (n : Fin 50000)
    (hn : n.val = 5000 * t.val + r.val) :
    degBlkR0 V c t (ix2 r (0 : Fin 1)) = degR0 V c (ix2 n (0 : Fin 1)) := by
  obtain ⟨-, -, ⟨e0, e1⟩, -⟩ := idxR0 t
  show degR0 V c (((cfg0.win 1).blk t).view.emb (ix2 r (0 : Fin 1) : S5000x1.Idx)) = degR0 V c (ix2 n (0 : Fin 1))
  refine congrArg (degR0 V c) ?_
  funext a; apply Fin.ext
  match a with
  | ⟨0, _⟩ => show win0_1.index t (0 : Fin 2) * 5000 + 1 * r.val = n.val; rw [e0, hn]; omega
  | ⟨1, _⟩ => show win0_1.index t (1 : Fin 2) * 1 + 1 * 0 = 0; rw [e1]

/-- Row `r` of point `t`'s block of the features is row `5000 t + r` of the features. -/
theorem featBlkR0_apply (c : Dev nD) (t : Fin cfg0.N) (r : Fin 5000) (k : Fin 128) (n : Fin 50000)
    (hn : n.val = 5000 * t.val + r.val) :
    featBlkR0 V c t (ix2 r k) = featR0 V c (ix2 n k) := by
  obtain ⟨-, -, -, ⟨e0, e1⟩, -⟩ := idxR0 t
  show featR0 V c (((cfg0.win 2).blk t).view.emb (ix2 r k : S5000x128.Idx)) = featR0 V c (ix2 n k)
  refine congrArg (featR0 V c) ?_
  funext a; apply Fin.ext
  match a with
  | ⟨0, _⟩ => show win0_2.index t (0 : Fin 2) * 5000 + 1 * r.val = n.val; rw [e0, hn]; omega
  | ⟨1, _⟩ => show win0_2.index t (1 : Fin 2) * 128 + 1 * k.val = k.val; rw [e1]; omega

/-- A parameter's block is the parameter: its one block starts at the origin and has the array's extents. -/
theorem wlBlkR0_eq (c : Dev nD) (t : Fin cfg0.N) : wlBlkR0 V c t = wlR0 V c := by
  obtain ⟨-, -, -, -, ⟨e0, e1⟩, -⟩ := idxR0 t
  funext y
  show wlR0 V c (((cfg0.win 3).blk t).view.emb y) = wlR0 V c y
  refine congrArg (wlR0 V c) ?_
  funext a; apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem blBlkR0_eq (c : Dev nD) (t : Fin cfg0.N) : blBlkR0 V c t = blR0 V c := by
  obtain ⟨-, -, -, -, -, ⟨e0, e1⟩, -⟩ := idxR0 t
  funext y
  show blR0 V c (((cfg0.win 4).blk t).view.emb y) = blR0 V c y
  refine congrArg (blR0 V c) ?_
  funext a; apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

theorem wrBlkR0_eq (c : Dev nD) (t : Fin cfg0.N) : wrBlkR0 V c t = wrR0 V c := by
  obtain ⟨-, -, -, -, -, -, ⟨e0, e1⟩, -⟩ := idxR0 t
  funext y
  show wrR0 V c (((cfg0.win 5).blk t).view.emb y) = wrR0 V c y
  refine congrArg (wrR0 V c) ?_
  funext a; apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

theorem gBlkR0_eq (c : Dev nD) (t : Fin cfg0.N) : gBlkR0 V c t = gR0 V c := by
  obtain ⟨-, -, -, -, -, -, -, ⟨e0, e1⟩, -⟩ := idxR0 t
  funext y
  show gR0 V c (((cfg0.win 6).blk t).view.emb y) = gR0 V c y
  refine congrArg (gR0 V c) ?_
  funext a; apply Fin.ext
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

theorem bBlkR0_eq (c : Dev nD) (t : Fin cfg0.N) : bBlkR0 V c t = bR0 V c := by
  obtain ⟨-, -, -, -, -, -, -, -, e0, e1⟩ := idxR0 t
  funext y
  show bR0 V c (((cfg0.win 7).blk t).view.emb y) = bR0 V c y
  refine congrArg (bR0 V c) ?_
  funext a; apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-! ## What a grid point writes back -/

-- what the body leaves in a row of its output block is the layer function of that row of its blocks
variable (hbody : ∀ (x0 : Vec Ideal S5000x128 .f32) (x1 : Vec Ideal S5000x1 .f32) (x2 : Vec Ideal S5000x128 .f32)
    (x3 : Vec Ideal S128x128 .bf16) (x4 : Vec Ideal S1x128 .f32) (x5 : Vec Ideal S128x128 .bf16)
    (x6 x7 : Vec Ideal S1x128 .f32) (r : Fin 5000) (j : Fin 128),
    out0_8 (F := Ideal) x0 x1 x2 x3 x4 x5 x6 x7 (ix2 r j) = layerOut (R := 5000) x0 x1 x2 x3 x4 x5 x6 x7 (ix2 r j))
include hbody

/-- Row `r` of what point `t` leaves is row `5000 t + r` of the layer on the whole graph: the body computes the layer
    function of its blocks' row `r`, that row of each block is row `5000 t + r` of its array, the parameters are whole,
    and a row of the layer function reads only that row. -/
theorem pointR0 (c : Dev nD) (t : Fin cfg0.N) (r : Fin 5000) (j : Fin 128) (n : Fin 50000)
    (hn : n.val = 5000 * t.val + r.val) :
    out0_8 (F := Ideal) (aggBlkR0 V c t) (degBlkR0 V c t) (featBlkR0 V c t) (wlBlkR0 V c t) (blBlkR0 V c t)
        (wrBlkR0 V c t) (gBlkR0 V c t) (bBlkR0 V c t) (ix2 r j)
      = wholeR0 V c (ix2 n j) := by
  refine (hbody (aggBlkR0 V c t) (degBlkR0 V c t) (featBlkR0 V c t) (wlBlkR0 V c t) (blBlkR0 V c t)
    (wrBlkR0 V c t) (gBlkR0 V c t) (bBlkR0 V c t) r j).trans ?_
  rw [wlBlkR0_eq V c t, blBlkR0_eq V c t, wrBlkR0_eq V c t, gBlkR0_eq V c t, bBlkR0_eq V c t]
  exact layerOut_row (aggR0 V c) (degR0 V c) (featR0 V c) (wlR0 V c) (blR0 V c) (wrR0 V c) (gR0 V c) (bR0 V c)
    (aggBlkR0 V c t) (degBlkR0 V c t) (featBlkR0 V c t) r n
    (fun k => aggBlkR0_apply V c t r k n hn) (degBlkR0_apply V c t r n hn) (fun k => featBlkR0_apply V c t r k n hn) j

/-- The same at any index of the output block, the array index being the one the block's place gives. -/
theorem flushedR0_point (c : Dev nD) (t : Fin cfg0.N) (y : S5000x128.Idx) :
    out0_8 (F := Ideal) (aggBlkR0 V c t) (degBlkR0 V c t) (featBlkR0 V c t) (wlBlkR0 V c t) (blBlkR0 V c t)
        (wrBlkR0 V c t) (gBlkR0 V c t) (bBlkR0 V c t) y
      = wholeR0 V c (((cfg0.win 8).blk t).view.emb y) := by
  obtain ⟨r, j, rfl⟩ : ∃ (r : Fin 5000) (j : Fin 128), y = ix2 r j := ⟨y 0, y 1, eq_ix2 y⟩
  have hN : cfg0.N = 10 := N_0
  have ht : t.val < cfg0.N := t.isLt
  have hlt : 5000 * t.val + r.val < 50000 := by omega
  refine (pointR0 V hbody c t r j ⟨5000 * t.val + r.val, hlt⟩ rfl).trans ?_
  refine congrArg (wholeR0 V c) ?_
  obtain ⟨⟨e0, e1⟩, -⟩ := idxR0 t
  funext a; apply Fin.ext
  match a with
  | ⟨0, _⟩ => show 5000 * t.val + r.val = win0_8.index t (0 : Fin 2) * 5000 + 1 * r.val; rw [e0]; omega
  | ⟨1, _⟩ => show j.val = win0_8.index t (1 : Fin 2) * 128 + 1 * j.val; rw [e1]; omega

/-- What point `t` writes back to the output array is block `t` of the layer on the whole graph. -/
theorem flushedR0 (c : Dev nD) (t : Fin cfg0.N) :
    (dat0 (F := Ideal) V c).flushed 8 t = ((cfg0.win 8).blk t).view.read (Elt Ideal) (wholeR0 V c) := by
  show (cfg0.win 8).cut (grid0.coords t) ((dat0 (F := Ideal) V c).after 8 t) = _
  rw [after0_8]
  funext y
  exact flushedR0_point V hbody c t y

omit hbody

/-! ## The ten blocks exhaust the array -/

/-- An index of the output array lies in point `t`'s block iff each coordinate lies in the block's range on its axis. -/
theorem mem_blkR0 (t : Fin cfg0.N) (i : S50000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v45).slice (win0_8.rect t)).set ↔ _
  rw [View.set_slice_whole, Rect.mem_set_unit]
  exact Iff.rfl

/-- Node `n`'s row is written by point `n / 5000`. -/
theorem coverR0 (i : S50000x128.Idx) :
    ∃ t : Fin cfg0.N, (cfg0.win 8).flush t = true ∧ i ∈ ((cfg0.win 8).blk t).view.set := by
  have hN : cfg0.N = 10 := N_0
  have hi0 : (i 0).val < 50000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨⟨e0, e1⟩, -⟩ := idxR0 t
  refine ⟨t, flush0_8 t, ?_⟩
  rw [mem_blkR0]
  intro a
  match a with
  | ⟨0, _⟩ =>
    show win0_8.index t (0 : Fin 2) * 5000 ≤ (i 0).val ∧ (i 0).val < win0_8.index t (0 : Fin 2) * 5000 + 5000
    rw [e0, ht]; omega
  | ⟨1, _⟩ =>
    show win0_8.index t (1 : Fin 2) * 128 ≤ (i 1).val ∧ (i 1).val < win0_8.index t (1 : Fin 2) * 128 + 128
    rw [e1]; omega

/-! ## The output array after the region -/

include hbody

/-- After the region has run over its ten points, the output array is the layer function, at all 50000 nodes, of the
    arrays the region was entered with. -/
theorem arr0 (c : Dev nD) :
    (dat0 (F := Ideal) V c).arrAt 8 cfg0.N
      = layerOut (R := 50000) (V c main_v31) (V c main_v23) (V c main_arg0) (V c main_v33) (V c main_v42)
          (V c main_v37) (V c main_v43) (V c main_v44) :=
  (dat0 (F := Ideal) V c).arrAt_eq_of_cover 8 (wholeR0 V c) (fun t _ => flushedR0 V hbody c t) coverR0

end

end Cert.KernelIdeal.Region

end
-- ==== Proof.Region1.lean ====
/-
  A layer's region, block by block, adds up to the layer on the whole graph.

  The region runs over ten grid points. At point `t` it is handed rows `5000 t … 5000 t + 4999` of the aggregated
  messages, of the in-degree column and of the node features, together with the layer's parameters whole, and it writes
  rows `5000 t … 5000 t + 4999` of the output. What it writes in a row is the layer function of that row of its three
  blocks; a row of the layer function depends on no other row; and the ten row ranges exhaust the 50000 nodes. So the
  output array ends as the layer function of the arrays the region was entered with, at every node and channel.
-/
import proofs.«417933_j80195629351383_2_alg».proof.Proof.Gen.KernelIdeal.Frame
import proofs.«417933_j80195629351383_2_alg».proof.Proof.Spec
import Idealize.ShloMosaic.Lib.ValueIdx
import Idealize.ShloMosaic.Lib.Pipeline.Value

noncomputable section

namespace Cert.KernelIdeal.Region

open Cert.KernelIdeal Cert.KernelIdeal.Gen Cert.Sage Idealize.ShloMosaic Idealize.ShloMosaic.TcCoe Idealize.ShloMosaic.ValueIdx
open Idealize.ShloMosaic.Pipeline (Dat)

section

variable (V : (c : Dev nD) → (b : Ref sig .tc) → Buf (Elt Ideal) ((c : Thread nD τ).loc b))

/-! ## The arrays the region is entered with, and the blocks a grid point is handed -/

/-- The aggregated messages: row `n` is the sum of the source rows of the edges that end at node `n`. -/
abbrev aggR1 (c : Dev nD) : Vec Ideal S50000x128 .f32 := V c main_v49
/-- The in-degrees, one per node, as a column. -/
abbrev degR1 (c : Dev nD) : Vec Ideal S50000x1 .f32 := V c main_v23
/-- The node features the layer starts from. -/
abbrev featR1 (c : Dev nD) : Vec Ideal S50000x128 .f32 := V c main_v45
/-- The weights applied to the neighbourhood mean, input channel by output channel. -/
abbrev wlR1 (c : Dev nD) : Vec Ideal S128x128 .bf16 := V c main_v51
/-- The bias, one row. -/
abbrev blR1 (c : Dev nD) : Vec Ideal S1x128 .f32 := V c main_v60
/-- The weights applied to the node's own features. -/
abbrev wrR1 (c : Dev nD) : Vec Ideal S128x128 .bf16 := V c main_v55
/-- The normalisation's scale, one row. -/
abbrev gR1 (c : Dev nD) : Vec Ideal S1x128 .f32 := V c main_v61
/-- The normalisation's shift, one row. -/
abbrev bR1 (c : Dev nD) : Vec Ideal S1x128 .f32 := V c main_v62

/-- The layer function of those arrays, at all 50000 nodes. -/
abbrev wholeR1 (c : Dev nD) : Vec Ideal S50000x128 .f32 :=
  layerOut (R := 50000) (aggR1 V c) (degR1 V c) (featR1 V c) (wlR1 V c) (blR1 V c) (wrR1 V c) (gR1 V c) (bR1 V c)

/-- Point `t`'s 5000 rows of the aggregated messages. -/
abbrev aggBlkR1 (c : Dev nD) (t : Fin cfg1.N) : Vec Ideal S5000x128 .f32 := iblk1 V c 0 t
/-- Point `t`'s 5000 in-degrees. -/
abbrev degBlkR1 (c : Dev nD) (t : Fin cfg1.N) : Vec Ideal S5000x1 .f32 := iblk1 V c 1 t
/-- Point `t`'s 5000 rows of the features. -/
abbrev featBlkR1 (c : Dev nD) (t : Fin cfg1.N) : Vec Ideal S5000x128 .f32 := iblk1 V c 2 t
/-- The left weights as point `t` is handed them. -/
abbrev wlBlkR1 (c : Dev nD) (t : Fin cfg1.N) : Vec Ideal S128x128 .bf16 := iblk1 V c 3 t
/-- The bias as point `t` is handed it. -/
abbrev blBlkR1 (c : Dev nD) (t : Fin cfg1.N) : Vec Ideal S1x128 .f32 := iblk1 V c 4 t
/-- The right weights as point `t` is handed them. -/
abbrev wrBlkR1 (c : Dev nD) (t : Fin cfg1.N) : Vec Ideal S128x128 .bf16 := iblk1 V c 5 t
/-- The scale as point `t` is handed it. -/
abbrev gBlkR1 (c : Dev nD) (t : Fin cfg1.N) : Vec Ideal S1x128 .f32 := iblk1 V c 6 t
/-- The shift as point `t` is handed it. -/
abbrev bBlkR1 (c : Dev nD) (t : Fin cfg1.N) : Vec Ideal S1x128 .f32 := iblk1 V c 7 t

/-! ## Where each block sits in its array -/

/-- The block index of every window at every grid point: the four row windows (messages, degrees, features, output)
    are at block row `t`, block column 0; the five parameter windows stay at block (0, 0). -/
theorem idxR1 : ∀ t : Fin cfg1.N,
    (win1_8.index t (0 : Fin 2) = t.val ∧ win1_8.index t (1 : Fin 2) = 0)
    ∧ (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N, _)

/-- Row `r` of point `t`'s block of the messages is row `5000 t + r` of the messages. -/
theorem aggBlkR1_apply (c : Dev nD) (t : Fin cfg1.N) (r : Fin 5000) (k : Fin 128) (n : Fin 50000)
    (hn : n.val = 5000 * t.val + r.val) :
    aggBlkR1 V c t (ix2 r k) = aggR1 V c (ix2 n k) := by
  obtain ⟨-, ⟨e0, e1⟩, -⟩ := idxR1 t
  show aggR1 V c (((cfg1.win 0).blk t).view.emb (ix2 r k : S5000x128.Idx)) = aggR1 V c (ix2 n k)
  refine congrArg (aggR1 V c) ?_
  funext a; apply Fin.ext
  match a with
  | ⟨0, _⟩ => show win1_0.index t (0 : Fin 2) * 5000 + 1 * r.val = n.val; rw [e0, hn]; omega
  | ⟨1, _⟩ => show win1_0.index t (1 : Fin 2) * 128 + 1 * k.val = k.val; rw [e1]; omega

/-- Entry `r` of point `t`'s block of the degrees is the degree of node `5000 t + r`. -/
theorem degBlkR1_apply (c : Dev nD) (t : Fin cfg1.N) (r : Fin 5000) (n : Fin 50000)
    (hn : n.val = 5000 * t.val + r.val) :
    degBlkR1 V c t (ix2 r (0 : Fin 1)) = degR1 V c (ix2 n (0 : Fin 1)) := by
  obtain ⟨-, -, ⟨e0, e1⟩, -⟩ := idxR1 t
  show degR1 V c (((cfg1.win 1).blk t).view.emb (ix2 r (0 : Fin 1) : S5000x1.Idx)) = degR1 V c (ix2 n (0 : Fin 1))
  refine congrArg (degR1 V c) ?_
  funext a; apply Fin.ext
  match a with
  | ⟨0, _⟩ => show win1_1.index t (0 : Fin 2) * 5000 + 1 * r.val = n.val; rw [e0, hn]; omega
  | ⟨1, _⟩ => show win1_1.index t (1 : Fin 2) * 1 + 1 * 0 = 0; rw [e1]

/-- Row `r` of point `t`'s block of the features is row `5000 t + r` of the features. -/
theorem featBlkR1_apply (c : Dev nD) (t : Fin cfg1.N) (r : Fin 5000) (k : Fin 128) (n : Fin 50000)
    (hn : n.val = 5000 * t.val + r.val) :
    featBlkR1 V c t (ix2 r k) = featR1 V c (ix2 n k) := by
  obtain ⟨-, -, -, ⟨e0, e1⟩, -⟩ := idxR1 t
  show featR1 V c (((cfg1.win 2).blk t).view.emb (ix2 r k : S5000x128.Idx)) = featR1 V c (ix2 n k)
  refine congrArg (featR1 V c) ?_
  funext a; apply Fin.ext
  match a with
  | ⟨0, _⟩ => show win1_2.index t (0 : Fin 2) * 5000 + 1 * r.val = n.val; rw [e0, hn]; omega
  | ⟨1, _⟩ => show win1_2.index t (1 : Fin 2) * 128 + 1 * k.val = k.val; rw [e1]; omega

/-- A parameter's block is the parameter: its one block starts at the origin and has the array's extents. -/
theorem wlBlkR1_eq (c : Dev nD) (t : Fin cfg1.N) : wlBlkR1 V c t = wlR1 V c := by
  obtain ⟨-, -, -, -, ⟨e0, e1⟩, -⟩ := idxR1 t
  funext y
  show wlR1 V c (((cfg1.win 3).blk t).view.emb y) = wlR1 V c y
  refine congrArg (wlR1 V c) ?_
  funext a; apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem blBlkR1_eq (c : Dev nD) (t : Fin cfg1.N) : blBlkR1 V c t = blR1 V c := by
  obtain ⟨-, -, -, -, -, ⟨e0, e1⟩, -⟩ := idxR1 t
  funext y
  show blR1 V c (((cfg1.win 4).blk t).view.emb y) = blR1 V c y
  refine congrArg (blR1 V c) ?_
  funext a; apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

theorem wrBlkR1_eq (c : Dev nD) (t : Fin cfg1.N) : wrBlkR1 V c t = wrR1 V c := by
  obtain ⟨-, -, -, -, -, -, ⟨e0, e1⟩, -⟩ := idxR1 t
  funext y
  show wrR1 V c (((cfg1.win 5).blk t).view.emb y) = wrR1 V c y
  refine congrArg (wrR1 V c) ?_
  funext a; apply Fin.ext
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

theorem gBlkR1_eq (c : Dev nD) (t : Fin cfg1.N) : gBlkR1 V c t = gR1 V c := by
  obtain ⟨-, -, -, -, -, -, -, ⟨e0, e1⟩, -⟩ := idxR1 t
  funext y
  show gR1 V c (((cfg1.win 6).blk t).view.emb y) = gR1 V c y
  refine congrArg (gR1 V c) ?_
  funext a; apply Fin.ext
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

theorem bBlkR1_eq (c : Dev nD) (t : Fin cfg1.N) : bBlkR1 V c t = bR1 V c := by
  obtain ⟨-, -, -, -, -, -, -, -, e0, e1⟩ := idxR1 t
  funext y
  show bR1 V c (((cfg1.win 7).blk t).view.emb y) = bR1 V c y
  refine congrArg (bR1 V c) ?_
  funext a; apply Fin.ext
  match a with
  | ⟨0, _⟩ => show win1_7.index t (0 : Fin 2) * 1 + 1 * (y 0).val = (y 0).val; rw [e0]; omega
  | ⟨1, _⟩ => show win1_7.index t (1 : Fin 2) * 128 + 1 * (y 1).val = (y 1).val; rw [e1]; omega

/-! ## What a grid point writes back -/

-- what the body leaves in a row of its output block is the layer function of that row of its blocks
variable (hbody : ∀ (x0 : Vec Ideal S5000x128 .f32) (x1 : Vec Ideal S5000x1 .f32) (x2 : Vec Ideal S5000x128 .f32)
    (x3 : Vec Ideal S128x128 .bf16) (x4 : Vec Ideal S1x128 .f32) (x5 : Vec Ideal S128x128 .bf16)
    (x6 x7 : Vec Ideal S1x128 .f32) (r : Fin 5000) (j : Fin 128),
    out1_8 (F := Ideal) x0 x1 x2 x3 x4 x5 x6 x7 (ix2 r j) = layerOut (R := 5000) x0 x1 x2 x3 x4 x5 x6 x7 (ix2 r j))
include hbody

/-- Row `r` of what point `t` leaves is row `5000 t + r` of the layer on the whole graph: the body computes the layer
    function of its blocks' row `r`, that row of each block is row `5000 t + r` of its array, the parameters are whole,
    and a row of the layer function reads only that row. -/
theorem pointR1 (c : Dev nD) (t : Fin cfg1.N) (r : Fin 5000) (j : Fin 128) (n : Fin 50000)
    (hn : n.val = 5000 * t.val + r.val) :
    out1_8 (F := Ideal) (aggBlkR1 V c t) (degBlkR1 V c t) (featBlkR1 V c t) (wlBlkR1 V c t) (blBlkR1 V c t)
        (wrBlkR1 V c t) (gBlkR1 V c t) (bBlkR1 V c t) (ix2 r j)
      = wholeR1 V c (ix2 n j) := by
  refine (hbody (aggBlkR1 V c t) (degBlkR1 V c t) (featBlkR1 V c t) (wlBlkR1 V c t) (blBlkR1 V c t)
    (wrBlkR1 V c t) (gBlkR1 V c t) (bBlkR1 V c t) r j).trans ?_
  rw [wlBlkR1_eq V c t, blBlkR1_eq V c t, wrBlkR1_eq V c t, gBlkR1_eq V c t, bBlkR1_eq V c t]
  exact layerOut_row (aggR1 V c) (degR1 V c) (featR1 V c) (wlR1 V c) (blR1 V c) (wrR1 V c) (gR1 V c) (bR1 V c)
    (aggBlkR1 V c t) (degBlkR1 V c t) (featBlkR1 V c t) r n
    (fun k => aggBlkR1_apply V c t r k n hn) (degBlkR1_apply V c t r n hn) (fun k => featBlkR1_apply V c t r k n hn) j

/-- The same at any index of the output block, the array index being the one the block's place gives. -/
theorem flushedR1_point (c : Dev nD) (t : Fin cfg1.N) (y : S5000x128.Idx) :
    out1_8 (F := Ideal) (aggBlkR1 V c t) (degBlkR1 V c t) (featBlkR1 V c t) (wlBlkR1 V c t) (blBlkR1 V c t)
        (wrBlkR1 V c t) (gBlkR1 V c t) (bBlkR1 V c t) y
      = wholeR1 V c (((cfg1.win 8).blk t).view.emb y) := by
  obtain ⟨r, j, rfl⟩ : ∃ (r : Fin 5000) (j : Fin 128), y = ix2 r j := ⟨y 0, y 1, eq_ix2 y⟩
  have hN : cfg1.N = 10 := N_1
  have ht : t.val < cfg1.N := t.isLt
  have hlt : 5000 * t.val + r.val < 50000 := by omega
  refine (pointR1 V hbody c t r j ⟨5000 * t.val + r.val, hlt⟩ rfl).trans ?_
  refine congrArg (wholeR1 V c) ?_
  obtain ⟨⟨e0, e1⟩, -⟩ := idxR1 t
  funext a; apply Fin.ext
  match a with
  | ⟨0, _⟩ => show 5000 * t.val + r.val = win1_8.index t (0 : Fin 2) * 5000 + 1 * r.val; rw [e0]; omega
  | ⟨1, _⟩ => show j.val = win1_8.index t (1 : Fin 2) * 128 + 1 * j.val; rw [e1]; omega

/-- What point `t` writes back to the output array is block `t` of the layer on the whole graph. -/
theorem flushedR1 (c : Dev nD) (t : Fin cfg1.N) :
    (dat1 (F := Ideal) V c).flushed 8 t = ((cfg1.win 8).blk t).view.read (Elt Ideal) (wholeR1 V c) := by
  show (cfg1.win 8).cut (grid1.coords t) ((dat1 (F := Ideal) V c).after 8 t) = _
  rw [after1_8]
  funext y
  exact flushedR1_point V hbody c t y

omit hbody

/-! ## The ten blocks exhaust the array -/

/-- An index of the output array lies in point `t`'s block iff each coordinate lies in the block's range on its axis. -/
theorem mem_blkR1 (t : Fin cfg1.N) (i : S50000x128.Idx) :
    i ∈ ((cfg1.win 8).blk t).view.set ↔ ∀ a : Fin 2, win1_8.index t a * S5000x128.size a ≤ (i a).val
      ∧ (i a).val < win1_8.index t a * S5000x128.size a + S5000x128.size a := by
  show i ∈ ((View.whole main_v63).slice (win1_8.rect t)).set ↔ _
  rw [View.set_slice_whole, Rect.mem_set_unit]
  exact Iff.rfl

/-- Node `n`'s row is written by point `n / 5000`. -/
theorem coverR1 (i : S50000x128.Idx) :
    ∃ t : Fin cfg1.N, (cfg1.win 8).flush t = true ∧ i ∈ ((cfg1.win 8).blk t).view.set := by
  have hN : cfg1.N = 10 := N_1
  have hi0 : (i 0).val < 50000 := (i 0).isLt
  have hi1 : (i 1).val < 128 := (i 1).isLt
  obtain ⟨t, ht⟩ : ∃ t : Fin cfg1.N, t.val = (i 0).val / 5000 := ⟨⟨(i 0).val / 5000, by rw [hN]; omega⟩, rfl⟩
  obtain ⟨⟨e0, e1⟩, -⟩ := idxR1 t
  refine ⟨t, flush1_8 t, ?_⟩
  rw [mem_blkR1]
  intro a
  match a with
  | ⟨0, _⟩ =>
    show win1_8.index t (0 : Fin 2) * 5000 ≤ (i 0).val ∧ (i 0).val < win1_8.index t (0 : Fin 2) * 5000 + 5000
    rw [e0, ht]; omega
  | ⟨1, _⟩ =>
    show win1_8.index t (1 : Fin 2) * 128 ≤ (i 1).val ∧ (i 1).val < win1_8.index t (1 : Fin 2) * 128 + 128
    rw [e1]; omega

/-! ## The output array after the region -/

include hbody

/-- After the region has run over its ten points, the output array is the layer function, at all 50000 nodes, of the
    arrays the region was entered with. -/
theorem arr1 (c : Dev nD) :
    (dat1 (F := Ideal) V c).arrAt 8 cfg1.N
      = layerOut (R := 50000) (V c main_v49) (V c main_v23) (V c main_v45) (V c main_v51) (V c main_v60)
          (V c main_v55) (V c main_v61) (V c main_v62) :=
  (dat1 (F := Ideal) V c).arrAt_eq_of_cover 8 (wholeR1 V c) (fun t _ => flushedR1 V hbody c t) coverR1

end

end Cert.KernelIdeal.Region

end
-- ==== Proof.Region2.lean ====
/-
  A layer's region, block by block, adds up to the layer on the whole graph.

  The region runs over ten grid points. At point `t` it is handed rows `5000 t … 5000 t + 4999` of the aggregated
  messages, of the in-degree column and of the node features, together with the layer's parameters whole, and it writes
  rows `5000 t … 5000 t + 4999` of the output. What it writes in a row is the layer function of that row of its three
  blocks; a row of the layer function depends on no other row; and the ten row ranges exhaust the 50000 nodes. So the
  output array ends as the layer function of the arrays the region was entered with, at every node and channel.
-/
import proofs.«417933_j80195629351383_2_alg».proof.Proof.Gen.KernelIdeal.Frame
import proofs.«417933_j80195629351383_2_alg».proof.Proof.Spec
import Idealize.ShloMosaic.Lib.ValueIdx
import Idealize.ShloMosaic.Lib.Pipeline.Value

noncomputable section

namespace Cert.KernelIdeal.Region

open Cert.KernelIdeal Cert.KernelIdeal.Gen Cert.Sage Idealize.ShloMosaic Idealize.ShloMosaic.TcCoe Idealize.ShloMosaic.ValueIdx
open Idealize.ShloMosaic.Pipeline (Dat)

section

variable (V : (c : Dev nD) → (b : Ref sig .tc) → Buf (Elt Ideal) ((c : Thread nD τ).loc b))

/-! ## The arrays the region is entered with, and the blocks a grid point is handed -/

/-- The aggregated messages: row `n` is the sum of the source rows of the edges that end at node `n`. -/
abbrev aggR2 (c : Dev nD) : Vec Ideal S50000x128 .f32 := V c main_v67
/-- The in-degrees, one per node, as a column. -/
abbrev degR2 (c : Dev nD) : Vec Ideal S50000x1 .f32 := V c main_v23
/-- The node features the layer starts from. -/
abbrev featR2 (c : Dev nD) : Vec Ideal S50000x128 .f32 := V c main_v63
/-- The weights applied to the neighbourhood mean, input channel by output channel. -/
abbrev wlR2 (c : Dev nD) : Vec Ideal S128x128 .bf16 := V c main_v69
/-- The bias, one row. -/
abbrev blR2 (c : Dev nD) : Vec Ideal S1x128 .f32 := V c main_v78
/-- The weights applied to the node's own features. -/
abbrev wrR2 (c : Dev nD) : Vec Ideal S128x128 .bf16 := V c main_v73
/-- The normalisation's scale, one row. -/
abbrev gR2 (c : Dev nD) : Vec Ideal S1x128 .f32 := V c main_v79
/-- The normalisation's shift, one row. -/
abbrev bR2 (c : Dev nD) : Vec Ideal S1x128 .f32 := V c main_v80

/-- The layer function of those arrays, at all 50000 nodes. -/
abbrev wholeR2 (c : Dev nD) : Vec Ideal S50000x128 .f32 :=
  layerOut (R := 50000) (aggR2 V c) (degR2 V c) (featR2 V c) (wlR2 V c) (blR2 V c) (wrR2 V c) (gR2 V c) (bR2 V c)

/-- Point `t`'s 5000 rows of the aggregated messages. -/
abbrev aggBlkR2 (c : Dev nD) (t : Fin cfg2.N) : Vec Ideal S5000x128 .f32 := iblk2 V c 0 t
/-- Point `t`'s 5000 in-degrees. -/
abbrev degBlkR2 (c : Dev nD) (t : Fin cfg2.N) : Vec Ideal S5000x1 .f32 := iblk2 V c 1 t
/-- Point `t`'s 5000 rows of the features. -/
abbrev featBlkR2 (c : Dev nD) (t : Fin cfg2.N) : Vec Ideal S5000x128 .f32 := iblk2 V c 2 t
/-- The left weights as point `t` is handed them. -/
abbrev wlBlkR2 (c : Dev nD) (t : Fin cfg2.N) : Vec Ideal S128x128 .bf16 := iblk2 V c 3 t
/-- The bias as point `t` is handed it. -/
abbrev blBlkR2 (c : Dev nD) (t : Fin cfg2.N) : Vec Ideal S1x128 .f32 := iblk2 V c 4 t
/-- The right weights as point `t` is handed them. -/
abbrev wrBlkR2 (c : Dev nD) (t : Fin cfg2.N) : Vec Ideal S128x128 .bf16 := iblk2 V c 5 t
/-- The scale as point `t` is handed it. -/
abbrev gBlkR2 (c : Dev nD) (t : Fin cfg2.N) : Vec Ideal S1x128 .f32 := iblk2 V c 6 t
/-- The shift as point `t` is handed it. -/
abbrev bBlkR2 (c : Dev nD) (t : Fin cfg2.N) : Vec Ideal S1x128 .f32 := iblk2 V c 7 t

/-! ## Where each block sits in its array -/

/-- The block index of every window at every grid point: the four row windows (messages, degrees, features, output)
    are at block row `t`, block column 0; the five parameter windows stay at block (0, 0). -/
theorem idxR2 : ∀ t : Fin cfg2.N,
    (win2_8.index t (0 : Fin 2) = t.val ∧ win2_8.index t (1 : Fin 2) = 0)
    ∧ (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0) :=
  (by decide +kernel : ∀ t : Fin grid2.N, _)

/-- Row `r` of point `t`'s block of the messages is row `5000 t + r` of the messages. -/
theorem aggBlkR2_apply (c : Dev nD) (t : Fin cfg2.N) (r : Fin 5000) (k : Fin 128) (n : Fin 50000)
    (hn : n.val = 5000 * t.val + r.val) :
    aggBlkR2 V c t (ix2 r k) = aggR2 V c (ix2 n k) := by
  obtain ⟨-, ⟨e0, e1⟩, -⟩ := idxR2 t
  show aggR2 V c (((cfg2.win 0).blk t).view.emb (ix2 r k : S5000x128.Idx)) = aggR2 V c (ix2 n k)
  refine congrArg (aggR2 V c) ?_
  funext a; apply Fin.ext
  match a with
  | ⟨0, _⟩ => show win2_0.index t (0 : Fin 2) * 5000 + 1 * r.val = n.val; rw [e0, hn]; omega
  | ⟨1, _⟩ => show win2_0.index t (1 : Fin 2) * 128 + 1 * k.val = k.val; rw [e1]; omega

/-- Entry `r` of point `t`'s block of the degrees is the degree of node `5000 t + r`. -/
theorem degBlkR2_apply (c : Dev nD) (t : Fin cfg2.N) (r : Fin 5000) (n : Fin 50000)
    (hn : n.val = 5000 * t.val + r.val) :
    degBlkR2 V c t (ix2 r (0 : Fin 1)) = degR2 V c (ix2 n (0 : Fin 1)) := by
  obtain ⟨-, -, ⟨e0, e1⟩, -⟩ := idxR2 t
  show degR2 V c (((cfg2.win 1).blk t).view.emb (ix2 r (0 : Fin 1) : S5000x1.Idx)) = degR2 V c (ix2 n (0 : Fin 1))
  refine congrArg (degR2 V c) ?_
  funext a; apply Fin.ext
  match a with
  | ⟨0, _⟩ => show win2_1.index t (0 : Fin 2) * 5000 + 1 * r.val = n.val; rw [e0, hn]; omega
  | ⟨1, _⟩ => show win2_1.index t (1 : Fin 2) * 1 + 1 * 0 = 0; rw [e1]

/-- Row `r` of point `t`'s block of the features is row `5000 t + r` of the features. -/
theorem featBlkR2_apply (c : Dev nD) (t : Fin cfg2.N) (r : Fin 5000) (k : Fin 128) (n : Fin 50000)
    (hn : n.val = 5000 * t.val + r.val) :
    featBlkR2 V c t (ix2 r k) = featR2 V c (ix2 n k) := by
  obtain ⟨-, -, -, ⟨e0, e1⟩, -⟩ := idxR2 t
  show featR2 V c (((cfg2.win 2).blk t).view.emb (ix2 r k : S5000x128.Idx)) = featR2 V c (ix2 n k)
  refine congrArg (featR2 V c) ?_
  funext a; apply Fin.ext
  match a with
  | ⟨0, _⟩ => show win2_2.index t (0 : Fin 2) * 5000 + 1 * r.val = n.val; rw [e0, hn]; omega
  | ⟨1, _⟩ => show win2_2.index t (1 : Fin 2) * 128 + 1 * k.val = k.val; rw [e1]; omega

/-- A parameter's block is the parameter: its one block starts at the origin and has the array's extents. -/
theorem wlBlkR2_eq (c : Dev nD) (t : Fin cfg2.N) : wlBlkR2 V c t = wlR2 V c := by
  obtain ⟨-, -, -, -, ⟨e0, e1⟩, -⟩ := idxR2 t
  funext y
  show wlR2 V c (((cfg2.win 3).blk t).view.emb y) = wlR2 V c y
  refine congrArg (wlR2 V c) ?_
  funext a; apply Fin.ext
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

theorem blBlkR2_eq (c : Dev nD) (t : Fin cfg2.N) : blBlkR2 V c t = blR2 V c := by
  obtain ⟨-, -, -, -, -, ⟨e0, e1⟩, -⟩ := idxR2 t
  funext y
  show blR2 V c (((cfg2.win 4).blk t).view.emb y) = blR2 V c y
  refine congrArg (blR2 V c) ?_
  funext a; apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

theorem wrBlkR2_eq (c : Dev nD) (t : Fin cfg2.N) : wrBlkR2 V c t = wrR2 V c := by
  obtain ⟨-, -, -, -, -, -, ⟨e0, e1⟩, -⟩ := idxR2 t
  funext y
  show wrR2 V c (((cfg2.win 5).blk t).view.emb y) = wrR2 V c y
  refine congrArg (wrR2 V c) ?_
  funext a; apply Fin.ext
  match a with
  | ⟨0, _⟩ => show win2_5.index t (0 : Fin 2) * 128 + 1 * (y 0).val = (y 0).val; rw [e0]; omega
  | ⟨1, _⟩ => show win2_5.index t (1 : Fin 2) * 128 + 1 * (y 1).val = (y 1).val; rw [e1]; omega

theorem gBlkR2_eq (c : Dev nD) (t : Fin cfg2.N) : gBlkR2 V c t = gR2 V c := by
  obtain ⟨-, -, -, -, -, -, -, ⟨e0, e1⟩, -⟩ := idxR2 t
  funext y
  show gR2 V c (((cfg2.win 6).blk t).view.emb y) = gR2 V c y
  refine congrArg (gR2 V c) ?_
  funext a; apply Fin.ext
  match a with
  | ⟨0, _⟩ => show win2_6.index t (0 : Fin 2) * 1 + 1 * (y 0).val = (y 0).val; rw [e0]; omega
  | ⟨1, _⟩ => show win2_6.index t (1 : Fin 2) * 128 + 1 * (y 1).val = (y 1).val; rw [e1]; omega

theorem bBlkR2_eq (c : Dev nD) (t : Fin cfg2.N) : bBlkR2 V c t = bR2 V c := by
  obtain ⟨-, -, -, -, -, -, -, -, e0, e1⟩ := idxR2 t
  funext y
  show bR2 V c (((cfg2.win 7).blk t).view.emb y) = bR2 V c y
  refine congrArg (bR2 V c) ?_
  funext a; apply Fin.ext
  match a with
  | ⟨0, _⟩ => show win2_7.index t (0 : Fin 2) * 1 + 1 * (y 0).val = (y 0).val; rw [e0]; omega
  | ⟨1, _⟩ => show win2_7.index t (1 : Fin 2) * 128 + 1 * (y 1).val = (y 1).val; rw [e1]; omega

/-! ## What a grid point writes back -/

-- what the body leaves in a row of its output block is the layer function of that row of its blocks
variable (hbody : ∀ (x0 : Vec Ideal S5000x128 .f32) (x1 : Vec Ideal S5000x1 .f32) (x2 : Vec Ideal S5000x128 .f32)
    (x3 : Vec Ideal S128x128 .bf16) (x4 : Vec Ideal S1x128 .f32) (x5 : Vec Ideal S128x128 .bf16)
    (x6 x7 : Vec Ideal S1x128 .f32) (r : Fin 5000) (j : Fin 128),
    out2_8 (F := Ideal) x0 x1 x2 x3 x4 x5 x6 x7 (ix2 r j) = layerOut (R := 5000) x0 x1 x2 x3 x4 x5 x6 x7 (ix2 r j))
include hbody

/-- Row `r` of what point `t` leaves is row `5000 t + r` of the layer on the whole graph: the body computes the layer
    function of its blocks' row `r`, that row of each block is row `5000 t + r` of its array, the parameters are whole,
    and a row of the layer function reads only that row. -/
theorem pointR2 (c : Dev nD) (t : Fin cfg2.N) (r : Fin 5000) (j : Fin 128) (n : Fin 50000)
    (hn : n.val = 5000 * t.val + r.val) :
    out2_8 (F := Ideal) (aggBlkR2 V c t) (degBlkR2 V c t) (featBlkR2 V c t) (wlBlkR2 V c t) (blBlkR2 V c t)
        (wrBlkR2 V c t) (gBlkR2 V c t) (bBlkR2 V c t) (ix2 r j)
      = wholeR2 V c (ix2 n j) := by
  refine (hbody (aggBlkR2 V c t) (degBlkR2 V c t) (featBlkR2 V c t) (wlBlkR2 V c t) (blBlkR2 V c t)
    (wrBlkR2 V c t) (gBlkR2 V c t) (bBlkR2 V c t) r j).trans ?_
  rw [wlBlkR2_eq V c t, blBlkR2_eq V c t, wrBlkR2_eq V c t, gBlkR2_eq V c t, bBlkR2_eq V c t]
  exact layerOut_row (aggR2 V c) (degR2 V c) (featR2 V c) (wlR2 V c) (blR2 V c) (wrR2 V c) (gR2 V c) (bR2 V c)
    (aggBlkR2 V c t) (degBlkR2 V c t) (featBlkR2 V c t) r n
    (fun k => aggBlkR2_apply V c t r k n hn) (degBlkR2_apply V c t r n hn) (fun k => featBlkR2_apply V c t r k n hn) j

/-- The same at any index of the output block, the array index being the one the block's place gives. -/
theorem flushedR2_point (c : Dev nD) (t : Fin cfg2.N) (y : S5000x128.Idx) :
    out2_8 (F := Ideal) (aggBlkR2 V c t) (degBlkR2 V c t) (featBlkR2 V c t) (wlBlkR2 V c t) (blBlkR2 V c t)
        (wrBlkR2 V c t) (gBlkR2 V c t) (bBlkR2 V c t) y
      = wholeR2 V c (((cfg2.win 8).blk t).view.emb y) := by
  obtain ⟨r, j, rfl⟩ : ∃ (r : Fin 5000) (j : Fin 128), y = ix2 r j := ⟨y 0, y 1, eq_ix2 y⟩
  have hN : cfg2.N = 10 := N_2
  have ht : t.val < cfg2.N := t.isLt
  have hlt : 5000 * t.val + r.val < 50000 := by omega
  refine (pointR2 V hbody c t r j ⟨5000 * t.val + r.val, hlt⟩ rfl).trans ?_
  refine congrArg (wholeR2 V c) ?_
  obtain ⟨⟨e0, e1⟩, -⟩ := idxR2 t
  funext a; apply Fin.ext
  match a with
  | ⟨0, _⟩ => show 5000 * t.val + r.val = win2_8.index t (0 : Fin 2) * 5000 + 1 * r.val; rw [e0]; omega
  | ⟨1, _⟩ => show j.val = win2_8.index t (1 : Fin 2) * 128 + 1 * j.val; rw [e1]; omega

/-- What point `t` writes back to the output array is block `t` of the layer on the whole graph. -/
theorem flushedR2 (c : Dev nD) (t : Fin cfg2.N) :
    (dat2 (F := Ideal) V c).flushed 8 t = ((cfg2.win 8).blk t).view.read (Elt Ideal) (wholeR2 V c) := by
  show (cfg2.win 8).cut (grid2.coords t) ((dat2 (F := Ideal) V c).after 8 t) = _
  rw [after2_8]
  funext y
  exact flushedR2_point V hbody c t y

omit hbody

/-! ## The ten blocks exhaust the array -/

/-- An index of the output array lies in point `t`'s block iff each coordinate lies in the block's range on its axis. -/
theorem mem_blkR2 (t : Fin cfg2.N) (i : S50000x128.Idx) :
    i ∈ ((cfg2.win 8).blk t).view.set ↔ ∀ a : Fin 2, win2_8.index t a * S5000x128.size a ≤ (i a).val
      ∧ (i a).val < win2_8.index t a * S5000x128.size a + S5000x128.size a := by
  show i ∈ ((View.whole main_v81).slice (win2_8.rect t)).set ↔ _
  rw [View.set_slice_whole, Rect.mem_set_unit]
  exact Iff.rfl

/-- Node `n`'s row is written by point `n / 5000`. -/
theorem coverR2 (i : S50000x128.Idx) :
    ∃ t : Fin cfg2.N, (cfg2.win 8).flush t = true ∧ i ∈ ((cfg2.win 8).blk t).view.set := by
  have hN : cfg2.N = 10 := N_2
  have hi0 : (i 0).val < 50000 := (i 0).isLt
  have hi1 : (i 1).val < 128 := (i 1).isLt
  obtain ⟨t, ht⟩ : ∃ t : Fin cfg2.N, t.val = (i 0).val / 5000 := ⟨⟨(i 0).val / 5000, by rw [hN]; omega⟩, rfl⟩
  obtain ⟨⟨e0, e1⟩, -⟩ := idxR2 t
  refine ⟨t, flush2_8 t, ?_⟩
  rw [mem_blkR2]
  intro a
  match a with
  | ⟨0, _⟩ =>
    show win2_8.index t (0 : Fin 2) * 5000 ≤ (i 0).val ∧ (i 0).val < win2_8.index t (0 : Fin 2) * 5000 + 5000
    rw [e0, ht]; omega
  | ⟨1, _⟩ =>
    show win2_8.index t (1 : Fin 2) * 128 ≤ (i 1).val ∧ (i 1).val < win2_8.index t (1 : Fin 2) * 128 + 128
    rw [e1]; omega

/-! ## The output array after the region -/

include hbody

/-- After the region has run over its ten points, the output array is the layer function, at all 50000 nodes, of the
    arrays the region was entered with. -/
theorem arr2 (c : Dev nD) :
    (dat2 (F := Ideal) V c).arrAt 8 cfg2.N
      = layerOut (R := 50000) (V c main_v67) (V c main_v23) (V c main_v63) (V c main_v69) (V c main_v78)
          (V c main_v73) (V c main_v79) (V c main_v80) :=
  (dat2 (F := Ideal) V c).arrAt_eq_of_cover 8 (wholeR2 V c) (fun t _ => flushedR2 V hbody c t) coverR2

end

end Cert.KernelIdeal.Region

end
-- ==== Proof.BodyValue.lean ====
/-
  What the layer kernel's body leaves in its output block, at a row and a channel, is the layer function at 5000 rows.

  The body's arithmetic is the layer's, operation for operation: the aggregated messages over the in-degree floored at
  one; two 128-channel products, each accumulated from zero, the first with the bias added before the second is; the
  mean and the variance of each row over its 128 channels; the centred value times the reciprocal square root of the
  variance plus ε, scaled, shifted, rectified, and added to the features. So no law of arithmetic is used. What is
  proved is how each array operation reads at a row and a channel: a pointwise operation reads its operands there; a
  column broadcast along the channels reads the column at the row; a row broadcast over the rows reads the row at the
  channel; a sum over the channels reads the row's 128 entries; a product reads a row of the left operand against a
  column of the right; a change of float format is the identity on the extended reals.
-/
import proofs.«417933_j80195629351383_2_alg».proof.Proof.Gen.KernelIdeal.Frame
import proofs.«417933_j80195629351383_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Cert.Sage Idealize.ShloMosaic Idealize.ShloMosaic.ValueIdx
open scoped BigOperators

/-! ## Layout operations at a row and a channel -/

section Layout
variable {α : Type}

/-- A column `[a, 1]` broadcast along the channels reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- The reciprocal square root of a vector, at an index, is that of the entry. -/
theorem rsqrt_apply {s : Shape} {φ : FTy} (a : FVec Ideal s φ) (i : s.Idx) : rsqrt a i = Ideal.rsqrt (a i) := rfl

/-! ## The sum over the channels of a row -/

/-- The entry a sum over the channels reads for row `r` at channel `k` is `(r, k)`. -/
theorem lift_lane (h : S5000x128.Reduces [1] S5000) (r : Fin 5000) (k : Fin 128) :
    h.lift (ix1 r) k = ix2 r k := by
  funext c
  apply Fin.ext
  match c with
  | ⟨0, _⟩ => rfl
  | ⟨1, _⟩ => rfl

/-- A sum over the channels, at row `r`, is the sum of the row's 128 entries. -/
theorem laneSum_apply (v : FVec Ideal S5000x128 .f32) (h : S5000x128.Reduces [1] S5000) (hφ : FKind.Formats .f32)
    (hacc : (0x00000000#32 : BitVec 32) = 0x00000000#32) (r : Fin 5000) :
    multiReduction (F := Ideal) .add [1] S5000 v 0x00000000#32 h hφ hacc (ix1 r) = ∑ k : Fin 128, v (ix2 r k) := by
  refine (Ideal.multiReduction_add_single v 0x00000000#32 h hφ hacc (ix1 r)).trans ?_
  exact Finset.sum_congr rfl fun k _ => congrArg v (lift_lane h r k)

/-! ## A matrix product into a zero accumulator, at a row and a channel -/

/-- The left operand's row coordinate is the result's row. -/
theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The left operand's column coordinate is the summation index. -/
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand's row coordinate is the summation index. -/
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right operand's column coordinate is the result's channel. -/
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000x128 by 128x128 product accumulated from zero, at `(r, j)`, is the sum over the inner channel `k` of the left
    operand at `(r, k)` times the right at `(k, j)`. -/
theorem matmul_zero_apply (a : FVec Ideal S5000x128 .bf16) (w : FVec Ideal S128x128 .bf16) (r : Fin 5000) (j : Fin 128) :
    matmul dot_S5000x128_S128x128_S5000x128_1_0_0_1_n_n none a w (constant (F := Ideal) S5000x128 .f32 0x00000000#32) (ix2 r j)
      = ∑ k : Fin 128, a (ix2 r k) * w (ix2 k j) := by
  refine (Ideal.matmul_constant_zero_apply dot_S5000x128_S128x128_S5000x128_1_0_0_1_n_n none a w (ix2 r j)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun c => Fin.ext (by
    match c with
    | ⟨0, _⟩ => exact lhs_dot_0 _ _
    | ⟨1, _⟩ => exact (lhs_dot_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun c => Fin.ext (by
    match c with
    | ⟨0, _⟩ => exact (rhs_dot_0 _ _).trans hk
    | ⟨1, _⟩ => exact rhs_dot_1 _ _)
  rw [el, er]

/-! ## Region 0: the body's values at a row and a channel

  In each lemma `v0` is the block of aggregated messages, `v2` the in-degree column, `v9` the features, `v11` and
  `v13` the left and right weights (input channel by output channel) and `v16` the bias row. -/

/-- The sum of the two products and the bias is the layer's linear part: the left product's operand at `(r, k)` is the
    aggregated message over the degree floored at one, the degree column being read at row `r` whatever the channel; the
    bias row is read at channel `j` whatever the row; a change of float format changes nothing. -/
theorem k0_pay2_apply (v0 : Vec Ideal S5000x128 .f32) (v2 : Vec Ideal S5000x1 .f32) (v9 : Vec Ideal S5000x128 .f32)
    (v11 v13 : Vec Ideal S128x128 .bf16) (v16 : Vec Ideal S1x128 .f32) (r : Fin 5000) (j : Fin 128) :
    k0_pay2 (F := Ideal) v0 v2 v9 v11 v13 v16 (ix2 r j) = linAt v0 v2 v9 v11 v16 v13 r j := by
  unfold k0_pay2 linAt meanAt
  simp only [shapeCast_self, addf_apply, matmul_zero_apply, broadcastTo_1b_ab_apply, truncf_apply, divf_apply,
    broadcastTo_a1_ab_apply, maximumf_apply, broadcast_apply]
  rfl

/-- The sum of the linear part over a row's channels, over 128, is the row's mean; it sits in a one-column array. -/
theorem k0_pay3_apply (v0 : Vec Ideal S5000x128 .f32) (v2 : Vec Ideal S5000x1 .f32) (v9 : Vec Ideal S5000x128 .f32)
    (v11 v13 : Vec Ideal S128x128 .bf16) (v16 : Vec Ideal S1x128 .f32) (r : Fin 5000) (u : Fin 1) :
    k0_pay3 (F := Ideal) v0 v2 v9 v11 v13 v16 (ix2 r u) = muAt v0 v2 v9 v11 v16 v13 r := by
  unfold k0_pay3 muAt
  simp only [divf_apply, shapeCast_a_a1_apply, broadcast_apply]
  refine congrArg (fun s => Ideal.div s wD) ?_
  refine (laneSum_apply _ _ _ _ r).trans ?_
  exact Finset.sum_congr rfl fun k _ => k0_pay2_apply v0 v2 v9 v11 v13 v16 r k

/-- The linear part less its row's mean, the mean's column being read at row `r` whatever the channel. -/
theorem k0_pay4_apply (v0 : Vec Ideal S5000x128 .f32) (v2 : Vec Ideal S5000x1 .f32) (v9 : Vec Ideal S5000x128 .f32)
    (v11 v13 : Vec Ideal S128x128 .bf16) (v16 : Vec Ideal S1x128 .f32) (r : Fin 5000) (j : Fin 128) :
    k0_pay4 (F := Ideal) v0 v2 v9 v11 v13 v16 (ix2 r j)
      = linAt v0 v2 v9 v11 v16 v13 r j - muAt v0 v2 v9 v11 v16 v13 r := by
  unfold k0_pay4
  simp only [subf_apply, broadcastTo_a1_ab_apply, k0_pay2_apply, k0_pay3_apply]

/-- The reciprocal square root of the row's variance plus ε, broadcast along the channels: the variance is the sum over
    the row of the squared centred values, over 128. -/
theorem k0_pay5_apply (v0 : Vec Ideal S5000x128 .f32) (v2 : Vec Ideal S5000x1 .f32) (v9 : Vec Ideal S5000x128 .f32)
    (v11 v13 : Vec Ideal S128x128 .bf16) (v16 : Vec Ideal S1x128 .f32) (r : Fin 5000) (j : Fin 128) :
    k0_pay5 (F := Ideal) v0 v2 v9 v11 v13 v16 (ix2 r j) = Ideal.rsqrt (varAt v0 v2 v9 v11 v16 v13 r + wEps) := by
  unfold k0_pay5 varAt
  simp only [broadcastTo_a1_ab_apply, rsqrt_apply, addf_apply, divf_apply, shapeCast_a_a1_apply, broadcast_apply]
  refine congrArg (fun s => Ideal.rsqrt (Ideal.div s wD + wEps)) ?_
  refine (laneSum_apply _ _ _ _ r).trans ?_
  refine Finset.sum_congr rfl fun k _ => ?_
  simp only [mulf_apply, subf_apply, broadcastTo_a1_ab_apply, k0_pay2_apply, k0_pay3_apply]

/-- The stored value: the features plus the rectified, scaled and shifted product of the centred value and the reciprocal
    deviation, the scale and shift rows being read at channel `j` whatever the row. -/
theorem k0_pay1_apply (v9 : Vec Ideal S5000x128 .f32) (v34 v38 : FVec Ideal S5000x128 .f32) (v40 v44 : Vec Ideal S1x128 .f32)
    (r : Fin 5000) (j : Fin 128) :
    k0_pay1 (F := Ideal) v9 v34 v38 v40 v44 (ix2 r j)
      = v9 (ix2 r j) + max (((v34 (ix2 r j) * v38 (ix2 r j)) * v40 (ix2 (0 : Fin 1) j)) + v44 (ix2 (0 : Fin 1) j)) wZero := by
  unfold k0_pay1
  simp only [shapeCast_self, addf_apply, maximumf_apply, mulf_apply, broadcastTo_1b_ab_apply, broadcast_apply]
  rfl

/-- The block rectangle's offsets are zero. -/
theorem hz : (![0, 0] : Fin 2 → Nat) = fun _ => 0 := funext fun a => by fin_cases a <;> rfl

/-! ## Region 1: the same values as region 0's

  Region 1 computes what region 0 computes. It passes the features through a change of shape to the shape they already have,
  and it keeps the reciprocal deviation as a column until the last product, where region 0 broadcasts it along the channels
  one step earlier. Neither changes a value. -/

/-- A change of shape to the same shape leaves the features as they are. -/
theorem k1_pay2_eq (v9 : Vec Ideal S5000x128 .f32) : k1_pay2 (F := Ideal) v9 = v9 := by
  unfold k1_pay2
  exact shapeCast_self _ _

/-- The linear part. -/
theorem k1_pay3_eq (v0 : Vec Ideal S5000x128 .f32) (v2 : Vec Ideal S5000x1 .f32) (v9 : Vec Ideal S5000x128 .f32)
    (v12 v14 : Vec Ideal S128x128 .bf16) (v17 : Vec Ideal S1x128 .f32) :
    k1_pay3 (F := Ideal) v0 v2 v9 v12 v14 v17 = k0_pay2 (F := Ideal) v0 v2 v9 v12 v14 v17 := by
  unfold k1_pay3 k0_pay2
  rw [k1_pay2_eq]

/-- The row means. -/
theorem k1_pay4_eq (v0 : Vec Ideal S5000x128 .f32) (v2 : Vec Ideal S5000x1 .f32) (v9 : Vec Ideal S5000x128 .f32)
    (v12 v14 : Vec Ideal S128x128 .bf16) (v17 : Vec Ideal S1x128 .f32) :
    k1_pay4 (F := Ideal) v0 v2 v9 v12 v14 v17 = k0_pay3 (F := Ideal) v0 v2 v9 v12 v14 v17 := by
  unfold k1_pay4 k0_pay3
  rw [k1_pay3_eq]

/-- The centred values. -/
theorem k1_pay5_eq (v0 : Vec Ideal S5000x128 .f32) (v2 : Vec Ideal S5000x1 .f32) (v9 : Vec Ideal S5000x128 .f32)
    (v12 v14 : Vec Ideal S128x128 .bf16) (v17 : Vec Ideal S1x128 .f32) :
    k1_pay5 (F := Ideal) v0 v2 v9 v12 v14 v17 = k0_pay4 (F := Ideal) v0 v2 v9 v12 v14 v17 := by
  unfold k1_pay5 k0_pay4
  rw [k1_pay3_eq, k1_pay4_eq]

/-- The column of reciprocal deviations, once broadcast along the channels, is region 0's array of them. -/
theorem k1_pay6_bcast (v0 : Vec Ideal S5000x128 .f32) (v2 : Vec Ideal S5000x1 .f32) (v9 : Vec Ideal S5000x128 .f32)
    (v12 v14 : Vec Ideal S128x128 .bf16) (v17 : Vec Ideal S1x128 .f32) :
    broadcastTo S5000x128 (k1_pay6 (F := Ideal) v0 v2 v9 v12 v14 v17) broadcasts_S5000x1_S5000x128
      = k0_pay5 (F := Ideal) v0 v2 v9 v12 v14 v17 := by
  unfold k1_pay6 k0_pay5
  rw [k1_pay3_eq, k1_pay4_eq]

/-- The stored value, with the broadcast of the reciprocal deviations taken as an operand. -/
theorem k1_pay1_eq (v10 v35 : FVec Ideal S5000x128 .f32) (v38 : FVec Ideal S5000x1 .f32) (v41 v45 : Vec Ideal S1x128 .f32) :
    k1_pay1 (F := Ideal) v10 v35 v38 v41 v45
      = k0_pay1 (F := Ideal) v10 v35 (broadcastTo S5000x128 v38 broadcasts_S5000x1_S5000x128) v41 v45 := rfl

/-- Region 1's output block is region 0's, as functions of the eight input blocks. -/
theorem out1_8_eq (x0 : Vec Ideal S5000x128 .f32) (x1 : Vec Ideal S5000x1 .f32) (x2 : Vec Ideal S5000x128 .f32)
    (x3 : Vec Ideal S128x128 .bf16) (x4 : Vec Ideal S1x128 .f32) (x5 : Vec Ideal S128x128 .bf16)
    (x6 x7 : Vec Ideal S1x128 .f32) :
    out1_8 (F := Ideal) x0 x1 x2 x3 x4 x5 x6 x7 = out0_8 (F := Ideal) x0 x1 x2 x3 x4 x5 x6 x7 := by
  unfold out1_8 out0_8
  rw [k1_pay1_eq, k1_pay2_eq, k1_pay5_eq, k1_pay6_bcast]

/-! ## Region 2: the same values as region 0's

  Region 2 computes what region 0 computes. It passes the features through a change of shape to the shape they already have,
  and it keeps the reciprocal deviation as a column until the last product, where region 0 broadcasts it along the channels
  one step earlier. Neither changes a value. -/

/-- A change of shape to the same shape leaves the features as they are. -/
theorem k2_pay2_eq (v9 : Vec Ideal S5000x128 .f32) : k2_pay2 (F := Ideal) v9 = v9 := by
  unfold k2_pay2
  exact shapeCast_self _ _

/-- The linear part. -/
theorem k2_pay3_eq (v0 : Vec Ideal S5000x128 .f32) (v2 : Vec Ideal S5000x1 .f32) (v9 : Vec Ideal S5000x128 .f32)
    (v12 v14 : Vec Ideal S128x128 .bf16) (v17 : Vec Ideal S1x128 .f32) :
    k2_pay3 (F := Ideal) v0 v2 v9 v12 v14 v17 = k0_pay2 (F := Ideal) v0 v2 v9 v12 v14 v17 := by
  unfold k2_pay3 k0_pay2
  rw [k2_pay2_eq]

/-- The row means. -/
theorem k2_pay4_eq (v0 : Vec Ideal S5000x128 .f32) (v2 : Vec Ideal S5000x1 .f32) (v9 : Vec Ideal S5000x128 .f32)
    (v12 v14 : Vec Ideal S128x128 .bf16) (v17 : Vec Ideal S1x128 .f32) :
    k2_pay4 (F := Ideal) v0 v2 v9 v12 v14 v17 = k0_pay3 (F := Ideal) v0 v2 v9 v12 v14 v17 := by
  unfold k2_pay4 k0_pay3
  rw [k2_pay3_eq]

/-- The centred values. -/
theorem k2_pay5_eq (v0 : Vec Ideal S5000x128 .f32) (v2 : Vec Ideal S5000x1 .f32) (v9 : Vec Ideal S5000x128 .f32)
    (v12 v14 : Vec Ideal S128x128 .bf16) (v17 : Vec Ideal S1x128 .f32) :
    k2_pay5 (F := Ideal) v0 v2 v9 v12 v14 v17 = k0_pay4 (F := Ideal) v0 v2 v9 v12 v14 v17 := by
  unfold k2_pay5 k0_pay4
  rw [k2_pay3_eq, k2_pay4_eq]

/-- The column of reciprocal deviations, once broadcast along the channels, is region 0's array of them. -/
theorem k2_pay6_bcast (v0 : Vec Ideal S5000x128 .f32) (v2 : Vec Ideal S5000x1 .f32) (v9 : Vec Ideal S5000x128 .f32)
    (v12 v14 : Vec Ideal S128x128 .bf16) (v17 : Vec Ideal S1x128 .f32) :
    broadcastTo S5000x128 (k2_pay6 (F := Ideal) v0 v2 v9 v12 v14 v17) broadcasts_S5000x1_S5000x128
      = k0_pay5 (F := Ideal) v0 v2 v9 v12 v14 v17 := by
  unfold k2_pay6 k0_pay5
  rw [k2_pay3_eq, k2_pay4_eq]

/-- The stored value, with the broadcast of the reciprocal deviations taken as an operand. -/
theorem k2_pay1_eq (v10 v35 : FVec Ideal S5000x128 .f32) (v38 : FVec Ideal S5000x1 .f32) (v41 v45 : Vec Ideal S1x128 .f32) :
    k2_pay1 (F := Ideal) v10 v35 v38 v41 v45
      = k0_pay1 (F := Ideal) v10 v35 (broadcastTo S5000x128 v38 broadcasts_S5000x1_S5000x128) v41 v45 := rfl

/-- Region 2's output block is region 0's, as functions of the eight input blocks. -/
theorem out2_8_eq (x0 : Vec Ideal S5000x128 .f32) (x1 : Vec Ideal S5000x1 .f32) (x2 : Vec Ideal S5000x128 .f32)
    (x3 : Vec Ideal S128x128 .bf16) (x4 : Vec Ideal S1x128 .f32) (x5 : Vec Ideal S128x128 .bf16)
    (x6 x7 : Vec Ideal S1x128 .f32) :
    out2_8 (F := Ideal) x0 x1 x2 x3 x4 x5 x6 x7 = out0_8 (F := Ideal) x0 x1 x2 x3 x4 x5 x6 x7 := by
  unfold out2_8 out0_8
  rw [k2_pay1_eq, k2_pay2_eq, k2_pay5_eq, k2_pay6_bcast]

/-! ## What the body leaves in its output block -/

/-- Region 0's output block, at a row and a channel, is the layer function of its eight input blocks. -/
theorem out0_8_apply (x0 : Vec Ideal S5000x128 .f32) (x1 : Vec Ideal S5000x1 .f32) (x2 : Vec Ideal S5000x128 .f32)
    (x3 : Vec Ideal S128x128 .bf16) (x4 : Vec Ideal S1x128 .f32) (x5 : Vec Ideal S128x128 .bf16)
    (x6 x7 : Vec Ideal S1x128 .f32) (r : Fin 5000) (j : Fin 128) :
    out0_8 (F := Ideal) x0 x1 x2 x3 x4 x5 x6 x7 (ix2 r j)
      = layerOut (R := 5000) x0 x1 x2 x3 x4 x5 x6 x7 (ix2 r j) := by
  unfold out0_8
  rw [View.canon_unit_zero hz]
  simp only [View.ld_unit_zero (S := S5000x128) hz, View.ld_unit_zero (S := S5000x1) hz,
    View.ld_unit_zero (S := S128x128) hz, View.ld_unit_zero (S := S1x128) hz]
  rw [k0_pay1_apply, k0_pay4_apply, k0_pay5_apply, layerOut_apply]

/-- Region 1's output block, at a row and a channel, is the layer function of its eight input blocks. -/
theorem out1_8_apply (x0 : Vec Ideal S5000x128 .f32) (x1 : Vec Ideal S5000x1 .f32) (x2 : Vec Ideal S5000x128 .f32)
    (x3 : Vec Ideal S128x128 .bf16) (x4 : Vec Ideal S1x128 .f32) (x5 : Vec Ideal S128x128 .bf16)
    (x6 x7 : Vec Ideal S1x128 .f32) (r : Fin 5000) (j : Fin 128) :
    out1_8 (F := Ideal) x0 x1 x2 x3 x4 x5 x6 x7 (ix2 r j)
      = layerOut (R := 5000) x0 x1 x2 x3 x4 x5 x6 x7 (ix2 r j) := by
  rw [out1_8_eq]
  exact out0_8_apply x0 x1 x2 x3 x4 x5 x6 x7 r j

/-- Region 2's output block, at a row and a channel, is the layer function of its eight input blocks. -/
theorem out2_8_apply (x0 : Vec Ideal S5000x128 .f32) (x1 : Vec Ideal S5000x1 .f32) (x2 : Vec Ideal S5000x128 .f32)
    (x3 : Vec Ideal S128x128 .bf16) (x4 : Vec Ideal S1x128 .f32) (x5 : Vec Ideal S128x128 .bf16)
    (x6 x7 : Vec Ideal S1x128 .f32) (r : Fin 5000) (j : Fin 128) :
    out2_8 (F := Ideal) x0 x1 x2 x3 x4 x5 x6 x7 (ix2 r j)
      = layerOut (R := 5000) x0 x1 x2 x3 x4 x5 x6 x7 (ix2 r j) := by
  rw [out2_8_eq]
  exact out0_8_apply x0 x1 x2 x3 x4 x5 x6 x7 r j

end Cert.KernelIdeal.Body

end
-- ==== Proof.KerChain.lean ====
/-
  The kernel's program ends with its result buffer at the network function of its arguments.

  Read backwards through the run. The result is region 2's output array at its exit, which is the layer function
  of the eight arrays region 2 was entered with; those are the aggregated messages of the features `h2` over the
  sorted edges, the in-degree column, `h2` itself, and layer 2's parameter windows, where `h2` is region 1's output
  array at its exit; and so on down to the launch memory's features. The buffers computed once before the first
  layer (the sorted edge rows, the in-degree column, the transposed weight stacks) and the arguments are unchanged
  at every region's entry.
-/
import proofs.«417933_j80195629351383_2_alg».proof.Proof.KerEntry0
import proofs.«417933_j80195629351383_2_alg».proof.Proof.KerEntry1
import proofs.«417933_j80195629351383_2_alg».proof.Proof.KerEntry2
import proofs.«417933_j80195629351383_2_alg».proof.Proof.Region0
import proofs.«417933_j80195629351383_2_alg».proof.Proof.Region1
import proofs.«417933_j80195629351383_2_alg».proof.Proof.Region2
import proofs.«417933_j80195629351383_2_alg».proof.Proof.BodyValue

set_option maxRecDepth 16384

noncomputable section

namespace Cert.KernelIdeal.Chain

open Cert.KernelIdeal Cert.KernelIdeal.Edge Idealize.ShloMosaic Idealize.ShloMosaic.TcCoe Idealize.SL.Sem

variable (m : (ℓ : Loc nD τ sig) → Buf (Elt Ideal) ℓ) (ρ : Dev nD → PrngReg)

/-- The features after the first layer: the layer function of what region 0 was entered with. -/
theorem h1_val (c : Dev nD) :
    h1 m ρ c = kerLayer (m ((c.tc : Thread nD τ).loc main_arg0)) (edges m c)
      (wK0 (F := Ideal) (m ((c.tc : Thread nD τ).loc main_arg2))) (rowK0 (F := Ideal) (m ((c.tc : Thread nD τ).loc main_arg3)))
      (wK0 (F := Ideal) (m ((c.tc : Thread nD τ).loc main_arg4))) (rowK0 (F := Ideal) (m ((c.tc : Thread nD τ).loc main_arg5)))
      (rowK0 (F := Ideal) (m ((c.tc : Thread nD τ).loc main_arg6))) := by
  have h5 := persist5 m ρ c
  rw [h1_eq, Region.arr0 (Gen.V5 (F := Ideal) m ρ) Body.out0_8_apply c, entry0_v31, entry0_v33, entry0_v42, entry0_v37,
    entry0_v43, entry0_v44, show Gen.V5 (F := Ideal) m ρ c main_v23 = _ from h5.deg,
    show Gen.V5 (F := Ideal) m ρ c main_arg0 = _ from h5.a0]
  rfl

/-- The features after the second layer. -/
theorem h2_val (c : Dev nD) :
    h2 m ρ c = kerLayer (h1 m ρ c) (edges m c)
      (wK1 (F := Ideal) (m ((c.tc : Thread nD τ).loc main_arg2))) (rowK1 (F := Ideal) (m ((c.tc : Thread nD τ).loc main_arg3)))
      (wK1 (F := Ideal) (m ((c.tc : Thread nD τ).loc main_arg4))) (rowK1 (F := Ideal) (m ((c.tc : Thread nD τ).loc main_arg5)))
      (rowK1 (F := Ideal) (m ((c.tc : Thread nD τ).loc main_arg6))) := by
  have h5 := persist5 m ρ c
  have h8 := persist8 m ρ c h5
  obtain ⟨e1, e2, e3, e4, e5, e6, e7⟩ := entry1 m ρ c h5
  rw [h2_eq, Region.arr1 (Gen.V8 (F := Ideal) m ρ) Body.out1_8_apply c, e1, e2, e3, e4, e5, e6, e7,
    show Gen.V8 (F := Ideal) m ρ c main_v23 = _ from h8.deg]
  rfl

/-- The result: three layers from the launch memory's features. -/
theorem result_val (c : Dev nD) :
    Gen.W12 (F := Ideal) m ρ c (Proc.devRef .tc main_v81)
      = kerNet (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  have h5 := persist5 m ρ c
  have h8 := persist8 m ρ c h5
  have h11 := persist11 m ρ c h8
  obtain ⟨e1, e2, e3, e4, e5, e6, e7⟩ := entry2 m ρ c h8
  rw [result_eq, Region.arr2 (Gen.V11 (F := Ideal) m ρ) Body.out2_8_apply c, e1, e2, e3, e4, e5, e6, e7,
    show Gen.V11 (F := Ideal) m ρ c main_v23 = _ from h11.deg, h2_val, h1_val]
  rfl

end Cert.KernelIdeal.Chain

end
-- ==== Proof.RefLayerDef.lean ====
/-
  One layer of the reference program as functions of its inputs, each the composition of the operations the
  program applies, in its order and grouping.

  `aggR h src dst` gathers, for every edge, the row of `h` its source names (an index below zero counted from the
  end) and adds it at the edge's destination; `degR dst` adds a one at every edge's destination. `refTail` is
  the rest of the layer from those two: the mean over the in-degree floored at one, the two matrix products
  against the transposed weights with the bias between them, the row-wise normalisation (mean, variance, inverse
  square root, scale and shift), the rectifier and the residual. `refLayer` is the whole layer.
-/
import proofs.«417933_j80195629351383_2_alg».proof.ReferenceIdeal

noncomputable section

namespace Cert.ReferenceIdeal.Layer

open Cert.ReferenceIdeal Idealize.ShloMosaic

variable {F : FTy → Type} [FloatOps F] [Facts]
open Facts₀ Facts

/-- The edges' source row. -/
def srcRow (e : IVec S2x800000 32) : IVec S800000 32 :=
  shapeCast S800000 (extractStridedSlice S1x800000 ![0, 0] e slices_S2x800000_S1x800000_0_0) shapeCasts_S1x800000_S800000

/-- The edges' destination row. -/
def dstRow (e : IVec S2x800000 32) : IVec S800000 32 :=
  shapeCast S800000 (extractStridedSlice S1x800000 ![1, 0] e slices_S2x800000_S1x800000_1_0) shapeCasts_S1x800000_S800000

/-- A list of indices as a column of one-component index vectors. -/
def col (x : IVec S800000 32) : IVec S800000x1 32 :=
  broadcastInDim S800000x1 ![0] bcast_S800000_S800000x1_0 x

/-- The source indices, one below zero counted from the end of the table, as a column. -/
def wrapSrc (src : IVec S800000 32) : IVec S800000x1 32 :=
  col (select (cmpi .slt src (broadcastInDim S800000 ![] bcast_S_S800000 (constantI S_ 32 0#32)))
    (addi src (broadcastInDim S800000 ![] bcast_S_S800000 (constantI S_ 32 50000#32))) src)

/-- The messages: for every edge the row of `h` its source names. -/
def msgR (h : FVec F S50000x128 .f32) (src : IVec S800000 32) : FVec F S800000x128 .f32 :=
  Host.gather gather_S50000x128_S800000x1_S800000x128_1_0_n_n_0_1_1128 h (wrapSrc src)

/-- Each message added at its edge's destination, from zero. -/
def aggR (h : FVec F S50000x128 .f32) (src dst : IVec S800000 32) : FVec F S50000x128 .f32 :=
  Host.scatterAdd scatter_S50000x128_S800000x1_S800000x128_1_0_0_1
    (broadcastInDim S50000x128 ![] bcast_S_S50000x128 (constant S_ .f32 0x00000000#32)) (col dst) (msgR h src)

/-- The in-degree of every node: a one added at each edge's destination. -/
def degR (dst : IVec S800000 32) : FVec F S50000 .f32 :=
  Host.scatterAdd scatter_S50000_S800000x1_S800000_n_0_0_1
    (broadcastInDim S50000 ![] bcast_S_S50000 (constant S_ .f32 0x00000000#32)) (col dst)
    (broadcastInDim S800000 ![] bcast_S_S800000 (constant S_ .f32 0x3F800000#32))

/-- Per-row values spread along the channels. -/
def alongRows (v : FVec F S50000x1 .f32) : FVec F S50000x128 .f32 :=
  broadcastInDim S50000x128 ![0, 1] bcast_S50000x1_S50000x128_0_1 v

/-- Per-channel values spread along the rows. -/
def alongCols (v : FVec F S128 .f32) : FVec F S50000x128 .f32 :=
  broadcastInDim S50000x128 ![0, 1] bcast_S1x128_S50000x128_0_1 (broadcastInDim S1x128 ![1] bcast_S128_S1x128_1 v)

/-- The neighbourhood mean: the aggregated messages over the in-degree floored at one. -/
def meanR (agg : FVec F S50000x128 .f32) (deg : FVec F S50000 .f32) : FVec F S50000x128 .f32 :=
  Host.divf agg (alongRows (broadcastInDim S50000x1 ![0] bcast_S50000_S50000x1_0
    (maximumf deg (broadcastInDim S50000 ![] bcast_S_S50000 (constant S_ .f32 0x3F800000#32)))))

/-- The linear part: the mean through the left weights, plus the bias, plus the features through the right weights. -/
def linR (mean h : FVec F S50000x128 .f32) (wl : FVec F S128x128 .f32) (bl : FVec F S128 .f32) (wr : FVec F S128x128 .f32) :
    FVec F S50000x128 .f32 :=
  addf (addf (Host.dotGeneral dot_S50000x128_S128x128_S50000x128_1_0_0_1_n_n none mean
        (transpose S128x128 [1, 0] wl transposes_S128x128_S128x128_1_0)) (alongCols bl))
    (Host.dotGeneral dot_S50000x128_S128x128_S50000x128_1_0_0_1_n_n none h
        (transpose S128x128 [1, 0] wr transposes_S128x128_S128x128_1_0))

/-- A row's sum over the channels divided by their number, as a column. -/
def rowMean (x : FVec F S50000x128 .f32) : FVec F S50000x1 .f32 :=
  Host.divf (broadcastInDim S50000x1 ![0] bcast_S50000_S50000x1_0
      (Host.reduceAdd x (constant S_ .f32 0x00000000#32) reducesTo_S50000x128_S50000_d1 h_S_))
    (broadcastInDim S50000x1 ![] bcast_S_S50000x1 (constant S_ .f32 0x43000000#32))

/-- The linear part less its row mean. -/
def centred (lin : FVec F S50000x128 .f32) : FVec F S50000x128 .f32 :=
  subf lin (alongRows (rowMean lin))

/-- The normalised linear part, scaled and shifted. -/
def normR (lin : FVec F S50000x128 .f32) (g b : FVec F S128 .f32) : FVec F S50000x128 .f32 :=
  addf (mulf (mulf (centred lin)
      (alongRows (Host.rsqrt (addf (rowMean (mulf (centred lin) (centred lin)))
        (broadcastInDim S50000x1 ![] bcast_S_S50000x1 (constant S_ .f32 0x3727C5AC#32))))))
    (alongCols g)) (alongCols b)

/-- The layer from the aggregated messages and the in-degrees on. -/
def refTail (agg : FVec F S50000x128 .f32) (deg : FVec F S50000 .f32) (h : FVec F S50000x128 .f32)
    (wl : FVec F S128x128 .f32) (bl : FVec F S128 .f32) (wr : FVec F S128x128 .f32) (g b : FVec F S128 .f32) :
    FVec F S50000x128 .f32 :=
  addf h (maximumf (normR (linR (meanR agg deg) h wl bl wr) g b)
    (broadcastInDim S50000x128 ![] bcast_S_S50000x128 (constant S_ .f32 0x00000000#32)))

/-- One layer of the reference. -/
def refLayer (h : FVec F S50000x128 .f32) (src dst : IVec S800000 32)
    (wl : FVec F S128x128 .f32) (bl : FVec F S128 .f32) (wr : FVec F S128x128 .f32) (g b : FVec F S128 .f32) :
    FVec F S50000x128 .f32 :=
  refTail (aggR h src dst) (degR dst) h wl bl wr g b

/-- Layer 0's matrix out of the three stacked ones. -/
def mat0 (W : FVec F S3x128x128 .f32) : FVec F S128x128 .f32 :=
  shapeCast S128x128 (extractStridedSlice S1x128x128 ![0, 0, 0] W slices_S3x128x128_S1x128x128_0_0_0) shapeCasts_S1x128x128_S128x128
/-- Layer 1's matrix. -/
def mat1 (W : FVec F S3x128x128 .f32) : FVec F S128x128 .f32 :=
  shapeCast S128x128 (extractStridedSlice S1x128x128 ![1, 0, 0] W slices_S3x128x128_S1x128x128_1_0_0) shapeCasts_S1x128x128_S128x128
/-- Layer 2's matrix. -/
def mat2 (W : FVec F S3x128x128 .f32) : FVec F S128x128 .f32 :=
  shapeCast S128x128 (extractStridedSlice S1x128x128 ![2, 0, 0] W slices_S3x128x128_S1x128x128_2_0_0) shapeCasts_S1x128x128_S128x128
/-- Layer 0's vector out of the three stacked ones. -/
def vec0 (B : FVec F S3x128 .f32) : FVec F S128 .f32 :=
  shapeCast S128 (extractStridedSlice S1x128 ![0, 0] B slices_S3x128_S1x128_0_0) shapeCasts_S1x128_S128
/-- Layer 1's vector. -/
def vec1 (B : FVec F S3x128 .f32) : FVec F S128 .f32 :=
  shapeCast S128 (extractStridedSlice S1x128 ![1, 0] B slices_S3x128_S1x128_1_0) shapeCasts_S1x128_S128
/-- Layer 2's vector. -/
def vec2 (B : FVec F S3x128 .f32) : FVec F S128 .f32 :=
  shapeCast S128 (extractStridedSlice S1x128 ![2, 0] B slices_S3x128_S1x128_2_0) shapeCasts_S1x128_S128

/-- The reference's three layers, from the features, the edge list and the five stacked parameters. -/
def refNet (h0 : FVec F S50000x128 .f32) (E : IVec S2x800000 32) (Wl : FVec F S3x128x128 .f32) (Bl : FVec F S3x128 .f32)
    (Wr : FVec F S3x128x128 .f32) (G B : FVec F S3x128 .f32) : FVec F S50000x128 .f32 :=
  refLayer
    (refLayer
      (refLayer h0 (srcRow E) (dstRow E) (mat0 Wl) (vec0 Bl) (mat0 Wr) (vec0 G) (vec0 B))
      (srcRow E) (dstRow E) (mat1 Wl) (vec1 Bl) (mat1 Wr) (vec1 G) (vec1 B))
    (srcRow E) (dstRow E) (mat2 Wl) (vec2 Bl) (mat2 Wr) (vec2 G) (vec2 B)

end Cert.ReferenceIdeal.Layer

end
-- ==== Proof.RefChain.lean ====
/-
  The reference program's run with its result named: the result buffer ends at the three layers `refNet` of the
  arguments, and every argument ends as it was launched.

  The program is one straight line of 232 operations, and its run leaves in every buffer the fold of those
  operations over the launch memory. The line is cut into four consecutive stretches: the slices taken once (the two
  rows of the edge list and layer 0's slice of each stacked parameter), then one stretch per layer (layers 1 and 2
  begin with their own slices of the parameters). The fold over the line is the folds over the stretches one after
  the other. Of each stretch two facts are proved, from ANY contents `W` at its start, so that no stretch's fact ever
  looks inside an earlier stretch: its last buffer ends at one layer (`refLayer`) of what `W` holds in the buffers
  the stretch reads; and each of its operations writes one buffer, none of them an argument or a row of the edge
  list, so those buffers end at what `W` held. The three layers are then chained through the kept buffers.
-/
import proofs.«417933_j80195629351383_2_alg».proof.Proof.RefRunRaw
import proofs.«417933_j80195629351383_2_alg».proof.Proof.RefLayerDef
import Idealize.ShloMosaic.Lib.Pipeline.Frame

noncomputable section

namespace Cert.ReferenceIdeal.Chain

open Cert.ReferenceIdeal Cert.ReferenceIdeal.Gen Cert.ReferenceIdeal.Layer Idealize.ShloMosaic Idealize.ShloMosaic.TcCoe
  Idealize.SL.Sem Idealize.ShloMosaic.StableHlo

variable {F : FTy → Type} [FloatOps F]

/-- A reference of the program as a buffer of the device. -/
local macro "⟪" r:term "⟫" : term => `(Proc.devRef (τ := τ) .tc $r)

/-! ## The line in four stretches -/

/-- The first fourteen operations: the two rows of the edge list, and layer 0's slice of each stacked parameter. -/
def pre : List (HloOp τ sig (Elt F)) := (RunRaw.ops (F := F)).take 14
/-- The next sixty-six: layer 0. -/
def l1 : List (HloOp τ sig (Elt F)) := ((RunRaw.ops (F := F)).drop 14).take 66
/-- The next seventy-six: layer 1, its slices of the parameters first. -/
def l2 : List (HloOp τ sig (Elt F)) := (((RunRaw.ops (F := F)).drop 14).drop 66).take 76
/-- The last seventy-six: layer 2, its slices first. -/
def l3 : List (HloOp τ sig (Elt F)) := (((RunRaw.ops (F := F)).drop 14).drop 66).drop 76

/-- The line is its four stretches in a row. -/
theorem ops_split : (RunRaw.ops (F := F)) = pre ++ (l1 ++ (l2 ++ l3)) := by
  rw [l2, l3, List.take_append_drop, l1, List.take_append_drop, pre, List.take_append_drop]

/-! ## Buffers a stretch leaves alone -/

/-- The seven arguments. -/
def args : List (Ref sig .tc) := [main_arg0, main_arg1, main_arg2, main_arg3, main_arg4, main_arg5, main_arg6]
/-- The arguments and the two rows of the edge list: what the layers' stretches read and never write. -/
def kept : List (Ref sig .tc) := args ++ [main_v1, main_v3]

/-- Every operation of the line writes exactly one buffer, and that buffer is none of `K`. -/
def Spares (K : List (Ref sig .tc)) (l : List (HloOp τ sig (Elt F))) : Prop :=
  l.Forall fun op => ∃ y : Ref sig .tc, op.writes = {⟪y⟫} ∧ y ∉ K

/-- A buffer of `K` holds after such a line what it held before: no operation's one written buffer is it. -/
theorem after_spared {K : List (Ref sig .tc)} {l : List (HloOp τ sig (Elt F))} (h : Spares K l)
    (W : Valuation τ sig (Elt F)) {r : Ref sig .tc} (hr : r ∈ K) : after l W ⟪r⟫ = W ⟪r⟫ :=
  after_of_forall_not_mem l W fun op hop hb => by
    obtain ⟨y, hy, hK⟩ := List.forall_iff_forall_mem.mp h op hop
    rw [hy, Finset.mem_singleton] at hb
    exact hK (Proc.devRef_injective _ hb ▸ hr)

/-- `Spares K l` for a literal line: operation by operation, the written buffer read off the operation and its
    absence from `K` decided. -/
local macro "spares_literal" : tactic => `(tactic| (
  simp only [List.Forall]
  repeat' apply And.intro
  all_goals first
    | exact ⟨_, nullary_writes .., by decide⟩ | exact ⟨_, unary_writes .., by decide⟩
    | exact ⟨_, binary_writes .., by decide⟩ | exact ⟨_, ternary_writes .., by decide⟩
    | exact ⟨_, reshape_writes .., by decide⟩))

theorem pre_spares : Spares args (pre (F := F)) := by
  simp only [Spares, pre, RunRaw.ops, List.take_succ_cons, List.take_zero]
  spares_literal

theorem l1_spares : Spares kept (l1 (F := F)) := by
  simp only [Spares, l1, RunRaw.ops, List.take_succ_cons, List.take_zero, List.drop_succ_cons, List.drop_zero]
  spares_literal

theorem l2_spares : Spares kept (l2 (F := F)) := by
  simp only [Spares, l2, RunRaw.ops, List.take_succ_cons, List.take_zero, List.drop_succ_cons, List.drop_zero]
  spares_literal

theorem l3_spares : Spares kept (l3 (F := F)) := by
  simp only [Spares, l3, RunRaw.ops, List.drop_succ_cons, List.drop_zero]
  spares_literal

theorem args_sub_kept {r : Ref sig .tc} (hr : r ∈ args) : r ∈ kept := List.mem_append_left _ hr

/-- No operation of the whole line writes an argument. -/
theorem ops_arg (V : Valuation τ sig (Elt F)) {r : Ref sig .tc} (hr : r ∈ args) : after RunRaw.ops V ⟪r⟫ = V ⟪r⟫ := by
  rw [ops_split, after_append, after_append, after_append, after_spared l3_spares _ (args_sub_kept hr),
    after_spared l2_spares _ (args_sub_kept hr), after_spared l1_spares _ (args_sub_kept hr), after_spared pre_spares _ hr]

/-! ## What each stretch computes -/

/-- The first stretch leaves the edge list's two rows and layer 0's slices of the parameters. -/
theorem pre_vals (W : Valuation τ sig (Elt F)) :
    after pre W ⟪main_v1⟫ = srcRow (W ⟪main_arg1⟫) ∧ after pre W ⟪main_v3⟫ = dstRow (W ⟪main_arg1⟫)
      ∧ after pre W ⟪main_v5⟫ = mat0 (W ⟪main_arg2⟫) ∧ after pre W ⟪main_v7⟫ = vec0 (W ⟪main_arg3⟫)
      ∧ after pre W ⟪main_v9⟫ = mat0 (W ⟪main_arg4⟫) ∧ after pre W ⟪main_v11⟫ = vec0 (W ⟪main_arg5⟫)
      ∧ after pre W ⟪main_v13⟫ = vec0 (W ⟪main_arg6⟫) := by
  simp only [pre, RunRaw.ops, List.take_succ_cons, List.take_zero]
  refine ⟨?_, ?_, ?_, ?_, ?_, ?_, ?_⟩ <;> (after_results_simp <;> rfl)

/-- Layer 0's stretch: its last buffer is the layer of the features, the two rows and the five slices, each read
    where the stretch finds it. -/
theorem l1_out (W : Valuation τ sig (Elt F)) :
    after l1 W ⟪main_v66⟫
      = refLayer (W ⟪main_arg0⟫) (W ⟪main_v1⟫) (W ⟪main_v3⟫) (W ⟪main_v5⟫) (W ⟪main_v7⟫) (W ⟪main_v9⟫)
          (W ⟪main_v11⟫) (W ⟪main_v13⟫) := by
  simp only [l1, RunRaw.ops, List.take_succ_cons, List.take_zero, List.drop_succ_cons, List.drop_zero]
  after_results_simp
  unfold refLayer refTail normR centred rowMean linR meanR alongRows alongCols degR aggR msgR wrapSrc col
  rfl

/-- Layer 1's stretch: the layer of layer 0's result, with layer 1's slices of the parameters taken inside. -/
theorem l2_out (W : Valuation τ sig (Elt F)) :
    after l2 W ⟪main_v129⟫
      = refLayer (W ⟪main_v66⟫) (W ⟪main_v1⟫) (W ⟪main_v3⟫) (mat1 (W ⟪main_arg2⟫)) (vec1 (W ⟪main_arg3⟫))
          (mat1 (W ⟪main_arg4⟫)) (vec1 (W ⟪main_arg5⟫)) (vec1 (W ⟪main_arg6⟫)) := by
  simp only [l2, RunRaw.ops, List.take_succ_cons, List.take_zero, List.drop_succ_cons, List.drop_zero]
  after_results_simp
  unfold refLayer refTail normR centred rowMean linR meanR alongRows alongCols degR aggR msgR wrapSrc col mat1 vec1
  rfl

/-- Layer 2's stretch: the layer of layer 1's result, with layer 2's slices. -/
theorem l3_out (W : Valuation τ sig (Elt F)) :
    after l3 W ⟪main_v192⟫
      = refLayer (W ⟪main_v129⟫) (W ⟪main_v1⟫) (W ⟪main_v3⟫) (mat2 (W ⟪main_arg2⟫)) (vec2 (W ⟪main_arg3⟫))
          (mat2 (W ⟪main_arg4⟫)) (vec2 (W ⟪main_arg5⟫)) (vec2 (W ⟪main_arg6⟫)) := by
  simp only [l3, RunRaw.ops, List.drop_succ_cons, List.drop_zero]
  after_results_simp
  unfold refLayer refTail normR centred rowMean linR meanR alongRows alongCols degR aggR msgR wrapSrc col mat2 vec2
  rfl

/-! ## The stretches chained -/

theorem l1_keeps (W : Valuation τ sig (Elt F)) {r : Ref sig .tc} (hr : r ∈ kept) : after l1 W ⟪r⟫ = W ⟪r⟫ :=
  after_spared l1_spares W hr
theorem l2_keeps (W : Valuation τ sig (Elt F)) {r : Ref sig .tc} (hr : r ∈ kept) : after l2 W ⟪r⟫ = W ⟪r⟫ :=
  after_spared l2_spares W hr
theorem pre_keeps (W : Valuation τ sig (Elt F)) {r : Ref sig .tc} (hr : r ∈ args) : after pre W ⟪r⟫ = W ⟪r⟫ :=
  after_spared pre_spares W hr

/-- The three layers' stretches in a row, from any contents `W`: layer 1 reads layer 0's result and layer 2 layer 1's,
    and each reads the rows and the parameters where `W` has them, the stretches between having left them alone. -/
theorem layers_out (W : Valuation τ sig (Elt F)) :
    after l3 (after l2 (after l1 W)) ⟪main_v192⟫
      = refLayer
          (refLayer
            (refLayer (W ⟪main_arg0⟫) (W ⟪main_v1⟫) (W ⟪main_v3⟫) (W ⟪main_v5⟫) (W ⟪main_v7⟫) (W ⟪main_v9⟫)
              (W ⟪main_v11⟫) (W ⟪main_v13⟫))
            (W ⟪main_v1⟫) (W ⟪main_v3⟫) (mat1 (W ⟪main_arg2⟫)) (vec1 (W ⟪main_arg3⟫)) (mat1 (W ⟪main_arg4⟫))
            (vec1 (W ⟪main_arg5⟫)) (vec1 (W ⟪main_arg6⟫)))
          (W ⟪main_v1⟫) (W ⟪main_v3⟫) (mat2 (W ⟪main_arg2⟫)) (vec2 (W ⟪main_arg3⟫)) (mat2 (W ⟪main_arg4⟫))
          (vec2 (W ⟪main_arg5⟫)) (vec2 (W ⟪main_arg6⟫)) := by
  rw [l3_out, l2_out, l1_out]
  rw [l2_keeps _ (r := main_v1) (by decide), l2_keeps _ (r := main_v3) (by decide), l2_keeps _ (r := main_arg2) (by decide),
    l2_keeps _ (r := main_arg3) (by decide), l2_keeps _ (r := main_arg4) (by decide), l2_keeps _ (r := main_arg5) (by decide),
    l2_keeps _ (r := main_arg6) (by decide)]
  rw [l1_keeps _ (r := main_v1) (by decide), l1_keeps _ (r := main_v3) (by decide), l1_keeps _ (r := main_arg2) (by decide),
    l1_keeps _ (r := main_arg3) (by decide), l1_keeps _ (r := main_arg4) (by decide), l1_keeps _ (r := main_arg5) (by decide),
    l1_keeps _ (r := main_arg6) (by decide)]

/-- The whole line leaves the three layers of the arguments in the result buffer. -/
theorem net_out (V : Valuation τ sig (Elt F)) :
    after RunRaw.ops V ⟪main_v192⟫
      = refNet (V ⟪main_arg0⟫) (V ⟪main_arg1⟫) (V ⟪main_arg2⟫) (V ⟪main_arg3⟫) (V ⟪main_arg4⟫) (V ⟪main_arg5⟫)
          (V ⟪main_arg6⟫) := by
  obtain ⟨h1, h3, h5, h7, h9, h11, h13⟩ := pre_vals V
  rw [ops_split, after_append, after_append, after_append, layers_out, h1, h3, h5, h7, h9, h11, h13,
    pre_keeps V (r := main_arg0) (by decide), pre_keeps V (r := main_arg2) (by decide), pre_keeps V (r := main_arg3) (by decide),
    pre_keeps V (r := main_arg4) (by decide), pre_keeps V (r := main_arg5) (by decide), pre_keeps V (r := main_arg6) (by decide)]
  rfl

/-- The reference's run, its result named. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v192)
        = refNet (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v192).trans (net_out (launchContents m c)),
      (h c main_arg0).trans (ops_arg (launchContents m c) (by decide)),
      (h c main_arg1).trans (ops_arg (launchContents m c) (by decide)),
      (h c main_arg2).trans (ops_arg (launchContents m c) (by decide)),
      (h c main_arg3).trans (ops_arg (launchContents m c) (by decide)),
      (h c main_arg4).trans (ops_arg (launchContents m c) (by decide)),
      (h c main_arg5).trans (ops_arg (launchContents m c) (by decide)),
      (h c main_arg6).trans (ops_arg (launchContents m c) (by decide))⟩)
    (RunRaw.run_raw m ρ)

end Cert.ReferenceIdeal.Chain

end
-- ==== Proof.SortPerm.lean ====
/-
  Sorting the edges by destination only re-orders them.

  The sort carries the positions 0, 1, 2, … along with the destinations, compares two pairs by their destinations
  alone, and keeps the first of two equal ones first; what comes back in the second place is, at each sorted
  position, the position the pair there started from. For arrays with one axis that starting position is one
  function of the sorted position, a self-map of the positions that is one-to-one and onto. Every position is far
  below 2³¹, so the word that holds it is not below zero and counting it from the end leaves it alone; and it
  already lies inside the row, so the read that follows is the read of the row at that very position.
-/
import proofs.«417933_j80195629351383_2_alg».proof.Proof.KerHost
import Idealize.ShloMosaic.Lib.SortFacts
import Idealize.ShloMosaic.Lib.ValueIdx
import Idealize.ShloMosaic.Lib.StableHlo.Predicate

namespace Cert.KernelIdeal.Edge

open Cert.KernelIdeal Idealize.ShloMosaic Idealize.ShloMosaic.ValueIdx

/-! ## One-axis arrays of any length -/

/-- The two spellings of the index with coordinate `k` agree. -/
theorem ix1_eq_ofFin {n : Nat} (k : Fin n) : ix1 k = Shape.Idx.ofFin k := by
  funext d; match d with | ⟨0, _⟩ => rfl

/-- The position counter read at coordinate `k` is the word of `k`. -/
theorem iota_ix1 {n w : Nat} (k : Fin n) : iotaInDim (⟨1, ![n]⟩ : Shape) w 0 (ix1 k) = BitVec.ofNat w k.val := rfl

/-- Where the element at sorted position `e` of two one-axis arrays sorted together started from: the stable
    sorting permutation of the positions, two positions compared through the pairs the arrays hold there. -/
def sortPerm {n : Nat} {α β : Type} (cmp : α × β → α × β → BitVec 1)
    (x : (⟨1, ![n]⟩ : Shape).Idx → α) (y : (⟨1, ![n]⟩ : Shape).Idx → β) : Fin n → Fin n :=
  sortedFrom fun k k' =>
    cmp (x (Shape.Idx.ofFin k), y (Shape.Idx.ofFin k)) (x (Shape.Idx.ofFin k'), y (Shape.Idx.ofFin k')) == 1#1

theorem sortPerm_injective {n : Nat} {α β : Type} (cmp : α × β → α × β → BitVec 1)
    (x : (⟨1, ![n]⟩ : Shape).Idx → α) (y : (⟨1, ![n]⟩ : Shape).Idx → β) : Function.Injective (sortPerm cmp x y) :=
  sortedFrom_injective _

theorem sortPerm_surjective {n : Nat} {α β : Type} (cmp : α × β → α × β → BitVec 1)
    (x : (⟨1, ![n]⟩ : Shape).Idx → α) (y : (⟨1, ![n]⟩ : Shape).Idx → β) : Function.Surjective (sortPerm cmp x y) :=
  sortedFrom_surjective _

/-- The second of two one-axis arrays sorted together, read at sorted position `e`, is that array at the
    position the pair at `e` started from. -/
theorem sort2_snd_rank1 {n : Nat} {α β : Type} (cmp : α × β → α × β → BitVec 1)
    (x : (⟨1, ![n]⟩ : Shape).Idx → α) (y : (⟨1, ![n]⟩ : Shape).Idx → β) (e : Fin n) :
    (Host.sort2 ⟨1, ![n]⟩ 0 cmp x y).2 (ix1 e) = y (ix1 (sortPerm cmp x y e)) := by
  simp only [ix1_eq_ofFin]
  unfold Host.sort2 sortPerm
  simp

attribute [irreducible] sortPerm

variable [Facts]
open Facts₀ Facts

/-! ## The edges -/

/-- The edge that comes e-th when the edges are sorted by destination. -/
def perm (dst : IVec S800000 32) : Fin 800000 → Fin 800000 :=
  sortPerm comparator_i32_i32_d0 dst (iotaInDim S800000 32 0)

theorem perm_bijective (dst : IVec S800000 32) : Function.Bijective (perm dst) :=
  ⟨sortPerm_injective _ _ _, sortPerm_surjective _ _ _⟩

/-- Sorted position `e` of the argsort holds the word of the edge that comes `e`-th. -/
theorem order_apply (dst : IVec S800000 32) (e : Fin 800000) :
    order dst (ix1 e) = BitVec.ofNat 32 (perm dst e).val :=
  (sort2_snd_rank1 comparator_i32_i32_d0 dst (iotaInDim S800000 32 0) e).trans (iota_ix1 _)

attribute [irreducible] perm

/-- A word that holds a number below 2³¹ is not below zero: counting from the end leaves it as it is. -/
theorem wrap_of_small (n : BitVec 32) (x : IVec S800000 32) (i : S800000.Idx) (k : Nat) (hk : k < 2 ^ 31)
    (hx : x i = BitVec.ofNat 32 k) : wrap n x i = BitVec.ofNat 32 k := by
  have hc : cmpi .slt x (broadcastInDim S800000 ![] bcast_S_S800000 (constantI S_ 32 0#32)) i = 0#1 := by
    show IntOp.cmpi .slt (x i) 0#32 = 0#1
    rw [hx]
    unfold IntOp.cmpi
    have h0 : (0#32 : BitVec 32).toInt = 0 := by decide
    have hn : ¬ ((k : Int) < 0) := by omega
    simp only [BitVec.slt, StableHlo.Predicate.toInt_ofNat_small k hk, h0, hn, decide_false]
    rfl
  unfold wrap
  rw [select_apply, hc, select_zero, hx]

/-- The row read through a list of positions, where the list holds at `e` the word of a position `k` of
    the row: the row at `k`. -/
theorem gather_at_word (row idx : IVec S800000 32) (e k : Fin 800000)
    (h : idx (ix1 e) = BitVec.ofNat 32 k.val) :
    Host.gather gather_S800000_S800000x1_S800000_n_0_n_n_0_1_1 row (col (wrap 800000#32 idx)) (ix1 e)
      = row (ix1 k) := by
  have hk := k.isLt
  have hw : col (wrap 800000#32 idx) (StableHlo.Predicate.ixP e) = BitVec.ofNat 32 k.val := by
    unfold col
    rw [StableHlo.Predicate.bcast_col1, ← ix1_eq_ofFin]
    exact wrap_of_small _ _ _ _ (by omega) h
  rw [ix1_eq_ofFin e, ix1_eq_ofFin k,
    StableHlo.Predicate.gather_take gather_S800000_S800000x1_S800000_n_0_n_n_0_1_1 rfl rfl rfl rfl row _ e (by omega)]
  refine congrArg row (congrArg Shape.Idx.ofFin (Fin.ext ?_))
  show min (col (wrap 800000#32 idx) (StableHlo.Predicate.ixP e)).toInt.toNat (800000 - 1) = k.val
  rw [hw, StableHlo.Predicate.toInt_ofNat_small _ (by omega)]
  simp only [Int.toNat_natCast]
  omega

theorem reorder_apply (row dst : IVec S800000 32) (e : Fin 800000) :
    reorder row dst (ix1 e) = row (ix1 (perm dst e)) :=
  gather_at_word row (order dst) e (perm dst e) (order_apply dst e)

end Cert.KernelIdeal.Edge
-- ==== Proof.AggPerm.lean ====
/-
  Summing the messages over the edges sorted by destination is summing them over the edges as given.

  The aggregation adds, at every node, the messages of the edges that end there: at the extended reals an
  unordered finite sum over the edges. Sorting the edge list re-reads both of its rows through one bijection π
  of the edge positions. The place an update lands reads only that update's own row of the destination column,
  and a gathered entry only its own row of the source column, so update (e, c) of the sorted list is update
  (π e, c) of the list as given; re-indexing the sum by π carries one aggregation onto the other. The same
  argument with every update the constant one gives the in-degrees.

  The gather's range mask is the all-ones mask once every source index lies in [-50000, 50000): an index
  below zero is moved up by the table's height 50000 without leaving the signed 32-bit range, after which
  every index is in [0, 49999]; the fill value of the masked rows is never read.
-/
import proofs.«417933_j80195629351383_2_alg».proof.Proof.KerHost
import proofs.«417933_j80195629351383_2_alg».proof.Proof.SortPerm
import Idealize.ShloMosaic.PureOps.Ideal
import Idealize.ShloMosaic.PureOps.Reduce
import Idealize.ShloMosaic.Lib.ValueIdx
import Idealize.ShloMosaic.Lib.ValueIdxRank1
import Idealize.ShloMosaic.Lib.Affine
import Idealize.ShloMosaic.Lib.WordArith
import Idealize.ShloMosaic.Lib.Pipeline.Value

noncomputable section

open scoped BigOperators

namespace Cert.KernelIdeal.Edge.AggPerm

open Cert.KernelIdeal Idealize.ShloMosaic Idealize.ShloMosaic.ValueIdx

variable [Facts]
open Facts₀ Facts

/-! ## Words: an index wrapped into the table -/

/-- A signed word in [-50000, 50000), moved up by 50000 when it is below zero, lies in [0, 49999]: the sum does
    not leave the signed 32-bit range, so it is the integers' sum. -/
theorem wrap_word_bounds (w : BitVec 32) (h1 : -50000 ≤ w.toInt) (h2 : w.toInt < 50000) :
    0 ≤ (Scalar.select (IntOp.cmpi .slt w 0#32) (IntOp.addi w 50000#32) w).toInt ∧
      (Scalar.select (IntOp.cmpi .slt w 0#32) (IntOp.addi w 50000#32) w).toInt ≤ 49999 := by
  have h0 : (0#32 : BitVec 32).toInt = 0 := by decide
  have hn : (50000#32 : BitVec 32).toInt = 50000 := by decide
  by_cases hneg : w.toInt < 0
  · have hc : IntOp.cmpi .slt w 0#32 = 1#1 := IntOp.cmpi_slt.2 (by rw [h0]; exact hneg)
    rw [hc, select_one]
    have e : (IntOp.addi w 50000#32).toInt = w.toInt + 50000 := by
      show (w + 50000#32).toInt = _
      rw [WordArith.toInt_add_of_bounds _ _ (by rw [hn]; omega) (by rw [hn]; omega), hn]
    rw [e]; omega
  · have hc : ¬ IntOp.cmpi .slt w 0#32 = 1#1 := fun hc => hneg (by have := IntOp.cmpi_slt.1 hc; rwa [h0] at this)
    rw [eq_zero_of_ne_one hc, select_zero]
    omega

/-! ## A conjunction over an axis all of whose entries are one -/

/-- A left fold by `and` from the bit one over bits that are all one is one. -/
theorem foldl_andi_ones {ι : Type} (f : ι → BitVec 1) (l : List ι) (hf : ∀ n ∈ l, f n = 1#1) :
    l.foldl (fun r n => IntOp.andi r (f n)) 1#1 = 1#1 := by
  induction l with
  | nil => rfl
  | cons a l ih =>
    have ha : f a = 1#1 := hf a (by simp)
    have h11 : IntOp.andi (1#1 : BitVec 1) 1#1 = 1#1 := by decide
    rw [List.foldl_cons, ha, h11]
    exact ih (fun n hn => hf n (List.mem_cons_of_mem _ hn))

/-- A reduction by `and` from the bit one of an array whose entries are all one is one everywhere. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : ∀ k, init k = 1#1) :
    Host.reduce IntOp.andi x init h hu j = 1#1 := by
  rw [Host.reduce_eq_foldl, hi]
  exact foldl_andi_ones x _ (fun n _ => hx n)

/-! ## The index column and the wrapped indices, read at an edge -/

/-- The column of a list of indices reads the list at the row. -/
theorem col_apply (x : IVec S800000 32) (e : Fin 800000) (z : Fin 1) : col x (ix2 e z) = x (ix1 e) := by
  unfold col
  exact broadcastInDim_apply _ _ _ _ (ix1 e) (fun a => match a with | ⟨0, _⟩ => rfl)

/-- A wrapped index is the index itself, moved up by the extent when it is below zero. -/
theorem wrap_apply (n : BitVec 32) (x : IVec S800000 32) (e : Fin 800000) :
    wrap n x (ix1 e) = Scalar.select (IntOp.cmpi .slt (x (ix1 e)) 0#32) (IntOp.addi (x (ix1 e)) n) (x (ix1 e)) := rfl

/-- The column of wrapped indices at an edge. -/
theorem takeIdx_apply (idx : IVec S800000 32) (e : Fin 800000) (z : Fin 1) :
    takeIdx idx (ix2 e z) = wrap 50000#32 idx (ix1 e) := col_apply _ e z

/-- With every index in [-50000, 50000) the range mask is one at every edge: both compares of the wrapped index
    hold, and the conjunction over the column's one entry is their conjunction. -/
theorem takeMask_apply (idx : IVec S800000 32)
    (hr : ∀ e : S800000.Idx, -50000 ≤ (idx e).toInt ∧ (idx e).toInt < 50000) (e : Fin 800000) :
    takeMask idx (ix1 e) = 1#1 := by
  unfold takeMask
  refine reduce_andi_ones _ _ _ _ _ (fun i => ?_) (fun _ => rfl)
  obtain ⟨e', z, rfl⟩ : ∃ (e' : Fin 800000) (z : Fin 1), i = ix2 e' z := ⟨_, _, eq_ix2 i⟩
  show IntOp.andi (IntOp.cmpi .sge (takeIdx idx (ix2 e' z)) 0#32) (IntOp.cmpi .sle (takeIdx idx (ix2 e' z)) 49999#32) = 1#1
  rw [takeIdx_apply, wrap_apply]
  obtain ⟨h1, h2⟩ := wrap_word_bounds _ (hr (ix1 e')).1 (hr (ix1 e')).2
  have h0 : (0#32 : BitVec 32).toInt = 0 := by decide
  have hn : (49999#32 : BitVec 32).toInt = 49999 := by decide
  exact IntOp.andi_eq_one.2 ⟨IntOp.cmpi_sge.2 (by rw [h0]; exact h1), IntOp.cmpi_sle.2 (by rw [hn]; exact h2)⟩

/-! ## The scatter and the gather read one row of the index column -/

/-- The dimension numbers of the scatter of rows (rank 2), of the scatter of ones (rank 1) and of the gather of rows. -/
abbrev sd2 : ScatterDims S50000x128 S800000x1 S800000x128 := scatter_S50000x128_S800000x1_S800000x128_1_0_0_1
abbrev sd1 : ScatterDims S50000 S800000x1 S800000 := scatter_S50000_S800000x1_S800000_n_0_0_1
abbrev gd : GatherDims S50000x128 S800000x1 S800000x128 := gather_S50000x128_S800000x1_S800000x128_1_0_n_n_0_1_1128

/-- Two updates whose window starts and window coordinates agree on every axis land at the same place. -/
theorem resultIdx?_congr {s si u : Shape} (d : ScatterDims s si u) {w : Nat} (j j' : u.Idx) (idx idx' : IVec si w)
    (hs : ∀ a, d.start j idx a = d.start j' idx' a) (hw : ∀ a, d.window j a = d.window j' a) :
    d.resultIdx? j idx = d.resultIdx? j' idx' := by
  unfold ScatterDims.resultIdx?
  by_cases h : ∀ a, 0 ≤ d.start j idx a + (d.window j a : Int) ∧ d.start j idx a + (d.window j a : Int) < (s.size a : Int)
  · have h' : ∀ a, 0 ≤ d.start j' idx' a + (d.window j' a : Int) ∧
        d.start j' idx' a + (d.window j' a : Int) < (s.size a : Int) := fun a => by
      rw [← hs a, ← hw a]; exact h a
    rw [dif_pos h, dif_pos h']
    refine congrArg some (funext fun a => Fin.ext ?_)
    show (d.start j idx a + (d.window j a : Int)).toNat = (d.start j' idx' a + (d.window j' a : Int)).toNat
    rw [hs a, hw a]
  · have h' : ¬ ∀ a, 0 ≤ d.start j' idx' a + (d.window j' a : Int) ∧
        d.start j' idx' a + (d.window j' a : Int) < (s.size a : Int) := fun h' => h fun a => by
      rw [hs a, hw a]; exact h' a
    rw [dif_neg h, dif_neg h']

/-- The rank-2 scatter: update (e, c) reads its start index at row e of the index column. -/
theorem sd2_siIdx (e : Fin 800000) (c : Fin 128) (k : Fin sd2.scatterDimsToOperandDims.length) :
    sd2.siIdx (ix2 e c) k = ix2 e (0 : Fin 1) := by
  funext b; refine Fin.ext ?_
  match b with
  | ⟨0, _⟩ => rfl
  | ⟨1, _⟩ =>
    show k.val = 0
    have : k.val < 1 := k.isLt
    omega

/-- So updates (e, c) and (e', c) land at the same place when the two index columns agree at rows e and e'. -/
theorem sd2_resultIdx?_congr (idx idx' : IVec S800000x1 32) (e e' : Fin 800000) (c : Fin 128)
    (hh : idx (ix2 e 0) = idx' (ix2 e' 0)) :
    sd2.resultIdx? (ix2 e c) idx = sd2.resultIdx? (ix2 e' c) idx' := by
  refine resultIdx?_congr _ _ _ _ _ (fun a => ?_) (fun a => ?_)
  · unfold ScatterDims.start
    by_cases ha : a ∈ sd2.scatterDimsToOperandDims
    · rw [dif_pos ha, dif_pos ha, sd2_siIdx, sd2_siIdx, hh]
    · rw [dif_neg ha, dif_neg ha]
  · match a with
    | ⟨0, _⟩ => rfl
    | ⟨1, _⟩ => rfl

/-- The rank-1 scatter: update e reads its start index at row e of the index column. -/
theorem sd1_siIdx (e : Fin 800000) (k : Fin sd1.scatterDimsToOperandDims.length) :
    sd1.siIdx (ix1 e) k = ix2 e (0 : Fin 1) := by
  funext b; refine Fin.ext ?_
  match b with
  | ⟨0, _⟩ => rfl
  | ⟨1, _⟩ =>
    show k.val = 0
    have : k.val < 1 := k.isLt
    omega

/-- So updates e and e' land at the same place when the two index columns agree at rows e and e'. -/
theorem sd1_resultIdx?_congr (idx idx' : IVec S800000x1 32) (e e' : Fin 800000)
    (hh : idx (ix2 e 0) = idx' (ix2 e' 0)) :
    sd1.resultIdx? (ix1 e) idx = sd1.resultIdx? (ix1 e') idx' := by
  refine resultIdx?_congr _ _ _ _ _ (fun a => ?_) (fun a => ?_)
  · unfold ScatterDims.start
    by_cases ha : a ∈ sd1.scatterDimsToOperandDims
    · rw [dif_pos ha, dif_pos ha, sd1_siIdx, sd1_siIdx, hh]
    · rw [dif_neg ha, dif_neg ha]
  · match a with
    | ⟨0, _⟩ => rfl

/-- The gather: result (e, c) reads its start index at row e of the index column. -/
theorem gd_siIdx (e : Fin 800000) (c : Fin 128) (k : Fin gd.startIndexMap.length) :
    gd.siIdx (ix2 e c) k = ix2 e (0 : Fin 1) := by
  funext b; refine Fin.ext ?_
  match b with
  | ⟨0, _⟩ => rfl
  | ⟨1, _⟩ =>
    show k.val = 0
    have : k.val < 1 := k.isLt
    omega

/-- So the gathered entries (e, c) and (e', c) are one entry of the table when the two index columns agree at
    rows e and e'. -/
theorem gather_congr {α : Type} (x : S50000x128.Idx → α) (idx idx' : IVec S800000x1 32) (e e' : Fin 800000) (c : Fin 128)
    (hh : idx (ix2 e 0) = idx' (ix2 e' 0)) :
    Host.gather gd x idx (ix2 e c) = Host.gather gd x idx' (ix2 e' c) := by
  unfold Host.gather
  refine congrArg x (funext fun a => Fin.ext ?_)
  show gd.start (ix2 e c) idx a + gd.batchCoord (ix2 e c) a + gd.offCoord (ix2 e c) a
    = gd.start (ix2 e' c) idx' a + gd.batchCoord (ix2 e' c) a + gd.offCoord (ix2 e' c) a
  have h1 : gd.start (ix2 e c) idx a = gd.start (ix2 e' c) idx' a := by
    unfold GatherDims.start
    by_cases ha : a ∈ gd.startIndexMap
    · rw [dif_pos ha, dif_pos ha, gd_siIdx, gd_siIdx, hh]
    · rw [dif_neg ha, dif_neg ha]
  have h2 : gd.batchCoord (ix2 e c) a = gd.batchCoord (ix2 e' c) a := by
    rw [GatherDims.batchCoord_eq_zero gd _ a List.not_mem_nil, GatherDims.batchCoord_eq_zero gd _ a List.not_mem_nil]
  have h3 : gd.offCoord (ix2 e c) a = gd.offCoord (ix2 e' c) a := by
    match a with
    | ⟨0, _⟩ => rfl
    | ⟨1, _⟩ => rfl
  rw [h1, h2, h3]

/-! ## Re-indexing the updates of an accumulating scatter -/

/-- At the extended reals the accumulating scatter is the exact sum of the updates that land at each element. -/
theorem scatterAdd_eq {s si u : Shape} {w : Nat} {φ : FTy} (d : ScatterDims s si u) (x : FVec Ideal s φ)
    (idx : IVec si w) (upd : FVec Ideal u φ) :
    Host.scatterAdd (F := Ideal) d x idx upd = Ideal.hostScatterAdd d x idx upd := rfl

/-- A bijection of the update indices that carries each update of one scatter onto an update of another landing
    at the same place with the same value leaves the result unchanged: at every element the two sums run over
    corresponding updates, and a finite sum does not depend on the order of its terms. -/
theorem hostScatterAdd_reindex {s si u : Shape} {w : Nat} (d : ScatterDims s si u) (x : s.Idx → EReal)
    (idx idx' : IVec si w) (upd upd' : u.Idx → EReal) (τ : u.Idx ≃ u.Idx)
    (hl : ∀ j, d.resultIdx? j idx' = d.resultIdx? (τ j) idx) (hv : ∀ j, upd' j = upd (τ j)) :
    Ideal.hostScatterAdd d x idx' upd' = Ideal.hostScatterAdd d x idx upd := by
  funext i
  unfold Ideal.hostScatterAdd
  refine congrArg (fun t => x i + t) ?_
  rw [Finset.sum_filter, Finset.sum_filter]
  exact Fintype.sum_bijective τ τ.bijective _ _ (fun j => by rw [hl j, hv j])

/-- The same for the scatter as the program states it. -/
theorem scatterAdd_reindex {s si u : Shape} {w : Nat} {φ : FTy} (d : ScatterDims s si u) (x : FVec Ideal s φ)
    (idx idx' : IVec si w) (upd upd' : FVec Ideal u φ) (τ : u.Idx ≃ u.Idx)
    (hl : ∀ j, d.resultIdx? j idx' = d.resultIdx? (τ j) idx) (hv : ∀ j, upd' j = upd (τ j)) :
    Host.scatterAdd (F := Ideal) d x idx' upd' = Host.scatterAdd (F := Ideal) d x idx upd := by
  rw [scatterAdd_eq, scatterAdd_eq]
  exact hostScatterAdd_reindex d x idx idx' upd upd' τ hl hv

/-- A bijection of the rows of a rank-2 index set, the column kept. -/
def rowEquiv {n0 n1 : Nat} (π : Fin n0 → Fin n0) (hπ : Function.Bijective π) :
    (⟨2, ![n0, n1]⟩ : Shape).Idx ≃ (⟨2, ![n0, n1]⟩ : Shape).Idx :=
  (idxEquiv2.trans (Equiv.prodCongr (Equiv.ofBijective π hπ) (Equiv.refl _))).trans idxEquiv2.symm

theorem rowEquiv_ix2 {n0 n1 : Nat} (π : Fin n0 → Fin n0) (hπ : Function.Bijective π) (e : Fin n0) (c : Fin n1) :
    rowEquiv π hπ (ix2 e c) = ix2 (π e) c := rfl

/-- A bijection of a rank-1 index set. -/
def rowEquiv1 {n : Nat} (π : Fin n → Fin n) (hπ : Function.Bijective π) :
    (⟨1, ![n]⟩ : Shape).Idx ≃ (⟨1, ![n]⟩ : Shape).Idx :=
  (idxEquiv1.trans (Equiv.ofBijective π hπ)).trans idxEquiv1.symm

theorem rowEquiv1_ix1 {n : Nat} (π : Fin n → Fin n) (hπ : Function.Bijective π) (e : Fin n) :
    rowEquiv1 π hπ (ix1 e) = ix1 (π e) := rfl

end Cert.KernelIdeal.Edge.AggPerm

namespace Cert.KernelIdeal.Edge

open Cert.KernelIdeal Idealize.ShloMosaic Idealize.ShloMosaic.ValueIdx AggPerm

variable [Facts]
open Facts₀ Facts

/-- THE MASK IS VACUOUS: with every index in [-50000, 50000) the masked gather is the gather. -/
theorem takeK_eq_gather (h : FVec Ideal S50000x128 .f32) (idx : IVec S800000 32)
    (hr : ∀ e : S800000.Idx, -50000 ≤ (idx e).toInt ∧ (idx e).toInt < 50000) :
    takeK (F := Ideal) h idx = Host.gather gather_S50000x128_S800000x1_S800000x128_1_0_n_n_0_1_1128 h (takeIdx idx) := by
  funext j
  obtain ⟨e, c, rfl⟩ : ∃ (e : Fin 800000) (c : Fin 128), j = ix2 e c := ⟨_, _, eq_ix2 j⟩
  unfold takeK
  rw [select_apply]
  have hm : broadcastInDim S800000x128 ![0] bcast_S800000_S800000x128_0 (takeMask idx) (ix2 e c) = takeMask idx (ix1 e) :=
    broadcastInDim_apply _ _ _ _ (ix1 e) (fun a => match a with | ⟨0, _⟩ => rfl)
  rw [hm, takeMask_apply idx hr e, select_one]

/-- THE SORTED AGGREGATION IS THE AGGREGATION. At a node both sides add the messages of the updates that land
    there. Update (e, c) of the sorted list lands where update (π e, c) of the list as given lands, and carries
    the same message, π the sorting bijection of the edge positions: both rows of the edge list are re-read
    through π, the result index of an update reads only its own row of the destination column, and the
    gathered entry only its own row of the source column. Re-indexing the sum over the edges by π carries one
    sum onto the other. -/
theorem aggK_eq (h : FVec Ideal S50000x128 .f32) (src dst : IVec S800000 32)
    (hr : ∀ e : S800000.Idx, -50000 ≤ (src e).toInt ∧ (src e).toInt < 50000) :
    aggK (F := Ideal) h src dst
      = aggOf (F := Ideal) dst (Host.gather gather_S50000x128_S800000x1_S800000x128_1_0_n_n_0_1_1128 h (takeIdx src)) := by
  have hrK : ∀ j : S800000.Idx, -50000 ≤ (srcK src dst j).toInt ∧ (srcK src dst j).toInt < 50000 := by
    intro j
    obtain ⟨e, rfl⟩ : ∃ e : Fin 800000, j = ix1 e := ⟨_, eq_ix1 j⟩
    show -50000 ≤ (reorder src dst (ix1 e)).toInt ∧ (reorder src dst (ix1 e)).toInt < 50000
    rw [reorder_apply]; exact hr _
  unfold aggK
  rw [takeK_eq_gather h _ hrK]
  unfold aggOf
  refine scatterAdd_reindex sd2 _ (col dst) (col (dstK dst)) _ _ (rowEquiv (perm dst) (perm_bijective dst))
    (fun j => ?_) (fun j => ?_)
  · obtain ⟨e, c, rfl⟩ : ∃ (e : Fin 800000) (c : Fin 128), j = ix2 e c := ⟨_, _, eq_ix2 j⟩
    rw [rowEquiv_ix2]
    refine sd2_resultIdx?_congr _ _ e (perm dst e) c ?_
    rw [col_apply, col_apply]; exact reorder_apply dst dst e
  · obtain ⟨e, c, rfl⟩ : ∃ (e : Fin 800000) (c : Fin 128), j = ix2 e c := ⟨_, _, eq_ix2 j⟩
    rw [rowEquiv_ix2]
    refine gather_congr h _ _ e (perm dst e) c ?_
    rw [takeIdx_apply, takeIdx_apply, wrap_apply, wrap_apply,
      show srcK src dst (ix1 e) = src (ix1 (perm dst e)) from reorder_apply src dst e]

/-- THE SORTED IN-DEGREE IS THE IN-DEGREE: the same re-indexing, every update the constant one. -/
theorem degOf_sorted (dst : IVec S800000 32) : degOf (F := Ideal) (dstK dst) = degOf (F := Ideal) dst := by
  unfold degOf
  refine scatterAdd_reindex sd1 _ (col dst) (col (dstK dst)) _ _ (rowEquiv1 (perm dst) (perm_bijective dst))
    (fun j => ?_) (fun j => rfl)
  obtain ⟨e, rfl⟩ : ∃ e : Fin 800000, j = ix1 e := ⟨_, eq_ix1 j⟩
  rw [rowEquiv1_ix1]
  refine sd1_resultIdx?_congr _ _ e (perm dst e) ?_
  rw [col_apply, col_apply]; exact reorder_apply dst dst e

end Cert.KernelIdeal.Edge

end
-- ==== Proof.RefLayer.lean ====
/-
  The reference's layer, from the aggregated messages and the in-degrees on, is the layer function of the
  specification, index by index on the extended reals.

  First every operation that is not pointwise is read at a row `n` and a channel `j`: a column spread along the
  channels reads the column's entry of row `n`; a row spread along the rows reads the row's entry of channel `j`; a
  scalar spread to any shape reads the scalar; the transposed square matrix at `(k, j)` is the matrix at `(j, k)`;
  the matrix product at `(n, j)` is the sum over the contracted channel `k` of the left factor at `(n, k)` times
  the right factor at `(k, j)`; the sum of a row over its channels is the initial value plus the sum over `j`.
  Then the layer's pieces are read in the program's order: the mean, the linear part, the row mean (here the
  initial value of the sum, the zero word, is evaluated and dropped), the centred part, the normalised part, and the
  whole layer, which is the specification's expression term for term.
-/
import proofs.«417933_j80195629351383_2_alg».proof.Proof.RefLayerDef
import proofs.«417933_j80195629351383_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Layer

open Cert.ReferenceIdeal Cert.Sage Idealize.ShloMosaic Idealize.ShloMosaic.ValueIdx
open scoped BigOperators

variable [Facts]
open Facts₀ Facts

/-! ## The layout operations at an index -/

section Layout
variable {α : Type}

/-- A scalar spread to any shape reads the scalar everywhere. -/
theorem splat_apply {t : Shape} (dims : Fin S_.rank → Fin t.rank) (h : S_.BroadcastsInDim t dims) (c : S_.Idx → α)
    (i : t.Idx) : broadcastInDim t dims h c i = c ix0 :=
  broadcastInDim_apply dims h c i ix0 (fun a => a.elim0)

/-- A vector over the rows made a column: row `n` of the column is the vector's entry `n`. -/
theorem asCol_apply (d : S50000.Idx → α) (n : Fin 50000) (c : Fin 1) :
    broadcastInDim S50000x1 ![0] bcast_S50000_S50000x1_0 d (ix2 n c) = d (ix1 n) :=
  broadcastInDim_apply _ bcast_S50000_S50000x1_0 d _ _ (fun a => match a with
    | ⟨0, _⟩ => by show n.val = if (50000 : Nat) = 1 then 0 else n.val; rw [if_neg (by decide)])

/-- A vector over the channels made a row: channel `j` of the row is the vector's entry `j`. -/
theorem asRow_apply (v : S128.Idx → α) (r : Fin 1) (j : Fin 128) :
    broadcastInDim S1x128 ![1] bcast_S128_S1x128_1 v (ix2 r j) = v (ix1 j) :=
  broadcastInDim_apply _ bcast_S128_S1x128_1 v _ _ (fun a => match a with
    | ⟨0, _⟩ => by show j.val = if (128 : Nat) = 1 then 0 else j.val; rw [if_neg (by decide)])

/-- A column spread along the channels: every channel of row `n` reads the column's row `n`. -/
theorem spreadCol_apply (v : S50000x1.Idx → α) (n : Fin 50000) (j : Fin 128) :
    broadcastInDim S50000x128 ![0, 1] bcast_S50000x1_S50000x128_0_1 v (ix2 n j) = v (ix2 n (0 : Fin 1)) :=
  broadcastInDim_apply _ bcast_S50000x1_S50000x128_0_1 v _ _ (fun a => match a with
    | ⟨0, _⟩ => by show n.val = if (50000 : Nat) = 1 then 0 else n.val; rw [if_neg (by decide)]
    | ⟨1, _⟩ => by show 0 = if (1 : Nat) = 1 then 0 else j.val; rw [if_pos rfl])

/-- A row spread along the rows: every row reads, at channel `j`, the row's channel `j`. -/
theorem spreadRow_apply (v : S1x128.Idx → α) (n : Fin 50000) (j : Fin 128) :
    broadcastInDim S50000x128 ![0, 1] bcast_S1x128_S50000x128_0_1 v (ix2 n j) = v (ix2 (0 : Fin 1) j) :=
  broadcastInDim_apply _ bcast_S1x128_S50000x128_0_1 v _ _ (fun a => match a with
    | ⟨0, _⟩ => by show 0 = if (1 : Nat) = 1 then 0 else n.val; rw [if_pos rfl]
    | ⟨1, _⟩ => by show j.val = if (128 : Nat) = 1 then 0 else j.val; rw [if_neg (by decide)])

/-- The square matrix transposed, at `(k, j)`, is the matrix at `(j, k)`. -/
theorem transposeSq_apply (w : S128x128.Idx → α) (k j : Fin 128) :
    transpose S128x128 [1, 0] w transposes_S128x128_S128x128_1_0 (ix2 k j) = w (ix2 j k) :=
  transpose_ix2_apply w transposes_S128x128_S128x128_1_0 k j

end Layout

/-- The square matrix transposed is the specification's transposed matrix. -/
theorem transposeSq_eq (w : FVec Ideal S128x128 .f32) :
    transpose S128x128 [1, 0] w transposes_S128x128_S128x128_1_0 = trOf w := by
  funext i
  obtain ⟨k, j, rfl⟩ : ∃ (k j : Fin 128), i = ix2 k j := ⟨i 0, i 1, eq_ix2 i⟩
  exact transposeSq_apply w k j

section Named
variable {F : FTy → Type} [FloatOps F]

/-- Per-row values spread along the channels, at `(n, j)`: the value of row `n`. -/
theorem alongRows_apply (v : FVec F S50000x1 .f32) (n : Fin 50000) (j : Fin 128) :
    alongRows v (ix2 n j) = v (ix2 n (0 : Fin 1)) :=
  spreadCol_apply v n j

/-- Per-channel values spread along the rows, at `(n, j)`: the value of channel `j`. -/
theorem alongCols_apply (v : FVec F S128 .f32) (n : Fin 50000) (j : Fin 128) :
    alongCols v (ix2 n j) = v (ix1 j) :=
  (spreadRow_apply _ n j).trans (asRow_apply v 0 j)

end Named

/-! ## The host's quotient and inverse square root, the matrix product and the row sum at an index, on the extended reals -/

/-- The host's quotient at an index is the quotient of the entries. -/
theorem hostDivf_apply {s : Shape} (a b : FVec Ideal s .f32) (i : s.Idx) :
    Host.divf (F := Ideal) a b i = Ideal.div (a i) (b i) := rfl

/-- The host's inverse square root at an index is that of the entry. -/
theorem hostRsqrt_apply {s : Shape} (a : FVec Ideal s .f32) (i : s.Idx) :
    Host.rsqrt (F := Ideal) a i = Ideal.rsqrt (a i) := rfl

/-- The left factor's index of the product at row axis: the output's row. -/
theorem dotL0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by
      show ¬(0 : Fin 2) ∈ ([] : List (Fin 2)); decide),
    dif_pos (show (0 : Fin S50000x128.rank) ∈ dot_S50000x128_S128x128_S50000x128_1_0_0_1_n_n.lhsNonContracting by
      show (0 : Fin 2) ∈ [(0 : Fin 2)]; decide)]
  rfl

/-- The left factor's index at the channel axis: the contracted channel. -/
theorem dotL1 (i : S50000x128.Idx) (q : dot_S50000x128_S128x128_S50000x128_1_0_0_1_n_n.contr.Idx) :
    (dot_S50000x128_S128x128_S50000x128_1_0_0_1_n_n.lhsIdx i q 1).val = (q ⟨0, Nat.one_pos⟩).val :=
  dot_S50000x128_S128x128_S50000x128_1_0_0_1_n_n.lhsIdx_val_of_single rfl i q

/-- The right factor's index at its first axis: the contracted channel. -/
theorem dotR0 (i : S50000x128.Idx) (q : dot_S50000x128_S128x128_S50000x128_1_0_0_1_n_n.contr.Idx) :
    (dot_S50000x128_S128x128_S50000x128_1_0_0_1_n_n.rhsIdx i q 0).val = (q ⟨0, Nat.one_pos⟩).val :=
  dot_S50000x128_S128x128_S50000x128_1_0_0_1_n_n.rhsIdx_val_of_single rfl i q

/-- The right factor's index at its second axis: the output's channel. -/
theorem dotR1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by
      show ¬(1 : Fin 2) ∈ ([] : List (Fin 2)); decide),
    dif_pos (show (1 : Fin S128x128.rank) ∈ dot_S50000x128_S128x128_S50000x128_1_0_0_1_n_n.rhsNonContracting by
      show (1 : Fin 2) ∈ [(1 : Fin 2)]; decide)]
  rfl

/-- The product of a rows-by-channels array with a square matrix, at `(n, j)`: the sum over the contracted channel
    `k` of the left factor at `(n, k)` times the right factor at `(k, j)`. -/
theorem dot_apply (l : FVec Ideal S50000x128 .f32) (r : FVec Ideal S128x128 .f32) (n : Fin 50000) (j : Fin 128) :
    Host.dotGeneral (F := Ideal) dot_S50000x128_S128x128_S50000x128_1_0_0_1_n_n none l r (ix2 n j)
      = ∑ k : Fin 128, l (ix2 n k) * r (ix2 k j) := by
  simp only [Host.dotGeneral]
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 n j)
      ((contrEquiv1 dot_S50000x128_S128x128_S50000x128_1_0_0_1_n_n 128 rfl rfl).symm k) = ix2 n k :=
    funext fun a => Fin.ext (by
      match a with
      | ⟨0, _⟩ => exact dotL0 _ _
      | ⟨1, _⟩ => exact (dotL1 _ _).trans hk)
  have er : dot_S50000x128_S128x128_S50000x128_1_0_0_1_n_n.rhsIdx (ix2 n j)
      ((contrEquiv1 dot_S50000x128_S128x128_S50000x128_1_0_0_1_n_n 128 rfl rfl).symm k) = ix2 k j :=
    funext fun a => Fin.ext (by
      match a with
      | ⟨0, _⟩ => exact (dotR0 _ _).trans hk
      | ⟨1, _⟩ => exact dotR1 _ _)
  rw [el, er]

/-- The sum of row `n` over its channels: the initial value plus the sum over `j` of the entries. -/
theorem rowSum_apply (x : FVec Ideal S50000x128 .f32) (init : FVec Ideal S_ .f32) (n : Fin 50000) :
    Host.reduceAdd (F := Ideal) x init reducesTo_S50000x128_S50000_d1 h_S_ (ix1 n)
      = init ix0 + ∑ j : Fin 128, x (ix2 n j) := by
  simp only [Host.reduceAdd, Ideal.hostReduceAdd_def]
  rw [Ideal.hostReduceAdd_single reducesTo_S50000x128_S50000_d1 (by decide), eq_ix0 (Shape.Idx.first h_S_)]
  refine congrArg (_ + ·) (Finset.sum_congr rfl fun k _ => ?_)
  exact congrArg x (funext fun a => Fin.ext (by match a with | ⟨0, _⟩ => rfl | ⟨1, _⟩ => rfl))

/-! ## The layer's pieces at an index -/

/-- The mean at `(n, k)`: the aggregated message over the in-degree of row `n` floored at one. -/
theorem meanR_apply (agg : FVec Ideal S50000x128 .f32) (deg : FVec Ideal S50000 .f32) (n : Fin 50000) (k : Fin 128) :
    meanR (F := Ideal) agg deg (ix2 n k) = meanAt (R := 50000) agg (colOf deg) n k := by
  unfold meanR meanAt
  rw [hostDivf_apply, alongRows_apply, asCol_apply, maximumf_apply, splat_apply]
  rfl

/-- The linear part at `(n, j)`, whatever the mean is: the mean through the left weights, the bias, the features
    through the right weights, each product against the transposed matrix. -/
theorem linR_apply (mean h : FVec Ideal S50000x128 .f32) (wl : FVec Ideal S128x128 .f32) (bl : FVec Ideal S128 .f32)
    (wr : FVec Ideal S128x128 .f32) (n : Fin 50000) (j : Fin 128) :
    linR (F := Ideal) mean h wl bl wr (ix2 n j)
      = ((∑ k : Fin 128, mean (ix2 n k) * trOf wl (ix2 k j)) + rowOf bl (ix2 (0 : Fin 1) j))
          + ∑ k : Fin 128, h (ix2 n k) * trOf wr (ix2 k j) := by
  unfold linR
  rw [transposeSq_eq, transposeSq_eq, addf_apply, addf_apply, dot_apply, dot_apply, alongCols_apply]
  rfl

/-- The linear part of the reference is the specification's. -/
theorem linR_meanR_apply (agg : FVec Ideal S50000x128 .f32) (deg : FVec Ideal S50000 .f32) (h : FVec Ideal S50000x128 .f32)
    (wl : FVec Ideal S128x128 .f32) (bl : FVec Ideal S128 .f32) (wr : FVec Ideal S128x128 .f32) (n : Fin 50000) (j : Fin 128) :
    linR (F := Ideal) (meanR (F := Ideal) agg deg) h wl bl wr (ix2 n j)
      = linAt (R := 50000) agg (colOf deg) h (trOf wl) (rowOf bl) (trOf wr) n j := by
  rw [linR_apply]
  unfold linAt
  simp only [meanR_apply]

/-- The row mean at row `n`: the sum over the channels (the sum's initial value, the zero word, is zero) over the
    word of 128. -/
theorem rowMean_apply (x : FVec Ideal S50000x128 .f32) (n : Fin 50000) (c : Fin 1) :
    rowMean (F := Ideal) x (ix2 n c) = Ideal.div (∑ j : Fin 128, x (ix2 n j)) wD := by
  unfold rowMean
  rw [hostDivf_apply, asCol_apply, rowSum_apply, splat_apply, constant_apply, constant_apply, Ideal.ofBits_zero_f32, zero_add]

/-- The centred part at `(n, j)`: the entry less its row's mean. -/
theorem centred_apply (x : FVec Ideal S50000x128 .f32) (n : Fin 50000) (j : Fin 128) :
    centred (F := Ideal) x (ix2 n j) = x (ix2 n j) - Ideal.div (∑ j' : Fin 128, x (ix2 n j')) wD := by
  unfold centred
  rw [subf_apply, alongRows_apply, rowMean_apply]

/-- The normalised part at `(n, j)`: centred, times the inverse square root of the row's variance plus ε, times the
    scale, plus the shift. -/
theorem normR_apply (x : FVec Ideal S50000x128 .f32) (g b : FVec Ideal S128 .f32) (n : Fin 50000) (j : Fin 128) :
    normR (F := Ideal) x g b (ix2 n j)
      = (((x (ix2 n j) - Ideal.div (∑ j' : Fin 128, x (ix2 n j')) wD)
            * Ideal.rsqrt (Ideal.div (∑ j' : Fin 128,
                (x (ix2 n j') - Ideal.div (∑ j'' : Fin 128, x (ix2 n j'')) wD)
                  * (x (ix2 n j') - Ideal.div (∑ j'' : Fin 128, x (ix2 n j'')) wD)) wD + wEps))
          * g (ix1 j)) + b (ix1 j) := by
  unfold normR
  simp only [addf_apply, mulf_apply, alongCols_apply, alongRows_apply, hostRsqrt_apply, rowMean_apply, splat_apply,
    constant_apply, centred_apply]

/-! ## The layer -/

/-- The reference's layer from the aggregated messages and the in-degrees on is the specification's layer, with the
    degrees as a column, the weights transposed and the bias, scale and shift as rows. -/
theorem refTail_spec (agg : FVec Ideal S50000x128 .f32) (deg : FVec Ideal S50000 .f32) (h : FVec Ideal S50000x128 .f32)
    (wl : FVec Ideal S128x128 .f32) (bl : FVec Ideal S128 .f32) (wr : FVec Ideal S128x128 .f32) (g b : FVec Ideal S128 .f32) :
    refTail (F := Ideal) agg deg h wl bl wr g b
      = layerOut (R := 50000) agg (colOf deg) h (trOf wl) (rowOf bl) (trOf wr) (rowOf g) (rowOf b) := by
  funext i
  obtain ⟨n, j, rfl⟩ : ∃ (n : Fin 50000) (j : Fin 128), i = ix2 n j := ⟨i 0, i 1, eq_ix2 i⟩
  rw [layerOut_apply]
  unfold refTail
  rw [addf_apply, maximumf_apply, splat_apply, constant_apply, normR_apply]
  simp only [linR_meanR_apply]
  rfl

end Cert.ReferenceIdeal.Layer

end
-- ==== Proof.Layouts.lean ====
/-
  The parameter windows of the two programs, and the kernel's degree column, read at an index.

  Both programs cut layer `l` out of a stacked array and re-lay it; the kernel's host side additionally swaps
  the two channel axes of every stacked matrix first and narrows it to the 16-bit format (no change on the
  extended reals), and lays a parameter vector out as a single row. Entry by entry:

    kernel weight window l at (k, j)   = W (l, j, k)      -- the layer's matrix transposed
    kernel vector window l at (0, j)   = B (l, j)         -- the layer's vector as a row
    reference matrix l     at (p, q)   = W (l, p, q)
    reference vector l     at (q)      = B (l, q)
    degree column          at (n, 0)   = in-degree of n   -- the in-degree vector as a column

  Each is one slice (offset plus coordinate on every axis), one or two re-layouts (same row-major position) and,
  for the kernel's weights, one transposition (coordinates permuted).
-/
import proofs.«417933_j80195629351383_2_alg».proof.Proof.KerNet
import proofs.«417933_j80195629351383_2_alg».proof.Proof.RefLayerDef
import proofs.«417933_j80195629351383_2_alg».proof.Proof.Gen.KernelIdeal
import proofs.«417933_j80195629351383_2_alg».proof.Proof.Gen.ReferenceIdeal
import Idealize.ShloMosaic.Lib.Pipeline.Value
import Idealize.ShloMosaic.Lib.ValueIdx
import Idealize.ShloMosaic.Lib.ValueLayout

noncomputable section

namespace Cert.Proof.Layouts

open Cert.Sage Idealize.ShloMosaic Idealize.ShloMosaic.ValueIdx

/-! ## Two readings the windows need, for any kind of entry -/

section Readings
variable {α : Type}

/-- A slab of thickness one cut from a stack along its first axis at offset `o`: its entry `(u, p, q)` is the
    stack's entry `(l, p, q)`, where `l` is the member the offset names. The other two axes are not cut. -/
theorem slab_apply {n0 n1 n2 : Nat} (o : Nat) (X : (⟨3, ![n0, n1, n2]⟩ : Shape).Idx → α)
    (h : (⟨3, ![n0, n1, n2]⟩ : Shape).Slices ![o, 0, 0] ⟨3, ![1, n1, n2]⟩)
    (u : Fin 1) (p : Fin n1) (q : Fin n2) (l : Fin n0) (hl : l.val = o) :
    extractStridedSlice ⟨3, ![1, n1, n2]⟩ ![o, 0, 0] X h (ix3 u p q) = X (ix3 l p q) :=
  extractStridedSlice_apply _ X h _ _ fun a => match a with
    | ⟨0, _⟩ => by show l.val = o + u.val; omega
    | ⟨1, _⟩ => by show p.val = 0 + p.val; omega
    | ⟨2, _⟩ => by show q.val = 0 + q.val; omega

/-- A vector re-laid as a column: entry `(i, u)` of the column sits at row-major position `i · 1 + u = i`, which is
    the vector's entry `i`. -/
theorem shapeCast_a_a1_apply {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_two, Shape.rowMajor_val_one]
    show i.val = i.val * 1 + u.val
    omega)

/-! ## The four kinds of window, over literal shapes and an offset `o` that names layer `l` -/

/-- Layer `l`'s matrix: the slab at offset `l`, its unit axis dropped. Entry `(p, q)` is the stack's `(l, p, q)`. -/
theorem matWin_apply (o : Nat) (W : (⟨3, ![3, 128, 128]⟩ : Shape).Idx → α)
    (hs : (⟨3, ![3, 128, 128]⟩ : Shape).Slices ![o, 0, 0] ⟨3, ![1, 128, 128]⟩)
    (hc : (⟨3, ![1, 128, 128]⟩ : Shape).ShapeCasts ⟨2, ![128, 128]⟩)
    (l : Fin 3) (hl : l.val = o) (p q : Fin 128) :
    shapeCast ⟨2, ![128, 128]⟩ (extractStridedSlice ⟨3, ![1, 128, 128]⟩ ![o, 0, 0] W hs) hc (ix2 p q)
      = W (ix3 l p q) :=
  (shapeCast_1ab_ab_apply _ hc p q).trans (slab_apply o W hs 0 p q l hl)

/-- Layer `l`'s vector: row `l` of the stack, its unit axis dropped. Entry `q` is the stack's `(l, q)`. -/
theorem vecWin_apply (o : Nat) (B : (⟨2, ![3, 128]⟩ : Shape).Idx → α)
    (hs : (⟨2, ![3, 128]⟩ : Shape).Slices ![o, 0] ⟨2, ![1, 128]⟩)
    (hc : (⟨2, ![1, 128]⟩ : Shape).ShapeCasts ⟨1, ![128]⟩)
    (l : Fin 3) (hl : l.val = o) (q : Fin 128) :
    shapeCast ⟨1, ![128]⟩ (extractStridedSlice ⟨2, ![1, 128]⟩ ![o, 0] B hs) hc (ix1 q) = B (ix2 l q) :=
  (shapeCast_1a_a_apply _ hc q).trans
    (slice2_axis0_apply o B hs (0 : Fin 1) q l (by
      have h0 : ((0 : Fin 1) : Nat) = 0 := rfl
      omega))

/-- Layer `l`'s vector laid out again as a single row: entry `(u, j)` is the stack's `(l, j)`. -/
theorem rowWin_apply (o : Nat) (B : (⟨2, ![3, 128]⟩ : Shape).Idx → α)
    (hs : (⟨2, ![3, 128]⟩ : Shape).Slices ![o, 0] ⟨2, ![1, 128]⟩)
    (hc : (⟨2, ![1, 128]⟩ : Shape).ShapeCasts ⟨1, ![128]⟩)
    (hr : (⟨1, ![128]⟩ : Shape).ShapeCasts ⟨2, ![1, 128]⟩)
    (l : Fin 3) (hl : l.val = o) (u : Fin 1) (j : Fin 128) :
    shapeCast ⟨2, ![1, 128]⟩ (shapeCast ⟨1, ![128]⟩ (extractStridedSlice ⟨2, ![1, 128]⟩ ![o, 0] B hs) hc) hr (ix2 u j)
      = B (ix2 l j) :=
  (shapeCast_a_1a_apply _ hr u j).trans (vecWin_apply o B hs hc l hl j)

/-- Layer `l`'s matrix out of the stack whose members were each transposed first: entry `(k, j)` is the
    untransposed stack's `(l, j, k)`. -/
theorem trWin_apply (o : Nat) (W : (⟨3, ![3, 128, 128]⟩ : Shape).Idx → α)
    (ht : (⟨3, ![3, 128, 128]⟩ : Shape).Transposes [0, 2, 1] ⟨3, ![3, 128, 128]⟩)
    (hs : (⟨3, ![3, 128, 128]⟩ : Shape).Slices ![o, 0, 0] ⟨3, ![1, 128, 128]⟩)
    (hc : (⟨3, ![1, 128, 128]⟩ : Shape).ShapeCasts ⟨2, ![128, 128]⟩)
    (l : Fin 3) (hl : l.val = o) (k j : Fin 128) :
    shapeCast ⟨2, ![128, 128]⟩
        (extractStridedSlice ⟨3, ![1, 128, 128]⟩ ![o, 0, 0] (transpose ⟨3, ![3, 128, 128]⟩ [0, 2, 1] W ht) hs) hc (ix2 k j)
      = W (ix3 l j k) :=
  (matWin_apply o _ hs hc l hl k j).trans (transpose_ix3_021_apply W ht l k j)

end Readings

/-! ## The kernel's weight windows

The narrowing to the 16-bit format that the kernel's host side applies after the transposition is the identity on
the extended reals, so the stack a window is cut from is the transposed stack itself. -/

theorem wK0_eq (W : FVec Ideal Cert.KernelIdeal.S3x128x128 .f32) :
    Cert.KernelIdeal.Edge.wK0 (F := Ideal) W = trOf (matOf W 0) := by
  funext i
  obtain ⟨k, j, rfl⟩ : ∃ (k : Fin 128) (j : Fin 128), i = ix2 k j := ⟨i 0, i 1, eq_ix2 i⟩
  exact trWin_apply 0 W _ _ _ 0 rfl k j
theorem wK1_eq (W : FVec Ideal Cert.KernelIdeal.S3x128x128 .f32) :
    Cert.KernelIdeal.Edge.wK1 (F := Ideal) W = trOf (matOf W 1) := by
  funext i
  obtain ⟨k, j, rfl⟩ : ∃ (k : Fin 128) (j : Fin 128), i = ix2 k j := ⟨i 0, i 1, eq_ix2 i⟩
  exact trWin_apply 1 W _ _ _ 1 rfl k j
theorem wK2_eq (W : FVec Ideal Cert.KernelIdeal.S3x128x128 .f32) :
    Cert.KernelIdeal.Edge.wK2 (F := Ideal) W = trOf (matOf W 2) := by
  funext i
  obtain ⟨k, j, rfl⟩ : ∃ (k : Fin 128) (j : Fin 128), i = ix2 k j := ⟨i 0, i 1, eq_ix2 i⟩
  exact trWin_apply 2 W _ _ _ 2 rfl k j

/-! ## The kernel's parameter vectors as rows -/

theorem rowK0_eq (B : FVec Ideal Cert.KernelIdeal.S3x128 .f32) :
    Cert.KernelIdeal.Edge.rowK0 (F := Ideal) B = rowOf (vecOf B 0) := by
  funext i
  obtain ⟨u, j, rfl⟩ : ∃ (u : Fin 1) (j : Fin 128), i = ix2 u j := ⟨i 0, i 1, eq_ix2 i⟩
  exact rowWin_apply 0 B _ _ _ 0 rfl u j
theorem rowK1_eq (B : FVec Ideal Cert.KernelIdeal.S3x128 .f32) :
    Cert.KernelIdeal.Edge.rowK1 (F := Ideal) B = rowOf (vecOf B 1) := by
  funext i
  obtain ⟨u, j, rfl⟩ : ∃ (u : Fin 1) (j : Fin 128), i = ix2 u j := ⟨i 0, i 1, eq_ix2 i⟩
  exact rowWin_apply 1 B _ _ _ 1 rfl u j
theorem rowK2_eq (B : FVec Ideal Cert.KernelIdeal.S3x128 .f32) :
    Cert.KernelIdeal.Edge.rowK2 (F := Ideal) B = rowOf (vecOf B 2) := by
  funext i
  obtain ⟨u, j, rfl⟩ : ∃ (u : Fin 1) (j : Fin 128), i = ix2 u j := ⟨i 0, i 1, eq_ix2 i⟩
  exact rowWin_apply 2 B _ _ _ 2 rfl u j

/-! ## The reference's matrices and vectors -/

theorem mat0_eq (W : FVec Ideal Cert.ReferenceIdeal.S3x128x128 .f32) :
    Cert.ReferenceIdeal.Layer.mat0 (F := Ideal) W = matOf W 0 := by
  funext i
  obtain ⟨p, q, rfl⟩ : ∃ (p : Fin 128) (q : Fin 128), i = ix2 p q := ⟨i 0, i 1, eq_ix2 i⟩
  exact matWin_apply 0 W _ _ 0 rfl p q
theorem mat1_eq (W : FVec Ideal Cert.ReferenceIdeal.S3x128x128 .f32) :
    Cert.ReferenceIdeal.Layer.mat1 (F := Ideal) W = matOf W 1 := by
  funext i
  obtain ⟨p, q, rfl⟩ : ∃ (p : Fin 128) (q : Fin 128), i = ix2 p q := ⟨i 0, i 1, eq_ix2 i⟩
  exact matWin_apply 1 W _ _ 1 rfl p q
theorem mat2_eq (W : FVec Ideal Cert.ReferenceIdeal.S3x128x128 .f32) :
    Cert.ReferenceIdeal.Layer.mat2 (F := Ideal) W = matOf W 2 := by
  funext i
  obtain ⟨p, q, rfl⟩ : ∃ (p : Fin 128) (q : Fin 128), i = ix2 p q := ⟨i 0, i 1, eq_ix2 i⟩
  exact matWin_apply 2 W _ _ 2 rfl p q

theorem vec0_eq (B : FVec Ideal Cert.ReferenceIdeal.S3x128 .f32) :
    Cert.ReferenceIdeal.Layer.vec0 (F := Ideal) B = vecOf B 0 := by
  funext i
  obtain ⟨q, rfl⟩ : ∃ (q : Fin 128), i = ix1 q := ⟨i 0, eq_ix1 i⟩
  exact vecWin_apply 0 B _ _ 0 rfl q
theorem vec1_eq (B : FVec Ideal Cert.ReferenceIdeal.S3x128 .f32) :
    Cert.ReferenceIdeal.Layer.vec1 (F := Ideal) B = vecOf B 1 := by
  funext i
  obtain ⟨q, rfl⟩ : ∃ (q : Fin 128), i = ix1 q := ⟨i 0, eq_ix1 i⟩
  exact vecWin_apply 1 B _ _ 1 rfl q
theorem vec2_eq (B : FVec Ideal Cert.ReferenceIdeal.S3x128 .f32) :
    Cert.ReferenceIdeal.Layer.vec2 (F := Ideal) B = vecOf B 2 := by
  funext i
  obtain ⟨q, rfl⟩ : ∃ (q : Fin 128), i = ix1 q := ⟨i 0, eq_ix1 i⟩
  exact vecWin_apply 2 B _ _ 2 rfl q

/-! ## The degree column -/

theorem degCol_eq (dst' : IVec Cert.KernelIdeal.S800000 32) :
    Cert.KernelIdeal.Edge.degCol (F := Ideal) dst' = colOf (Cert.KernelIdeal.Edge.degOf (F := Ideal) dst') := by
  funext i
  obtain ⟨n, u, rfl⟩ : ∃ (n : Fin 50000) (u : Fin 1), i = ix2 n u := ⟨i 0, i 1, eq_ix2 i⟩
  exact shapeCast_a_a1_apply _ _ n u

end Cert.Proof.Layouts

end
-- ==== Proof.Bridge.lean ====
/-
  The kernel's network and the reference's are one function of the arguments, when every source index of the
  edge list lies in [-50000, 50000).

  Layer by layer. Both programs hand the same layer function (Spec) its eight arguments:
  * the aggregated messages: the kernel sums, at each destination, the gathered source rows over the edges SORTED
    by destination, with a mask that replaces a row whose source is outside the table; under the range
    hypothesis the mask is never false, and a sum over the edges does not depend on their order, so this is the
    reference's sum over the edges as given;
  * the in-degree column: likewise a sum of ones over the sorted destinations, re-laid as a column;
  * the features: the previous layer's result, the same on both sides by the previous step;
  * the weights: the kernel slices layer l out of the stack it transposed beforehand, the reference transposes
    the slice: the same matrix; the bias, scale and shift: a slice of a stacked vector re-laid as a row.
  The operations the two programs share are spelt in each program's own names for its shapes and records; those
  spellings are equal by definition.
-/
import proofs.«417933_j80195629351383_2_alg».proof.Proof.KerNet
import proofs.«417933_j80195629351383_2_alg».proof.Proof.RefLayerDef
import proofs.«417933_j80195629351383_2_alg».proof.Proof.AggPerm
import proofs.«417933_j80195629351383_2_alg».proof.Proof.RefLayer
import proofs.«417933_j80195629351383_2_alg».proof.Proof.Layouts

noncomputable section

namespace Cert.Proof.Bridge

open Idealize.ShloMosaic Cert.Sage
open Cert.KernelIdeal.Edge (kerLayer kerNet aggK aggOf degOf degCol dstK takeIdx wK0 wK1 wK2 rowK0 rowK1 rowK2)
open Cert.ReferenceIdeal.Layer (refLayer refNet refTail aggR degR mat0 mat1 mat2 vec0 vec1 vec2)

/-- The two programs take the same source row out of the edge list. -/
theorem srcRow_eq (E : IVec Cert.KernelIdeal.S2x800000 32) :
    Cert.KernelIdeal.Edge.srcRow E = Cert.ReferenceIdeal.Layer.srcRow E := rfl

/-- And the same destination row. -/
theorem dstRow_eq (E : IVec Cert.KernelIdeal.S2x800000 32) :
    Cert.KernelIdeal.Edge.dstRow E = Cert.ReferenceIdeal.Layer.dstRow E := rfl

/-- The kernel's sum of the unmasked gathered rows over the edges as given is the reference's aggregate. -/
theorem agg_cross (h : FVec Ideal Cert.KernelIdeal.S50000x128 .f32) (src dst : IVec Cert.KernelIdeal.S800000 32) :
    aggOf (F := Ideal) dst (Host.gather Cert.KernelIdeal.gather_S50000x128_S800000x1_S800000x128_1_0_n_n_0_1_1128 h (takeIdx src))
      = aggR (F := Ideal) h src dst := rfl

/-- The kernel's in-degree over the edges as given is the reference's. -/
theorem deg_cross (dst : IVec Cert.KernelIdeal.S800000 32) : degOf (F := Ideal) dst = degR (F := Ideal) dst := rfl

section Layer

variable (h : FVec Ideal Cert.KernelIdeal.S50000x128 .f32) (E : IVec Cert.KernelIdeal.S2x800000 32)
  (hr : ∀ e : Cert.KernelIdeal.S800000.Idx,
    -50000 ≤ (Cert.KernelIdeal.Edge.srcRow E e).toInt ∧ (Cert.KernelIdeal.Edge.srcRow E e).toInt < 50000)

include hr

/-- What the two programs hand the layer function first and second: the aggregated messages and the in-degree column. -/
theorem agg_deg_eq :
    aggK (F := Ideal) h (Cert.KernelIdeal.Edge.srcRow E) (Cert.KernelIdeal.Edge.dstRow E)
        = aggR (F := Ideal) h (Cert.ReferenceIdeal.Layer.srcRow E) (Cert.ReferenceIdeal.Layer.dstRow E)
      ∧ degCol (F := Ideal) (dstK (Cert.KernelIdeal.Edge.dstRow E))
        = colOf (degR (F := Ideal) (Cert.ReferenceIdeal.Layer.dstRow E)) := by
  refine ⟨?_, ?_⟩
  · rw [Cert.KernelIdeal.Edge.aggK_eq h _ _ hr, agg_cross, srcRow_eq, dstRow_eq]
  · rw [Cert.Proof.Layouts.degCol_eq, Cert.KernelIdeal.Edge.degOf_sorted, deg_cross, dstRow_eq]

/-- Layer 0 of the two programs. -/
theorem layer0_eq (Wl : FVec Ideal Cert.KernelIdeal.S3x128x128 .f32) (Bl : FVec Ideal Cert.KernelIdeal.S3x128 .f32)
    (Wr : FVec Ideal Cert.KernelIdeal.S3x128x128 .f32) (G B : FVec Ideal Cert.KernelIdeal.S3x128 .f32) :
    kerLayer h E (wK0 Wl) (rowK0 Bl) (wK0 Wr) (rowK0 G) (rowK0 B)
      = refLayer (F := Ideal) h (Cert.ReferenceIdeal.Layer.srcRow E) (Cert.ReferenceIdeal.Layer.dstRow E)
          (mat0 Wl) (vec0 Bl) (mat0 Wr) (vec0 G) (vec0 B) := by
  unfold kerLayer refLayer
  rw [Cert.ReferenceIdeal.Layer.refTail_spec, (agg_deg_eq h E hr).1, (agg_deg_eq h E hr).2,
    Cert.Proof.Layouts.wK0_eq, Cert.Proof.Layouts.wK0_eq, Cert.Proof.Layouts.rowK0_eq, Cert.Proof.Layouts.rowK0_eq,
    Cert.Proof.Layouts.rowK0_eq, Cert.Proof.Layouts.mat0_eq, Cert.Proof.Layouts.mat0_eq, Cert.Proof.Layouts.vec0_eq,
    Cert.Proof.Layouts.vec0_eq, Cert.Proof.Layouts.vec0_eq]

/-- Layer 1 of the two programs. -/
theorem layer1_eq (Wl : FVec Ideal Cert.KernelIdeal.S3x128x128 .f32) (Bl : FVec Ideal Cert.KernelIdeal.S3x128 .f32)
    (Wr : FVec Ideal Cert.KernelIdeal.S3x128x128 .f32) (G B : FVec Ideal Cert.KernelIdeal.S3x128 .f32) :
    kerLayer h E (wK1 Wl) (rowK1 Bl) (wK1 Wr) (rowK1 G) (rowK1 B)
      = refLayer (F := Ideal) h (Cert.ReferenceIdeal.Layer.srcRow E) (Cert.ReferenceIdeal.Layer.dstRow E)
          (mat1 Wl) (vec1 Bl) (mat1 Wr) (vec1 G) (vec1 B) := by
  unfold kerLayer refLayer
  rw [Cert.ReferenceIdeal.Layer.refTail_spec, (agg_deg_eq h E hr).1, (agg_deg_eq h E hr).2,
    Cert.Proof.Layouts.wK1_eq, Cert.Proof.Layouts.wK1_eq, Cert.Proof.Layouts.rowK1_eq, Cert.Proof.Layouts.rowK1_eq,
    Cert.Proof.Layouts.rowK1_eq, Cert.Proof.Layouts.mat1_eq, Cert.Proof.Layouts.mat1_eq, Cert.Proof.Layouts.vec1_eq,
    Cert.Proof.Layouts.vec1_eq, Cert.Proof.Layouts.vec1_eq]

/-- Layer 2 of the two programs. -/
theorem layer2_eq (Wl : FVec Ideal Cert.KernelIdeal.S3x128x128 .f32) (Bl : FVec Ideal Cert.KernelIdeal.S3x128 .f32)
    (Wr : FVec Ideal Cert.KernelIdeal.S3x128x128 .f32) (G B : FVec Ideal Cert.KernelIdeal.S3x128 .f32) :
    kerLayer h E (wK2 Wl) (rowK2 Bl) (wK2 Wr) (rowK2 G) (rowK2 B)
      = refLayer (F := Ideal) h (Cert.ReferenceIdeal.Layer.srcRow E) (Cert.ReferenceIdeal.Layer.dstRow E)
          (mat2 Wl) (vec2 Bl) (mat2 Wr) (vec2 G) (vec2 B) := by
  unfold kerLayer refLayer
  rw [Cert.ReferenceIdeal.Layer.refTail_spec, (agg_deg_eq h E hr).1, (agg_deg_eq h E hr).2,
    Cert.Proof.Layouts.wK2_eq, Cert.Proof.Layouts.wK2_eq, Cert.Proof.Layouts.rowK2_eq, Cert.Proof.Layouts.rowK2_eq,
    Cert.Proof.Layouts.rowK2_eq, Cert.Proof.Layouts.mat2_eq, Cert.Proof.Layouts.mat2_eq, Cert.Proof.Layouts.vec2_eq,
    Cert.Proof.Layouts.vec2_eq, Cert.Proof.Layouts.vec2_eq]

end Layer

/-- The two networks are one function of the arguments: three layers, each the same on both sides once the
    previous one is. -/
theorem net_eq (h0 : FVec Ideal Cert.KernelIdeal.S50000x128 .f32) (E : IVec Cert.KernelIdeal.S2x800000 32)
    (hr : ∀ e : Cert.KernelIdeal.S800000.Idx,
      -50000 ≤ (Cert.KernelIdeal.Edge.srcRow E e).toInt ∧ (Cert.KernelIdeal.Edge.srcRow E e).toInt < 50000)
    (Wl : FVec Ideal Cert.KernelIdeal.S3x128x128 .f32) (Bl : FVec Ideal Cert.KernelIdeal.S3x128 .f32)
    (Wr : FVec Ideal Cert.KernelIdeal.S3x128x128 .f32) (G B : FVec Ideal Cert.KernelIdeal.S3x128 .f32) :
    kerNet h0 E Wl Bl Wr G B = refNet (F := Ideal) h0 E Wl Bl Wr G B := by
  unfold kerNet refNet
  rw [layer0_eq h0 E hr, layer1_eq _ E hr, layer2_eq _ E hr]

end Cert.Proof.Bridge

end
-- ==== Proof.lean ====
/-
  The certificate: three layers of a graph network, computed two ways, give the same result on the extended
  reals whenever every source index of the edge list lies in [-50000, 50000).

  A layer gathers, for every edge, the feature row its source names, sums these at the edge's destination, divides
  by the in-degree floored at one, applies two 128 x 128 matrices (one to this mean, one to the node's own
  features) with a bias, normalises each row over its 128 channels, rectifies, and adds the features back.
  The reference does this with the edges as given. The kernel's program first sorts the edges by destination,
  gathers through a range mask, and does everything after the sums in a Pallas kernel over ten blocks of 5000
  rows, with the weights transposed beforehand.

  Why they agree. A sum over the edges does not depend on their order, and the stable argsort is a permutation of
  them. The range mask is never false when the source indices are in range (both programs count an index below
  zero from the end, so in range means [-50000, 50000)); outside that range the reference reads a clamped row
  where the kernel writes the not-a-number word, which is why the hypothesis is there. After the sums the two
  programs apply the same operations in the same order and grouping, row by row: a block of rows is computed by
  itself, a slice of the transposed weight stack is the transpose of the slice, and the change of float format
  in the kernel is the identity on the extended reals. So each layer is ONE function of the features, the edge list
  and the parameters on both sides (Spec), and three layers compose.

  The three frames: the kernel's two programs by their generated frames; the reference by its run with the result
  dropped. The idealisation rewrote nothing, so `preserves` is `True`.
-/
import proofs.«417933_j80195629351383_2_alg».proof.Defs
import proofs.«417933_j80195629351383_2_alg».proof.Proof.Gen.Kernel
import proofs.«417933_j80195629351383_2_alg».proof.Proof.Gen.Kernel.Frame
import proofs.«417933_j80195629351383_2_alg».proof.Proof.Gen.KernelIdeal
import proofs.«417933_j80195629351383_2_alg».proof.Proof.Gen.KernelIdeal.Frame
import proofs.«417933_j80195629351383_2_alg».proof.Proof.Gen.ReferenceIdeal
import proofs.«417933_j80195629351383_2_alg».proof.Proof.Gen.Pre_finite_inputs
import proofs.«417933_j80195629351383_2_alg».proof.Proof.PreRange
import proofs.«417933_j80195629351383_2_alg».proof.Proof.KernelIdealRun
import proofs.«417933_j80195629351383_2_alg».proof.Proof.KerChain
import proofs.«417933_j80195629351383_2_alg».proof.Proof.RefChain
import proofs.«417933_j80195629351383_2_alg».proof.Proof.Bridge
import Idealize.ShloMosaic.Adequacy
import Idealize.ShloMosaic.Init

noncomputable section

namespace Cert.Proof

open Idealize.ShloMosaic Idealize.SL.Sem

/-- The kernel's program as printed runs, and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does its idealisation. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs, and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Chain.run (F := Ideal) m ρ)

/-- From memories that agree on the arguments both programs end at the network function of those arguments:
    the kernel's by its run read back through its three regions, the reference's by its run read one layer at a
    time, and the two network functions are one under the range hypothesis, which the precondition supplies. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Edge.kerNet
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Chain.result_val m ρ c), (h c).2⟩)
      (Cert.KernelIdeal.RunW.run (F := Ideal) m ρ)
  · refine (θ_run Cert.ReferenceIdeal.defs _ _).mono (fun _ h c => ⟨(h c).1.trans ?_, (h c).2⟩)
      (Cert.ReferenceIdeal.Chain.run (F := Ideal) m' ρ')
    rw [(hagree c).1, (hagree c).2.1, (hagree c).2.2.1, (hagree c).2.2.2.1, (hagree c).2.2.2.2.1,
      (hagree c).2.2.2.2.2.1, (hagree c).2.2.2.2.2.2]
    exact (Cert.Proof.Bridge.net_eq _ _ (Cert.Proof.PreRange.src_range m hpre c) _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
